-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x256 : Shape := ⟨2, ![2, 256]⟩
abbrev S2 : Shape := ⟨1, ![2]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_
  bcast_S_S600000 : S_.BroadcastsInDim S600000 (![] : Fin 0 → Fin S600000.rank)
  reducesTo_S600000_S_d0 : S600000.ReducesTo [0] S_

variable [Facts]

def fn_part1 {F : FTy → Type} [FloatOps F] (main_arg3 : IVec S600000 32) (main_arg4 : IVec S600000 32) (main_v13 : IVec S_ 1) (main_v15 : IVec S600000 1) (main_c_5 : IVec S_ 32) : IVec S_ 1 :=
  let main_v16 : IVec S600000 32 := broadcastInDim S600000 ![] bcast_S_S600000 main_c_5
  let main_v17 : IVec S600000 1 := cmpi .slt main_arg3 main_v16
  let main_v18 : IVec S600000 1 := andi main_v15 main_v17
  let main_c_6 : IVec S_ 1 := constantI S_ 1 1#1
  let main_v19 : IVec S_ 1 := (fun x v => Host.reduce IntOp.andi x v reducesTo_S600000_S_d0 h_S_) main_v18 main_c_6
  let main_v20 : IVec S_ 1 := andi main_v13 main_v19
  let main_c_7 : IVec S_ 32 := constantI S_ 32 0#32
  let main_v21 : IVec S600000 32 := broadcastInDim S600000 ![] bcast_S_S600000 main_c_7
  let main_v22 : IVec S600000 1 := cmpi .sge main_arg4 main_v21
  let main_c_8 : IVec S_ 32 := constantI S_ 32 50000#32
  let main_v23 : IVec S600000 32 := broadcastInDim S600000 ![] bcast_S_S600000 main_c_8
  let main_v24 : IVec S600000 1 := cmpi .slt main_arg4 main_v23
  let main_v25 : IVec S600000 1 := andi main_v22 main_v24
  let main_c_9 : IVec S_ 1 := constantI S_ 1 1#1
  let main_v26 : IVec S_ 1 := (fun x v => Host.reduce IntOp.andi x v reducesTo_S600000_S_d0 h_S_) main_v25 main_c_9
  let main_v27 : IVec S_ 1 := andi main_v20 main_v26
  main_v27

def fn {F : FTy → Type} [FloatOps F] (main_arg0 : FVec F S50000x128 .f32) (main_arg1 : FVec F S2x256 .f32) (main_arg2 : FVec F S2 .f32) (main_arg3 : IVec S600000 32) (main_arg4 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x256 .f32 := Host.absf main_arg1
  let main_cst_0 : FVec F S_ .f32 := constant S_ .f32 0x7F800000#32
  let main_v5 : FVec F S2x256 .f32 := broadcastInDim S2x256 ![] bcast_S_S2x256 main_cst_0
  let main_v6 : IVec S2x256 1 := cmpf .olt main_v4 main_v5
  let main_c_1 : IVec S_ 1 := constantI S_ 1 1#1
  let main_v7 : IVec S_ 1 := (fun x v => Host.reduce IntOp.andi x v reducesTo_S2x256_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_c_4 : IVec S_ 32 := constantI S_ 32 0#32
  let main_v14 : IVec S600000 32 := broadcastInDim S600000 ![] bcast_S_S600000 main_c_4
  let main_v15 : IVec S600000 1 := cmpi .sge main_arg3 main_v14
  let main_c_5 : IVec S_ 32 := constantI S_ 32 50000#32
  fn_part1 (F := F) main_arg3 main_arg4 main_v13 main_v15 main_c_5
-- ==== Kernel.lean ====
abbrev S50000x128 : Shape := ⟨2, ![50000, 128]⟩
abbrev S2x256 : Shape := ⟨2, ![2, 256]⟩
abbrev S2 : Shape := ⟨1, ![2]⟩
abbrev S600000 : Shape := ⟨1, ![600000]⟩
abbrev S_ : Shape := ⟨0, ![]⟩
abbrev S64 : Shape := ⟨1, ![64]⟩
abbrev S600064 : Shape := ⟨1, ![600064]⟩
abbrev S4688x1x128 : Shape := ⟨3, ![4688, 1, 128]⟩
abbrev S1x2 : Shape := ⟨2, ![1, 2]⟩
abbrev S600064x2 : Shape := ⟨2, ![600064, 2]⟩
abbrev S1x1x128 : Shape := ⟨3, ![1, 1, 128]⟩
abbrev S128x2 : Shape := ⟨2, ![128, 2]⟩
abbrev S128x128 : Shape := ⟨2, ![128, 128]⟩
abbrev S8 : Shape := ⟨1, ![8]⟩
abbrev S1x1x1 : Shape := ⟨3, ![1, 1, 1]⟩
abbrev S1 : Shape := ⟨1, ![1]⟩
abbrev S1x128 : Shape := ⟨2, ![1, 128]⟩
abbrev S128 : Shape := ⟨1, ![128]⟩
abbrev S2x128 : Shape := ⟨2, ![2, 128]⟩
abbrev S600000x2 : Shape := ⟨2, ![600000, 2]⟩

abbrev nBuf : Space → Nat
  | .hbm => 16
  | .vmem => 6
  | .smem => 4
  | _ => 0

abbrev bufTy : (tb : Table) → Fin (tcTables nBuf tb) → BufTy
  | .hbm, ⟨0, _⟩ => ⟨S50000x128, .f32⟩
  | .hbm, ⟨1, _⟩ => ⟨S2x256, .f32⟩
  | .hbm, ⟨2, _⟩ => ⟨S2, .f32⟩
  | .hbm, ⟨3, _⟩ => ⟨S600000, .i32⟩
  | .hbm, ⟨4, _⟩ => ⟨S600000, .i32⟩
  | .hbm, ⟨5, _⟩ => ⟨S_, .i32⟩
  | .hbm, ⟨6, _⟩ => ⟨S64, .i32⟩
  | .hbm, ⟨7, _⟩ => ⟨S600064, .i32⟩
  | .hbm, ⟨8, _⟩ => ⟨S4688x1x128, .i32⟩
  | .hbm, ⟨9, _⟩ => ⟨S_, .i32⟩
  | .hbm, ⟨10, _⟩ => ⟨S64, .i32⟩
  | .hbm, ⟨11, _⟩ => ⟨S600064, .i32⟩
  | .hbm, ⟨12, _⟩ => ⟨S4688x1x128, .i32⟩
  | .hbm, ⟨13, _⟩ => ⟨S1x2, .f32⟩
  | .hbm, ⟨14, _⟩ => ⟨S600064x2, .f32⟩
  | .hbm, ⟨15, _⟩ => ⟨S600000x2, .f32⟩
  | .local _ .vmem, ⟨0, _⟩ => ⟨S2x256, .f32⟩
  | .local _ .vmem, ⟨1, _⟩ => ⟨S1x2, .f32⟩
  | .local _ .vmem, ⟨2, _⟩ => ⟨S128x2, .f32⟩
  | .local _ .vmem, ⟨3, _⟩ => ⟨S128x2, .f32⟩
  | .local _ .vmem, ⟨4, _⟩ => ⟨S128x128, .f32⟩
  | .local _ .vmem, ⟨5, _⟩ => ⟨S128x128, .f32⟩
  | .local _ .smem, ⟨0, _⟩ => ⟨S1x1x128, .i32⟩
  | .local _ .smem, ⟨1, _⟩ => ⟨S1x1x128, .i32⟩
  | .local _ .smem, ⟨2, _⟩ => ⟨S1x1x128, .i32⟩
  | .local _ .smem, ⟨3, _⟩ => ⟨S1x1x128, .i32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4688], ![false]⟩

def k0_off1 (v0 : BitVec 32) : Fin 2 → Nat :=
  let c0_i32_4 : BitVec 32 := 0#32
  ![v0.toNat, 0]

def k0_chk1 (v0 : BitVec 32) : Prop :=
  (∀ a, (k0_off1 v0) a + S1x128.size a ≤ S50000x128.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x128.size a ≤ S50000x128.size a := fun v0 k0_hw1 => k0_hw1

def k0_off2 (v7 : BitVec 32) : Fin 2 → Nat :=
  let c0_i32_9 : BitVec 32 := 0#32
  ![v7.toNat, 0]

def k0_chk2 (v7 : BitVec 32) : Prop :=
  (∀ a, (k0_off2 v7) a + S1x128.size a ≤ S50000x128.size a)
instance k0_chk2.dec : ∀ (v7 : BitVec 32), Decidable (k0_chk2 v7) := fun v7 => decidable_of_iff' _ (Iff.of_eq (k0_chk2.eq_1 v7))
theorem k0_off2_inb : ∀ (v7 : BitVec 32) (k0_hw2 : k0_chk2 v7), ∀ a, (k0_off2 v7) a + S1x128.size a ≤ S50000x128.size a := fun v7 k0_hw2 => k0_hw2

def k0_off3 (v14 : BitVec 32) : Fin 2 → Nat :=
  let c0_i32_14 : BitVec 32 := 0#32
  ![v14.toNat, 0]

def k0_chk3 (v14 : BitVec 32) : Prop :=
  (∀ a, (k0_off3 v14) a + S1x128.size a ≤ S50000x128.size a)
instance k0_chk3.dec : ∀ (v14 : BitVec 32), Decidable (k0_chk3 v14) := fun v14 => decidable_of_iff' _ (Iff.of_eq (k0_chk3.eq_1 v14))
theorem k0_off3_inb : ∀ (v14 : BitVec 32) (k0_hw3 : k0_chk3 v14), ∀ a, (k0_off3 v14) a + S1x128.size a ≤ S50000x128.size a := fun v14 k0_hw3 => k0_hw3

def k0_off4 (v21 : BitVec 32) : Fin 2 → Nat :=
  let c0_i32_19 : BitVec 32 := 0#32
  ![v21.toNat, 0]

def k0_chk4 (v21 : BitVec 32) : Prop :=
  (∀ a, (k0_off4 v21) a + S1x128.size a ≤ S50000x128.size a)
instance k0_chk4.dec : ∀ (v21 : BitVec 32), Decidable (k0_chk4 v21) := fun v21 => decidable_of_iff' _ (Iff.of_eq (k0_chk4.eq_1 v21))
theorem k0_off4_inb : ∀ (v21 : BitVec 32) (k0_hw4 : k0_chk4 v21), ∀ a, (k0_off4 v21) a + S1x128.size a ≤ S50000x128.size a := fun v21 k0_hw4 => k0_hw4

def k0_off5 (v28 : BitVec 32) : Fin 2 → Nat :=
  let c0_i32_24 : BitVec 32 := 0#32
  ![v28.toNat, 0]

def k0_chk5 (v28 : BitVec 32) : Prop :=
  (∀ a, (k0_off5 v28) a + S1x128.size a ≤ S50000x128.size a)
instance k0_chk5.dec : ∀ (v28 : BitVec 32), Decidable (k0_chk5 v28) := fun v28 => decidable_of_iff' _ (Iff.of_eq (k0_chk5.eq_1 v28))
theorem k0_off5_inb : ∀ (v28 : BitVec 32) (k0_hw5 : k0_chk5 v28), ∀ a, (k0_off5 v28) a + S1x128.size a ≤ S50000x128.size a := fun v28 k0_hw5 => k0_hw5

def k0_off6 (v35 : BitVec 32) : Fin 2 → Nat :=
  let c0_i32_29 : BitVec 32 := 0#32
  ![v35.toNat, 0]

def k0_chk6 (v35 : BitVec 32) : Prop :=
  (∀ a, (k0_off6 v35) a + S1x128.size a ≤ S50000x128.size a)
instance k0_chk6.dec : ∀ (v35 : BitVec 32), Decidable (k0_chk6 v35) := fun v35 => decidable_of_iff' _ (Iff.of_eq (k0_chk6.eq_1 v35))
theorem k0_off6_inb : ∀ (v35 : BitVec 32) (k0_hw6 : k0_chk6 v35), ∀ a, (k0_off6 v35) a + S1x128.size a ≤ S50000x128.size a := fun v35 k0_hw6 => k0_hw6

def k0_off7 (v42 : BitVec 32) : Fin 2 → Nat :=
  let c0_i32_34 : BitVec 32 := 0#32
  ![v42.toNat, 0]

def k0_chk7 (v42 : BitVec 32) : Prop :=
  (∀ a, (k0_off7 v42) a + S1x128.size a ≤ S50000x128.size a)
instance k0_chk7.dec : ∀ (v42 : BitVec 32), Decidable (k0_chk7 v42) := fun v42 => decidable_of_iff' _ (Iff.of_eq (k0_chk7.eq_1 v42))
theorem k0_off7_inb : ∀ (v42 : BitVec 32) (k0_hw7 : k0_chk7 v42), ∀ a, (k0_off7 v42) a + S1x128.size a ≤ S50000x128.size a := fun v42 k0_hw7 => k0_hw7

def k0_off8 (v49 : BitVec 32) : Fin 2 → Nat :=
  let c0_i32_39 : BitVec 32 := 0#32
  ![v49.toNat, 0]

def k0_chk8 (v49 : BitVec 32) : Prop :=
  (∀ a, (k0_off8 v49) a + S1x128.size a ≤ S50000x128.size a)
instance k0_chk8.dec : ∀ (v49 : BitVec 32), Decidable (k0_chk8 v49) := fun v49 => decidable_of_iff' _ (Iff.of_eq (k0_chk8.eq_1 v49))
theorem k0_off8_inb : ∀ (v49 : BitVec 32) (k0_hw8 : k0_chk8 v49), ∀ a, (k0_off8 v49) a + S1x128.size a ≤ S50000x128.size a := fun v49 k0_hw8 => k0_hw8

def k0_off9 (v62 : BitVec 32) : Fin 2 → Nat :=
  let c0_i32_49 : BitVec 32 := 0#32
  ![v62.toNat, 0]

def k0_chk9 (v62 : BitVec 32) : Prop :=
  (∀ a, (k0_off9 v62) a + S1x128.size a ≤ S50000x128.size a)
instance k0_chk9.dec : ∀ (v62 : BitVec 32), Decidable (k0_chk9 v62) := fun v62 => decidable_of_iff' _ (Iff.of_eq (k0_chk9.eq_1 v62))
theorem k0_off9_inb : ∀ (v62 : BitVec 32) (k0_hw9 : k0_chk9 v62), ∀ a, (k0_off9 v62) a + S1x128.size a ≤ S50000x128.size a := fun v62 k0_hw9 => k0_hw9

def k0_off10 (v75 : BitVec 32) : Fin 2 → Nat :=
  let c0_i32_59 : BitVec 32 := 0#32
  ![v75.toNat, 0]

def k0_chk10 (v75 : BitVec 32) : Prop :=
  (∀ a, (k0_off10 v75) a + S1x128.size a ≤ S50000x128.size a)
instance k0_chk10.dec : ∀ (v75 : BitVec 32), Decidable (k0_chk10 v75) := fun v75 => decidable_of_iff' _ (Iff.of_eq (k0_chk10.eq_1 v75))
theorem k0_off10_inb : ∀ (v75 : BitVec 32) (k0_hw10 : k0_chk10 v75), ∀ a, (k0_off10 v75) a + S1x128.size a ≤ S50000x128.size a := fun v75 k0_hw10 => k0_hw10

def k0_off11 (v88 : BitVec 32) : Fin 2 → Nat :=
  let c0_i32_69 : BitVec 32 := 0#32
  ![v88.toNat, 0]

def k0_chk11 (v88 : BitVec 32) : Prop :=
  (∀ a, (k0_off11 v88) a + S1x128.size a ≤ S50000x128.size a)
instance k0_chk11.dec : ∀ (v88 : BitVec 32), Decidable (k0_chk11 v88) := fun v88 => decidable_of_iff' _ (Iff.of_eq (k0_chk11.eq_1 v88))
theorem k0_off11_inb : ∀ (v88 : BitVec 32) (k0_hw11 : k0_chk11 v88), ∀ a, (k0_off11 v88) a + S1x128.size a ≤ S50000x128.size a := fun v88 k0_hw11 => k0_hw11

def k0_off12 (v101 : BitVec 32) : Fin 2 → Nat :=
  let c0_i32_79 : BitVec 32 := 0#32
  ![v101.toNat, 0]

def k0_chk12 (v101 : BitVec 32) : Prop :=
  (∀ a, (k0_off12 v101) a + S1x128.size a ≤ S50000x128.size a)
instance k0_chk12.dec : ∀ (v101 : BitVec 32), Decidable (k0_chk12 v101) := fun v101 => decidable_of_iff' _ (Iff.of_eq (k0_chk12.eq_1 v101))
theorem k0_off12_inb : ∀ (v101 : BitVec 32) (k0_hw12 : k0_chk12 v101), ∀ a, (k0_off12 v101) a + S1x128.size a ≤ S50000x128.size a := fun v101 k0_hw12 => k0_hw12

def k0_off13 (v114 : BitVec 32) : Fin 2 → Nat :=
  let c0_i32_89 : BitVec 32 := 0#32
  ![v114.toNat, 0]

def k0_chk13 (v114 : BitVec 32) : Prop :=
  (∀ a, (k0_off13 v114) a + S1x128.size a ≤ S50000x128.size a)
instance k0_chk13.dec : ∀ (v114 : BitVec 32), Decidable (k0_chk13 v114) := fun v114 => decidable_of_iff' _ (Iff.of_eq (k0_chk13.eq_1 v114))
theorem k0_off13_inb : ∀ (v114 : BitVec 32) (k0_hw13 : k0_chk13 v114), ∀ a, (k0_off13 v114) a + S1x128.size a ≤ S50000x128.size a := fun v114 k0_hw13 => k0_hw13

def k0_off14 (v127 : BitVec 32) : Fin 2 → Nat :=
  let c0_i32_99 : BitVec 32 := 0#32
  ![v127.toNat, 0]

def k0_chk14 (v127 : BitVec 32) : Prop :=
  (∀ a, (k0_off14 v127) a + S1x128.size a ≤ S50000x128.size a)
instance k0_chk14.dec : ∀ (v127 : BitVec 32), Decidable (k0_chk14 v127) := fun v127 => decidable_of_iff' _ (Iff.of_eq (k0_chk14.eq_1 v127))
theorem k0_off14_inb : ∀ (v127 : BitVec 32) (k0_hw14 : k0_chk14 v127), ∀ a, (k0_off14 v127) a + S1x128.size a ≤ S50000x128.size a := fun v127 k0_hw14 => k0_hw14

def k0_off15 (v140 : BitVec 32) : Fin 2 → Nat :=
  let c0_i32_109 : BitVec 32 := 0#32
  ![v140.toNat, 0]

def k0_chk15 (v140 : BitVec 32) : Prop :=
  (∀ a, (k0_off15 v140) a + S1x128.size a ≤ S50000x128.size a)
instance k0_chk15.dec : ∀ (v140 : BitVec 32), Decidable (k0_chk15 v140) := fun v140 => decidable_of_iff' _ (Iff.of_eq (k0_chk15.eq_1 v140))
theorem k0_off15_inb : ∀ (v140 : BitVec 32) (k0_hw15 : k0_chk15 v140), ∀ a, (k0_off15 v140) a + S1x128.size a ≤ S50000x128.size a := fun v140 k0_hw15 => k0_hw15

def k0_off16 (v153 : BitVec 32) : Fin 2 → Nat :=
  let c0_i32_119 : BitVec 32 := 0#32
  ![v153.toNat, 0]

def k0_chk16 (v153 : BitVec 32) : Prop :=
  (∀ a, (k0_off16 v153) a + S1x128.size a ≤ S50000x128.size a)
instance k0_chk16.dec : ∀ (v153 : BitVec 32), Decidable (k0_chk16 v153) := fun v153 => decidable_of_iff' _ (Iff.of_eq (k0_chk16.eq_1 v153))
theorem k0_off16_inb : ∀ (v153 : BitVec 32) (k0_hw16 : k0_chk16 v153), ∀ a, (k0_off16 v153) a + S1x128.size a ≤ S50000x128.size a := fun v153 k0_hw16 => k0_hw16

def k0_off17 (v166 : BitVec 32) : Fin 2 → Nat :=
  let c0_i32_129 : BitVec 32 := 0#32
  ![v166.toNat, 0]

def k0_chk17 (v166 : BitVec 32) : Prop :=
  (∀ a, (k0_off17 v166) a + S1x128.size a ≤ S50000x128.size a)
instance k0_chk17.dec : ∀ (v166 : BitVec 32), Decidable (k0_chk17 v166) := fun v166 => decidable_of_iff' _ (Iff.of_eq (k0_chk17.eq_1 v166))
theorem k0_off17_inb : ∀ (v166 : BitVec 32) (k0_hw17 : k0_chk17 v166), ∀ a, (k0_off17 v166) a + S1x128.size a ≤ S50000x128.size a := fun v166 k0_hw17 => k0_hw17

def k0_off18 (v179 : BitVec 32) : Fin 2 → Nat :=
  let c0_i32_139 : BitVec 32 := 0#32
  ![v179.toNat, 0]

def k0_chk18 (v179 : BitVec 32) : Prop :=
  (∀ a, (k0_off18 v179) a + S1x128.size a ≤ S50000x128.size a)
instance k0_chk18.dec : ∀ (v179 : BitVec 32), Decidable (k0_chk18 v179) := fun v179 => decidable_of_iff' _ (Iff.of_eq (k0_chk18.eq_1 v179))
theorem k0_off18_inb : ∀ (v179 : BitVec 32) (k0_hw18 : k0_chk18 v179), ∀ a, (k0_off18 v179) a + S1x128.size a ≤ S50000x128.size a := fun v179 k0_hw18 => k0_hw18

def k0_off19 (v192 : BitVec 32) : Fin 2 → Nat :=
  let c0_i32_149 : BitVec 32 := 0#32
  ![v192.toNat, 0]

def k0_chk19 (v192 : BitVec 32) : Prop :=
  (∀ a, (k0_off19 v192) a + S1x128.size a ≤ S50000x128.size a)
instance k0_chk19.dec : ∀ (v192 : BitVec 32), Decidable (k0_chk19 v192) := fun v192 => decidable_of_iff' _ (Iff.of_eq (k0_chk19.eq_1 v192))
theorem k0_off19_inb : ∀ (v192 : BitVec 32) (k0_hw19 : k0_chk19 v192), ∀ a, (k0_off19 v192) a + S1x128.size a ≤ S50000x128.size a := fun v192 k0_hw19 => k0_hw19

def k0_off20 (v205 : BitVec 32) : Fin 2 → Nat :=
  let c0_i32_159 : BitVec 32 := 0#32
  ![v205.toNat, 0]

def k0_chk20 (v205 : BitVec 32) : Prop :=
  (∀ a, (k0_off20 v205) a + S1x128.size a ≤ S50000x128.size a)
instance k0_chk20.dec : ∀ (v205 : BitVec 32), Decidable (k0_chk20 v205) := fun v205 => decidable_of_iff' _ (Iff.of_eq (k0_chk20.eq_1 v205))
theorem k0_off20_inb : ∀ (v205 : BitVec 32) (k0_hw20 : k0_chk20 v205), ∀ a, (k0_off20 v205) a + S1x128.size a ≤ S50000x128.size a := fun v205 k0_hw20 => k0_hw20

def k0_off21 (v218 : BitVec 32) : Fin 2 → Nat :=
  let c0_i32_169 : BitVec 32 := 0#32
  ![v218.toNat, 0]

def k0_chk21 (v218 : BitVec 32) : Prop :=
  (∀ a, (k0_off21 v218) a + S1x128.size a ≤ S50000x128.size a)
instance k0_chk21.dec : ∀ (v218 : BitVec 32), Decidable (k0_chk21 v218) := fun v218 => decidable_of_iff' _ (Iff.of_eq (k0_chk21.eq_1 v218))
theorem k0_off21_inb : ∀ (v218 : BitVec 32) (k0_hw21 : k0_chk21 v218), ∀ a, (k0_off21 v218) a + S1x128.size a ≤ S50000x128.size a := fun v218 k0_hw21 => k0_hw21

def k0_off22 (v231 : BitVec 32) : Fin 2 → Nat :=
  let c0_i32_179 : BitVec 32 := 0#32
  ![v231.toNat, 0]

def k0_chk22 (v231 : BitVec 32) : Prop :=
  (∀ a, (k0_off22 v231) a + S1x128.size a ≤ S50000x128.size a)
instance k0_chk22.dec : ∀ (v231 : BitVec 32), Decidable (k0_chk22 v231) := fun v231 => decidable_of_iff' _ (Iff.of_eq (k0_chk22.eq_1 v231))
theorem k0_off22_inb : ∀ (v231 : BitVec 32) (k0_hw22 : k0_chk22 v231), ∀ a, (k0_off22 v231) a + S1x128.size a ≤ S50000x128.size a := fun v231 k0_hw22 => k0_hw22

def k0_off23 (v244 : BitVec 32) : Fin 2 → Nat :=
  let c0_i32_189 : BitVec 32 := 0#32
  ![v244.toNat, 0]

def k0_chk23 (v244 : BitVec 32) : Prop :=
  (∀ a, (k0_off23 v244) a + S1x128.size a ≤ S50000x128.size a)
instance k0_chk23.dec : ∀ (v244 : BitVec 32), Decidable (k0_chk23 v244) := fun v244 => decidable_of_iff' _ (Iff.of_eq (k0_chk23.eq_1 v244))
theorem k0_off23_inb : ∀ (v244 : BitVec 32) (k0_hw23 : k0_chk23 v244), ∀ a, (k0_off23 v244) a + S1x128.size a ≤ S50000x128.size a := fun v244 k0_hw23 => k0_hw23

def k0_off24 (v257 : BitVec 32) : Fin 2 → Nat :=
  let c0_i32_199 : BitVec 32 := 0#32
  ![v257.toNat, 0]

def k0_chk24 (v257 : BitVec 32) : Prop :=
  (∀ a, (k0_off24 v257) a + S1x128.size a ≤ S50000x128.size a)
instance k0_chk24.dec : ∀ (v257 : BitVec 32), Decidable (k0_chk24 v257) := fun v257 => decidable_of_iff' _ (Iff.of_eq (k0_chk24.eq_1 v257))
theorem k0_off24_inb : ∀ (v257 : BitVec 32) (k0_hw24 : k0_chk24 v257), ∀ a, (k0_off24 v257) a + S1x128.size a ≤ S50000x128.size a := fun v257 k0_hw24 => k0_hw24

def k0_off25 (v270 : BitVec 32) : Fin 2 → Nat :=
  let c0_i32_209 : BitVec 32 := 0#32
  ![v270.toNat, 0]

def k0_chk25 (v270 : BitVec 32) : Prop :=
  (∀ a, (k0_off25 v270) a + S1x128.size a ≤ S50000x128.size a)
instance k0_chk25.dec : ∀ (v270 : BitVec 32), Decidable (k0_chk25 v270) := fun v270 => decidable_of_iff' _ (Iff.of_eq (k0_chk25.eq_1 v270))
theorem k0_off25_inb : ∀ (v270 : BitVec 32) (k0_hw25 : k0_chk25 v270), ∀ a, (k0_off25 v270) a + S1x128.size a ≤ S50000x128.size a := fun v270 k0_hw25 => k0_hw25

def k0_off26 (v283 : BitVec 32) : Fin 2 → Nat :=
  let c0_i32_219 : BitVec 32 := 0#32
  ![v283.toNat, 0]

def k0_chk26 (v283 : BitVec 32) : Prop :=
  (∀ a, (k0_off26 v283) a + S1x128.size a ≤ S50000x128.size a)
instance k0_chk26.dec : ∀ (v283 : BitVec 32), Decidable (k0_chk26 v283) := fun v283 => decidable_of_iff' _ (Iff.of_eq (k0_chk26.eq_1 v283))
theorem k0_off26_inb : ∀ (v283 : BitVec 32) (k0_hw26 : k0_chk26 v283), ∀ a, (k0_off26 v283) a + S1x128.size a ≤ S50000x128.size a := fun v283 k0_hw26 => k0_hw26

def k0_off27 (v296 : BitVec 32) : Fin 2 → Nat :=
  let c0_i32_229 : BitVec 32 := 0#32
  ![v296.toNat, 0]

def k0_chk27 (v296 : BitVec 32) : Prop :=
  (∀ a, (k0_off27 v296) a + S1x128.size a ≤ S50000x128.size a)
instance k0_chk27.dec : ∀ (v296 : BitVec 32), Decidable (k0_chk27 v296) := fun v296 => decidable_of_iff' _ (Iff.of_eq (k0_chk27.eq_1 v296))
theorem k0_off27_inb : ∀ (v296 : BitVec 32) (k0_hw27 : k0_chk27 v296), ∀ a, (k0_off27 v296) a + S1x128.size a ≤ S50000x128.size a := fun v296 k0_hw27 => k0_hw27

def k0_off28 (v309 : BitVec 32) : Fin 2 → Nat :=
  let c0_i32_239 : BitVec 32 := 0#32
  ![v309.toNat, 0]

def k0_chk28 (v309 : BitVec 32) : Prop :=
  (∀ a, (k0_off28 v309) a + S1x128.size a ≤ S50000x128.size a)
instance k0_chk28.dec : ∀ (v309 : BitVec 32), Decidable (k0_chk28 v309) := fun v309 => decidable_of_iff' _ (Iff.of_eq (k0_chk28.eq_1 v309))
theorem k0_off28_inb : ∀ (v309 : BitVec 32) (k0_hw28 : k0_chk28 v309), ∀ a, (k0_off28 v309) a + S1x128.size a ≤ S50000x128.size a := fun v309 k0_hw28 => k0_hw28

def k0_off29 (v322 : BitVec 32) : Fin 2 → Nat :=
  let c0_i32_249 : BitVec 32 := 0#32
  ![v322.toNat, 0]

def k0_chk29 (v322 : BitVec 32) : Prop :=
  (∀ a, (k0_off29 v322) a + S1x128.size a ≤ S50000x128.size a)
instance k0_chk29.dec : ∀ (v322 : BitVec 32), Decidable (k0_chk29 v322) := fun v322 => decidable_of_iff' _ (Iff.of_eq (k0_chk29.eq_1 v322))
theorem k0_off29_inb : ∀ (v322 : BitVec 32) (k0_hw29 : k0_chk29 v322), ∀ a, (k0_off29 v322) a + S1x128.size a ≤ S50000x128.size a := fun v322 k0_hw29 => k0_hw29

def k0_off30 (v335 : BitVec 32) : Fin 2 → Nat :=
  let c0_i32_259 : BitVec 32 := 0#32
  ![v335.toNat, 0]

def k0_chk30 (v335 : BitVec 32) : Prop :=
  (∀ a, (k0_off30 v335) a + S1x128.size a ≤ S50000x128.size a)
instance k0_chk30.dec : ∀ (v335 : BitVec 32), Decidable (k0_chk30 v335) := fun v335 => decidable_of_iff' _ (Iff.of_eq (k0_chk30.eq_1 v335))
theorem k0_off30_inb : ∀ (v335 : BitVec 32) (k0_hw30 : k0_chk30 v335), ∀ a, (k0_off30 v335) a + S1x128.size a ≤ S50000x128.size a := fun v335 k0_hw30 => k0_hw30

def k0_off31 (v348 : BitVec 32) : Fin 2 → Nat :=
  let c0_i32_269 : BitVec 32 := 0#32
  ![v348.toNat, 0]

def k0_chk31 (v348 : BitVec 32) : Prop :=
  (∀ a, (k0_off31 v348) a + S1x128.size a ≤ S50000x128.size a)
instance k0_chk31.dec : ∀ (v348 : BitVec 32), Decidable (k0_chk31 v348) := fun v348 => decidable_of_iff' _ (Iff.of_eq (k0_chk31.eq_1 v348))
theorem k0_off31_inb : ∀ (v348 : BitVec 32) (k0_hw31 : k0_chk31 v348), ∀ a, (k0_off31 v348) a + S1x128.size a ≤ S50000x128.size a := fun v348 k0_hw31 => k0_hw31

def k0_off32 (v361 : BitVec 32) : Fin 2 → Nat :=
  let c0_i32_279 : BitVec 32 := 0#32
  ![v361.toNat, 0]

def k0_chk32 (v361 : BitVec 32) : Prop :=
  (∀ a, (k0_off32 v361) a + S1x128.size a ≤ S50000x128.size a)
instance k0_chk32.dec : ∀ (v361 : BitVec 32), Decidable (k0_chk32 v361) := fun v361 => decidable_of_iff' _ (Iff.of_eq (k0_chk32.eq_1 v361))
theorem k0_off32_inb : ∀ (v361 : BitVec 32) (k0_hw32 : k0_chk32 v361), ∀ a, (k0_off32 v361) a + S1x128.size a ≤ S50000x128.size a := fun v361 k0_hw32 => k0_hw32

def k0_off33 (v374 : BitVec 32) : Fin 2 → Nat :=
  let c0_i32_289 : BitVec 32 := 0#32
  ![v374.toNat, 0]

def k0_chk33 (v374 : BitVec 32) : Prop :=
  (∀ a, (k0_off33 v374) a + S1x128.size a ≤ S50000x128.size a)
instance k0_chk33.dec : ∀ (v374 : BitVec 32), Decidable (k0_chk33 v374) := fun v374 => decidable_of_iff' _ (Iff.of_eq (k0_chk33.eq_1 v374))
theorem k0_off33_inb : ∀ (v374 : BitVec 32) (k0_hw33 : k0_chk33 v374), ∀ a, (k0_off33 v374) a + S1x128.size a ≤ S50000x128.size a := fun v374 k0_hw33 => k0_hw33

def k0_off34 (v387 : BitVec 32) : Fin 2 → Nat :=
  let c0_i32_299 : BitVec 32 := 0#32
  ![v387.toNat, 0]

def k0_chk34 (v387 : BitVec 32) : Prop :=
  (∀ a, (k0_off34 v387) a + S1x128.size a ≤ S50000x128.size a)
instance k0_chk34.dec : ∀ (v387 : BitVec 32), Decidable (k0_chk34 v387) := fun v387 => decidable_of_iff' _ (Iff.of_eq (k0_chk34.eq_1 v387))
theorem k0_off34_inb : ∀ (v387 : BitVec 32) (k0_hw34 : k0_chk34 v387), ∀ a, (k0_off34 v387) a + S1x128.size a ≤ S50000x128.size a := fun v387 k0_hw34 => k0_hw34

def k0_off35 (v400 : BitVec 32) : Fin 2 → Nat :=
  let c0_i32_309 : BitVec 32 := 0#32
  ![v400.toNat, 0]

def k0_chk35 (v400 : BitVec 32) : Prop :=
  (∀ a, (k0_off35 v400) a + S1x128.size a ≤ S50000x128.size a)
instance k0_chk35.dec : ∀ (v400 : BitVec 32), Decidable (k0_chk35 v400) := fun v400 => decidable_of_iff' _ (Iff.of_eq (k0_chk35.eq_1 v400))
theorem k0_off35_inb : ∀ (v400 : BitVec 32) (k0_hw35 : k0_chk35 v400), ∀ a, (k0_off35 v400) a + S1x128.size a ≤ S50000x128.size a := fun v400 k0_hw35 => k0_hw35

def k0_off36 (v413 : BitVec 32) : Fin 2 → Nat :=
  let c0_i32_319 : BitVec 32 := 0#32
  ![v413.toNat, 0]

def k0_chk36 (v413 : BitVec 32) : Prop :=
  (∀ a, (k0_off36 v413) a + S1x128.size a ≤ S50000x128.size a)
instance k0_chk36.dec : ∀ (v413 : BitVec 32), Decidable (k0_chk36 v413) := fun v413 => decidable_of_iff' _ (Iff.of_eq (k0_chk36.eq_1 v413))
theorem k0_off36_inb : ∀ (v413 : BitVec 32) (k0_hw36 : k0_chk36 v413), ∀ a, (k0_off36 v413) a + S1x128.size a ≤ S50000x128.size a := fun v413 k0_hw36 => k0_hw36

def k0_off37 (v426 : BitVec 32) : Fin 2 → Nat :=
  let c0_i32_329 : BitVec 32 := 0#32
  ![v426.toNat, 0]

def k0_chk37 (v426 : BitVec 32) : Prop :=
  (∀ a, (k0_off37 v426) a + S1x128.size a ≤ S50000x128.size a)
instance k0_chk37.dec : ∀ (v426 : BitVec 32), Decidable (k0_chk37 v426) := fun v426 => decidable_of_iff' _ (Iff.of_eq (k0_chk37.eq_1 v426))
theorem k0_off37_inb : ∀ (v426 : BitVec 32) (k0_hw37 : k0_chk37 v426), ∀ a, (k0_off37 v426) a + S1x128.size a ≤ S50000x128.size a := fun v426 k0_hw37 => k0_hw37

def k0_off38 (v439 : BitVec 32) : Fin 2 → Nat :=
  let c0_i32_339 : BitVec 32 := 0#32
  ![v439.toNat, 0]

def k0_chk38 (v439 : BitVec 32) : Prop :=
  (∀ a, (k0_off38 v439) a + S1x128.size a ≤ S50000x128.size a)
instance k0_chk38.dec : ∀ (v439 : BitVec 32), Decidable (k0_chk38 v439) := fun v439 => decidable_of_iff' _ (Iff.of_eq (k0_chk38.eq_1 v439))
theorem k0_off38_inb : ∀ (v439 : BitVec 32) (k0_hw38 : k0_chk38 v439), ∀ a, (k0_off38 v439) a + S1x128.size a ≤ S50000x128.size a := fun v439 k0_hw38 => k0_hw38

def k0_off39 (v452 : BitVec 32) : Fin 2 → Nat :=
  let c0_i32_349 : BitVec 32 := 0#32
  ![v452.toNat, 0]

def k0_chk39 (v452 : BitVec 32) : Prop :=
  (∀ a, (k0_off39 v452) a + S1x128.size a ≤ S50000x128.size a)
instance k0_chk39.dec : ∀ (v452 : BitVec 32), Decidable (k0_chk39 v452) := fun v452 => decidable_of_iff' _ (Iff.of_eq (k0_chk39.eq_1 v452))
theorem k0_off39_inb : ∀ (v452 : BitVec 32) (k0_hw39 : k0_chk39 v452), ∀ a, (k0_off39 v452) a + S1x128.size a ≤ S50000x128.size a := fun v452 k0_hw39 => k0_hw39

def k0_off40 (v465 : BitVec 32) : Fin 2 → Nat :=
  let c0_i32_359 : BitVec 32 := 0#32
  ![v465.toNat, 0]

def k0_chk40 (v465 : BitVec 32) : Prop :=
  (∀ a, (k0_off40 v465) a + S1x128.size a ≤ S50000x128.size a)
instance k0_chk40.dec : ∀ (v465 : BitVec 32), Decidable (k0_chk40 v465) := fun v465 => decidable_of_iff' _ (Iff.of_eq (k0_chk40.eq_1 v465))
theorem k0_off40_inb : ∀ (v465 : BitVec 32) (k0_hw40 : k0_chk40 v465), ∀ a, (k0_off40 v465) a + S1x128.size a ≤ S50000x128.size a := fun v465 k0_hw40 => k0_hw40

def k0_off41 (v478 : BitVec 32) : Fin 2 → Nat :=
  let c0_i32_369 : BitVec 32 := 0#32
  ![v478.toNat, 0]

def k0_chk41 (v478 : BitVec 32) : Prop :=
  (∀ a, (k0_off41 v478) a + S1x128.size a ≤ S50000x128.size a)
instance k0_chk41.dec : ∀ (v478 : BitVec 32), Decidable (k0_chk41 v478) := fun v478 => decidable_of_iff' _ (Iff.of_eq (k0_chk41.eq_1 v478))
theorem k0_off41_inb : ∀ (v478 : BitVec 32) (k0_hw41 : k0_chk41 v478), ∀ a, (k0_off41 v478) a + S1x128.size a ≤ S50000x128.size a := fun v478 k0_hw41 => k0_hw41

def k0_off42 (v491 : BitVec 32) : Fin 2 → Nat :=
  let c0_i32_379 : BitVec 32 := 0#32
  ![v491.toNat, 0]

def k0_chk42 (v491 : BitVec 32) : Prop :=
  (∀ a, (k0_off42 v491) a + S1x128.size a ≤ S50000x128.size a)
instance k0_chk42.dec : ∀ (v491 : BitVec 32), Decidable (k0_chk42 v491) := fun v491 => decidable_of_iff' _ (Iff.of_eq (k0_chk42.eq_1 v491))
theorem k0_off42_inb : ∀ (v491 : BitVec 32) (k0_hw42 : k0_chk42 v491), ∀ a, (k0_off42 v491) a + S1x128.size a ≤ S50000x128.size a := fun v491 k0_hw42 => k0_hw42

def k0_off43 (v504 : BitVec 32) : Fin 2 → Nat :=
  let c0_i32_389 : BitVec 32 := 0#32
  ![v504.toNat, 0]

def k0_chk43 (v504 : BitVec 32) : Prop :=
  (∀ a, (k0_off43 v504) a + S1x128.size a ≤ S50000x128.size a)
instance k0_chk43.dec : ∀ (v504 : BitVec 32), Decidable (k0_chk43 v504) := fun v504 => decidable_of_iff' _ (Iff.of_eq (k0_chk43.eq_1 v504))
theorem k0_off43_inb : ∀ (v504 : BitVec 32) (k0_hw43 : k0_chk43 v504), ∀ a, (k0_off43 v504) a + S1x128.size a ≤ S50000x128.size a := fun v504 k0_hw43 => k0_hw43

def k0_off44 (v517 : BitVec 32) : Fin 2 → Nat :=
  let c0_i32_399 : BitVec 32 := 0#32
  ![v517.toNat, 0]

def k0_chk44 (v517 : BitVec 32) : Prop :=
  (∀ a, (k0_off44 v517) a + S1x128.size a ≤ S50000x128.size a)
instance k0_chk44.dec : ∀ (v517 : BitVec 32), Decidable (k0_chk44 v517) := fun v517 => decidable_of_iff' _ (Iff.of_eq (k0_chk44.eq_1 v517))
theorem k0_off44_inb : ∀ (v517 : BitVec 32) (k0_hw44 : k0_chk44 v517), ∀ a, (k0_off44 v517) a + S1x128.size a ≤ S50000x128.size a := fun v517 k0_hw44 => k0_hw44

def k0_off45 (v530 : BitVec 32) : Fin 2 → Nat :=
  let c0_i32_409 : BitVec 32 := 0#32
  ![v530.toNat, 0]

def k0_chk45 (v530 : BitVec 32) : Prop :=
  (∀ a, (k0_off45 v530) a + S1x128.size a ≤ S50000x128.size a)
instance k0_chk45.dec : ∀ (v530 : BitVec 32), Decidable (k0_chk45 v530) := fun v530 => decidable_of_iff' _ (Iff.of_eq (k0_chk45.eq_1 v530))
theorem k0_off45_inb : ∀ (v530 : BitVec 32) (k0_hw45 : k0_chk45 v530), ∀ a, (k0_off45 v530) a + S1x128.size a ≤ S50000x128.size a := fun v530 k0_hw45 => k0_hw45

def k0_off46 (v543 : BitVec 32) : Fin 2 → Nat :=
  let c0_i32_419 : BitVec 32 := 0#32
  ![v543.toNat, 0]

def k0_chk46 (v543 : BitVec 32) : Prop :=
  (∀ a, (k0_off46 v543) a + S1x128.size a ≤ S50000x128.size a)
instance k0_chk46.dec : ∀ (v543 : BitVec 32), Decidable (k0_chk46 v543) := fun v543 => decidable_of_iff' _ (Iff.of_eq (k0_chk46.eq_1 v543))
theorem k0_off46_inb : ∀ (v543 : BitVec 32) (k0_hw46 : k0_chk46 v543), ∀ a, (k0_off46 v543) a + S1x128.size a ≤ S50000x128.size a := fun v543 k0_hw46 => k0_hw46

def k0_off47 (v556 : BitVec 32) : Fin 2 → Nat :=
  let c0_i32_429 : BitVec 32 := 0#32
  ![v556.toNat, 0]

def k0_chk47 (v556 : BitVec 32) : Prop :=
  (∀ a, (k0_off47 v556) a + S1x128.size a ≤ S50000x128.size a)
instance k0_chk47.dec : ∀ (v556 : BitVec 32), Decidable (k0_chk47 v556) := fun v556 => decidable_of_iff' _ (Iff.of_eq (k0_chk47.eq_1 v556))
theorem k0_off47_inb : ∀ (v556 : BitVec 32) (k0_hw47 : k0_chk47 v556), ∀ a, (k0_off47 v556) a + S1x128.size a ≤ S50000x128.size a := fun v556 k0_hw47 => k0_hw47

def k0_off48 (v569 : BitVec 32) : Fin 2 → Nat :=
  let c0_i32_439 : BitVec 32 := 0#32
  ![v569.toNat, 0]

def k0_chk48 (v569 : BitVec 32) : Prop :=
  (∀ a, (k0_off48 v569) a + S1x128.size a ≤ S50000x128.size a)
instance k0_chk48.dec : ∀ (v569 : BitVec 32), Decidable (k0_chk48 v569) := fun v569 => decidable_of_iff' _ (Iff.of_eq (k0_chk48.eq_1 v569))
theorem k0_off48_inb : ∀ (v569 : BitVec 32) (k0_hw48 : k0_chk48 v569), ∀ a, (k0_off48 v569) a + S1x128.size a ≤ S50000x128.size a := fun v569 k0_hw48 => k0_hw48

def k0_off49 (v582 : BitVec 32) : Fin 2 → Nat :=
  let c0_i32_449 : BitVec 32 := 0#32
  ![v582.toNat, 0]

def k0_chk49 (v582 : BitVec 32) : Prop :=
  (∀ a, (k0_off49 v582) a + S1x128.size a ≤ S50000x128.size a)
instance k0_chk49.dec : ∀ (v582 : BitVec 32), Decidable (k0_chk49 v582) := fun v582 => decidable_of_iff' _ (Iff.of_eq (k0_chk49.eq_1 v582))
theorem k0_off49_inb : ∀ (v582 : BitVec 32) (k0_hw49 : k0_chk49 v582), ∀ a, (k0_off49 v582) a + S1x128.size a ≤ S50000x128.size a := fun v582 k0_hw49 => k0_hw49

def k0_off50 (v595 : BitVec 32) : Fin 2 → Nat :=
  let c0_i32_459 : BitVec 32 := 0#32
  ![v595.toNat, 0]

def k0_chk50 (v595 : BitVec 32) : Prop :=
  (∀ a, (k0_off50 v595) a + S1x128.size a ≤ S50000x128.size a)
instance k0_chk50.dec : ∀ (v595 : BitVec 32), Decidable (k0_chk50 v595) := fun v595 => decidable_of_iff' _ (Iff.of_eq (k0_chk50.eq_1 v595))
theorem k0_off50_inb : ∀ (v595 : BitVec 32) (k0_hw50 : k0_chk50 v595), ∀ a, (k0_off50 v595) a + S1x128.size a ≤ S50000x128.size a := fun v595 k0_hw50 => k0_hw50

def k0_off51 (v608 : BitVec 32) : Fin 2 → Nat :=
  let c0_i32_469 : BitVec 32 := 0#32
  ![v608.toNat, 0]

def k0_chk51 (v608 : BitVec 32) : Prop :=
  (∀ a, (k0_off51 v608) a + S1x128.size a ≤ S50000x128.size a)
instance k0_chk51.dec : ∀ (v608 : BitVec 32), Decidable (k0_chk51 v608) := fun v608 => decidable_of_iff' _ (Iff.of_eq (k0_chk51.eq_1 v608))
theorem k0_off51_inb : ∀ (v608 : BitVec 32) (k0_hw51 : k0_chk51 v608), ∀ a, (k0_off51 v608) a + S1x128.size a ≤ S50000x128.size a := fun v608 k0_hw51 => k0_hw51

def k0_off52 (v621 : BitVec 32) : Fin 2 → Nat :=
  let c0_i32_479 : BitVec 32 := 0#32
  ![v621.toNat, 0]

def k0_chk52 (v621 : BitVec 32) : Prop :=
  (∀ a, (k0_off52 v621) a + S1x128.size a ≤ S50000x128.size a)
instance k0_chk52.dec : ∀ (v621 : BitVec 32), Decidable (k0_chk52 v621) := fun v621 => decidable_of_iff' _ (Iff.of_eq (k0_chk52.eq_1 v621))
theorem k0_off52_inb : ∀ (v621 : BitVec 32) (k0_hw52 : k0_chk52 v621), ∀ a, (k0_off52 v621) a + S1x128.size a ≤ S50000x128.size a := fun v621 k0_hw52 => k0_hw52

def k0_off53 (v634 : BitVec 32) : Fin 2 → Nat :=
  let c0_i32_489 : BitVec 32 := 0#32
  ![v634.toNat, 0]

def k0_chk53 (v634 : BitVec 32) : Prop :=
  (∀ a, (k0_off53 v634) a + S1x128.size a ≤ S50000x128.size a)
instance k0_chk53.dec : ∀ (v634 : BitVec 32), Decidable (k0_chk53 v634) := fun v634 => decidable_of_iff' _ (Iff.of_eq (k0_chk53.eq_1 v634))
theorem k0_off53_inb : ∀ (v634 : BitVec 32) (k0_hw53 : k0_chk53 v634), ∀ a, (k0_off53 v634) a + S1x128.size a ≤ S50000x128.size a := fun v634 k0_hw53 => k0_hw53

def k0_off54 (v647 : BitVec 32) : Fin 2 → Nat :=
  let c0_i32_499 : BitVec 32 := 0#32
  ![v647.toNat, 0]

def k0_chk54 (v647 : BitVec 32) : Prop :=
  (∀ a, (k0_off54 v647) a + S1x128.size a ≤ S50000x128.size a)
instance k0_chk54.dec : ∀ (v647 : BitVec 32), Decidable (k0_chk54 v647) := fun v647 => decidable_of_iff' _ (Iff.of_eq (k0_chk54.eq_1 v647))
theorem k0_off54_inb : ∀ (v647 : BitVec 32) (k0_hw54 : k0_chk54 v647), ∀ a, (k0_off54 v647) a + S1x128.size a ≤ S50000x128.size a := fun v647 k0_hw54 => k0_hw54

def k0_off55 (v660 : BitVec 32) : Fin 2 → Nat :=
  let c0_i32_509 : BitVec 32 := 0#32
  ![v660.toNat, 0]

def k0_chk55 (v660 : BitVec 32) : Prop :=
  (∀ a, (k0_off55 v660) a + S1x128.size a ≤ S50000x128.size a)
instance k0_chk55.dec : ∀ (v660 : BitVec 32), Decidable (k0_chk55 v660) := fun v660 => decidable_of_iff' _ (Iff.of_eq (k0_chk55.eq_1 v660))
theorem k0_off55_inb : ∀ (v660 : BitVec 32) (k0_hw55 : k0_chk55 v660), ∀ a, (k0_off55 v660) a + S1x128.size a ≤ S50000x128.size a := fun v660 k0_hw55 => k0_hw55

def k0_off56 (v673 : BitVec 32) : Fin 2 → Nat :=
  let c0_i32_519 : BitVec 32 := 0#32
  ![v673.toNat, 0]

def k0_chk56 (v673 : BitVec 32) : Prop :=
  (∀ a, (k0_off56 v673) a + S1x128.size a ≤ S50000x128.size a)
instance k0_chk56.dec : ∀ (v673 : BitVec 32), Decidable (k0_chk56 v673) := fun v673 => decidable_of_iff' _ (Iff.of_eq (k0_chk56.eq_1 v673))
theorem k0_off56_inb : ∀ (v673 : BitVec 32) (k0_hw56 : k0_chk56 v673), ∀ a, (k0_off56 v673) a + S1x128.size a ≤ S50000x128.size a := fun v673 k0_hw56 => k0_hw56

def k0_off57 (v686 : BitVec 32) : Fin 2 → Nat :=
  let c0_i32_529 : BitVec 32 := 0#32
  ![v686.toNat, 0]

def k0_chk57 (v686 : BitVec 32) : Prop :=
  (∀ a, (k0_off57 v686) a + S1x128.size a ≤ S50000x128.size a)
instance k0_chk57.dec : ∀ (v686 : BitVec 32), Decidable (k0_chk57 v686) := fun v686 => decidable_of_iff' _ (Iff.of_eq (k0_chk57.eq_1 v686))
theorem k0_off57_inb : ∀ (v686 : BitVec 32) (k0_hw57 : k0_chk57 v686), ∀ a, (k0_off57 v686) a + S1x128.size a ≤ S50000x128.size a := fun v686 k0_hw57 => k0_hw57

def k0_off58 (v699 : BitVec 32) : Fin 2 → Nat :=
  let c0_i32_539 : BitVec 32 := 0#32
  ![v699.toNat, 0]

def k0_chk58 (v699 : BitVec 32) : Prop :=
  (∀ a, (k0_off58 v699) a + S1x128.size a ≤ S50000x128.size a)
instance k0_chk58.dec : ∀ (v699 : BitVec 32), Decidable (k0_chk58 v699) := fun v699 => decidable_of_iff' _ (Iff.of_eq (k0_chk58.eq_1 v699))
theorem k0_off58_inb : ∀ (v699 : BitVec 32) (k0_hw58 : k0_chk58 v699), ∀ a, (k0_off58 v699) a + S1x128.size a ≤ S50000x128.size a := fun v699 k0_hw58 => k0_hw58

def k0_off59 (v712 : BitVec 32) : Fin 2 → Nat :=
  let c0_i32_549 : BitVec 32 := 0#32
  ![v712.toNat, 0]

def k0_chk59 (v712 : BitVec 32) : Prop :=
  (∀ a, (k0_off59 v712) a + S1x128.size a ≤ S50000x128.size a)
instance k0_chk59.dec : ∀ (v712 : BitVec 32), Decidable (k0_chk59 v712) := fun v712 => decidable_of_iff' _ (Iff.of_eq (k0_chk59.eq_1 v712))
theorem k0_off59_inb : ∀ (v712 : BitVec 32) (k0_hw59 : k0_chk59 v712), ∀ a, (k0_off59 v712) a + S1x128.size a ≤ S50000x128.size a := fun v712 k0_hw59 => k0_hw59

def k0_off60 (v725 : BitVec 32) : Fin 2 → Nat :=
  let c0_i32_559 : BitVec 32 := 0#32
  ![v725.toNat, 0]

def k0_chk60 (v725 : BitVec 32) : Prop :=
  (∀ a, (k0_off60 v725) a + S1x128.size a ≤ S50000x128.size a)
instance k0_chk60.dec : ∀ (v725 : BitVec 32), Decidable (k0_chk60 v725) := fun v725 => decidable_of_iff' _ (Iff.of_eq (k0_chk60.eq_1 v725))
theorem k0_off60_inb : ∀ (v725 : BitVec 32) (k0_hw60 : k0_chk60 v725), ∀ a, (k0_off60 v725) a + S1x128.size a ≤ S50000x128.size a := fun v725 k0_hw60 => k0_hw60

def k0_off61 (v738 : BitVec 32) : Fin 2 → Nat :=
  let c0_i32_569 : BitVec 32 := 0#32
  ![v738.toNat, 0]

def k0_chk61 (v738 : BitVec 32) : Prop :=
  (∀ a, (k0_off61 v738) a + S1x128.size a ≤ S50000x128.size a)
instance k0_chk61.dec : ∀ (v738 : BitVec 32), Decidable (k0_chk61 v738) := fun v738 => decidable_of_iff' _ (Iff.of_eq (k0_chk61.eq_1 v738))
theorem k0_off61_inb : ∀ (v738 : BitVec 32) (k0_hw61 : k0_chk61 v738), ∀ a, (k0_off61 v738) a + S1x128.size a ≤ S50000x128.size a := fun v738 k0_hw61 => k0_hw61

def k0_off62 (v751 : BitVec 32) : Fin 2 → Nat :=
  let c0_i32_579 : BitVec 32 := 0#32
  ![v751.toNat, 0]

def k0_chk62 (v751 : BitVec 32) : Prop :=
  (∀ a, (k0_off62 v751) a + S1x128.size a ≤ S50000x128.size a)
instance k0_chk62.dec : ∀ (v751 : BitVec 32), Decidable (k0_chk62 v751) := fun v751 => decidable_of_iff' _ (Iff.of_eq (k0_chk62.eq_1 v751))
theorem k0_off62_inb : ∀ (v751 : BitVec 32) (k0_hw62 : k0_chk62 v751), ∀ a, (k0_off62 v751) a + S1x128.size a ≤ S50000x128.size a := fun v751 k0_hw62 => k0_hw62

def k0_off63 (v764 : BitVec 32) : Fin 2 → Nat :=
  let c0_i32_589 : BitVec 32 := 0#32
  ![v764.toNat, 0]

def k0_chk63 (v764 : BitVec 32) : Prop :=
  (∀ a, (k0_off63 v764) a + S1x128.size a ≤ S50000x128.size a)
instance k0_chk63.dec : ∀ (v764 : BitVec 32), Decidable (k0_chk63 v764) := fun v764 => decidable_of_iff' _ (Iff.of_eq (k0_chk63.eq_1 v764))
theorem k0_off63_inb : ∀ (v764 : BitVec 32) (k0_hw63 : k0_chk63 v764), ∀ a, (k0_off63 v764) a + S1x128.size a ≤ S50000x128.size a := fun v764 k0_hw63 => k0_hw63

def k0_off64 (v777 : BitVec 32) : Fin 2 → Nat :=
  let c0_i32_599 : BitVec 32 := 0#32
  ![v777.toNat, 0]

def k0_chk64 (v777 : BitVec 32) : Prop :=
  (∀ a, (k0_off64 v777) a + S1x128.size a ≤ S50000x128.size a)
instance k0_chk64.dec : ∀ (v777 : BitVec 32), Decidable (k0_chk64 v777) := fun v777 => decidable_of_iff' _ (Iff.of_eq (k0_chk64.eq_1 v777))
theorem k0_off64_inb : ∀ (v777 : BitVec 32) (k0_hw64 : k0_chk64 v777), ∀ a, (k0_off64 v777) a + S1x128.size a ≤ S50000x128.size a := fun v777 k0_hw64 => k0_hw64

def k0_off65 (v790 : BitVec 32) : Fin 2 → Nat :=
  let c0_i32_609 : BitVec 32 := 0#32
  ![v790.toNat, 0]

def k0_chk65 (v790 : BitVec 32) : Prop :=
  (∀ a, (k0_off65 v790) a + S1x128.size a ≤ S50000x128.size a)
instance k0_chk65.dec : ∀ (v790 : BitVec 32), Decidable (k0_chk65 v790) := fun v790 => decidable_of_iff' _ (Iff.of_eq (k0_chk65.eq_1 v790))
theorem k0_off65_inb : ∀ (v790 : BitVec 32) (k0_hw65 : k0_chk65 v790), ∀ a, (k0_off65 v790) a + S1x128.size a ≤ S50000x128.size a := fun v790 k0_hw65 => k0_hw65

def k0_off66 (v803 : BitVec 32) : Fin 2 → Nat :=
  let c0_i32_619 : BitVec 32 := 0#32
  ![v803.toNat, 0]

def k0_chk66 (v803 : BitVec 32) : Prop :=
  (∀ a, (k0_off66 v803) a + S1x128.size a ≤ S50000x128.size a)
instance k0_chk66.dec : ∀ (v803 : BitVec 32), Decidable (k0_chk66 v803) := fun v803 => decidable_of_iff' _ (Iff.of_eq (k0_chk66.eq_1 v803))
theorem k0_off66_inb : ∀ (v803 : BitVec 32) (k0_hw66 : k0_chk66 v803), ∀ a, (k0_off66 v803) a + S1x128.size a ≤ S50000x128.size a := fun v803 k0_hw66 => k0_hw66

def k0_off67 (v816 : BitVec 32) : Fin 2 → Nat :=
  let c0_i32_629 : BitVec 32 := 0#32
  ![v816.toNat, 0]

def k0_chk67 (v816 : BitVec 32) : Prop :=
  (∀ a, (k0_off67 v816) a + S1x128.size a ≤ S50000x128.size a)
instance k0_chk67.dec : ∀ (v816 : BitVec 32), Decidable (k0_chk67 v816) := fun v816 => decidable_of_iff' _ (Iff.of_eq (k0_chk67.eq_1 v816))
theorem k0_off67_inb : ∀ (v816 : BitVec 32) (k0_hw67 : k0_chk67 v816), ∀ a, (k0_off67 v816) a + S1x128.size a ≤ S50000x128.size a := fun v816 k0_hw67 => k0_hw67

def k0_off68 (v829 : BitVec 32) : Fin 2 → Nat :=
  let c0_i32_639 : BitVec 32 := 0#32
  ![v829.toNat, 0]

def k0_chk68 (v829 : BitVec 32) : Prop :=
  (∀ a, (k0_off68 v829) a + S1x128.size a ≤ S50000x128.size a)
instance k0_chk68.dec : ∀ (v829 : BitVec 32), Decidable (k0_chk68 v829) := fun v829 => decidable_of_iff' _ (Iff.of_eq (k0_chk68.eq_1 v829))
theorem k0_off68_inb : ∀ (v829 : BitVec 32) (k0_hw68 : k0_chk68 v829), ∀ a, (k0_off68 v829) a + S1x128.size a ≤ S50000x128.size a := fun v829 k0_hw68 => k0_hw68

def k0_off69 (v842 : BitVec 32) : Fin 2 → Nat :=
  let c0_i32_649 : BitVec 32 := 0#32
  ![v842.toNat, 0]

def k0_chk69 (v842 : BitVec 32) : Prop :=
  (∀ a, (k0_off69 v842) a + S1x128.size a ≤ S50000x128.size a)
instance k0_chk69.dec : ∀ (v842 : BitVec 32), Decidable (k0_chk69 v842) := fun v842 => decidable_of_iff' _ (Iff.of_eq (k0_chk69.eq_1 v842))
theorem k0_off69_inb : ∀ (v842 : BitVec 32) (k0_hw69 : k0_chk69 v842), ∀ a, (k0_off69 v842) a + S1x128.size a ≤ S50000x128.size a := fun v842 k0_hw69 => k0_hw69

def k0_off70 (v855 : BitVec 32) : Fin 2 → Nat :=
  let c0_i32_659 : BitVec 32 := 0#32
  ![v855.toNat, 0]

def k0_chk70 (v855 : BitVec 32) : Prop :=
  (∀ a, (k0_off70 v855) a + S1x128.size a ≤ S50000x128.size a)
instance k0_chk70.dec : ∀ (v855 : BitVec 32), Decidable (k0_chk70 v855) := fun v855 => decidable_of_iff' _ (Iff.of_eq (k0_chk70.eq_1 v855))
theorem k0_off70_inb : ∀ (v855 : BitVec 32) (k0_hw70 : k0_chk70 v855), ∀ a, (k0_off70 v855) a + S1x128.size a ≤ S50000x128.size a := fun v855 k0_hw70 => k0_hw70

def k0_off71 (v868 : BitVec 32) : Fin 2 → Nat :=
  let c0_i32_669 : BitVec 32 := 0#32
  ![v868.toNat, 0]

def k0_chk71 (v868 : BitVec 32) : Prop :=
  (∀ a, (k0_off71 v868) a + S1x128.size a ≤ S50000x128.size a)
instance k0_chk71.dec : ∀ (v868 : BitVec 32), Decidable (k0_chk71 v868) := fun v868 => decidable_of_iff' _ (Iff.of_eq (k0_chk71.eq_1 v868))
theorem k0_off71_inb : ∀ (v868 : BitVec 32) (k0_hw71 : k0_chk71 v868), ∀ a, (k0_off71 v868) a + S1x128.size a ≤ S50000x128.size a := fun v868 k0_hw71 => k0_hw71

def k0_off72 (v881 : BitVec 32) : Fin 2 → Nat :=
  let c0_i32_679 : BitVec 32 := 0#32
  ![v881.toNat, 0]

def k0_chk72 (v881 : BitVec 32) : Prop :=
  (∀ a, (k0_off72 v881) a + S1x128.size a ≤ S50000x128.size a)
instance k0_chk72.dec : ∀ (v881 : BitVec 32), Decidable (k0_chk72 v881) := fun v881 => decidable_of_iff' _ (Iff.of_eq (k0_chk72.eq_1 v881))
theorem k0_off72_inb : ∀ (v881 : BitVec 32) (k0_hw72 : k0_chk72 v881), ∀ a, (k0_off72 v881) a + S1x128.size a ≤ S50000x128.size a := fun v881 k0_hw72 => k0_hw72

def k0_off73 (v894 : BitVec 32) : Fin 2 → Nat :=
  let c0_i32_689 : BitVec 32 := 0#32
  ![v894.toNat, 0]

def k0_chk73 (v894 : BitVec 32) : Prop :=
  (∀ a, (k0_off73 v894) a + S1x128.size a ≤ S50000x128.size a)
instance k0_chk73.dec : ∀ (v894 : BitVec 32), Decidable (k0_chk73 v894) := fun v894 => decidable_of_iff' _ (Iff.of_eq (k0_chk73.eq_1 v894))
theorem k0_off73_inb : ∀ (v894 : BitVec 32) (k0_hw73 : k0_chk73 v894), ∀ a, (k0_off73 v894) a + S1x128.size a ≤ S50000x128.size a := fun v894 k0_hw73 => k0_hw73

def k0_off74 (v907 : BitVec 32) : Fin 2 → Nat :=
  let c0_i32_699 : BitVec 32 := 0#32
  ![v907.toNat, 0]

def k0_chk74 (v907 : BitVec 32) : Prop :=
  (∀ a, (k0_off74 v907) a + S1x128.size a ≤ S50000x128.size a)
instance k0_chk74.dec : ∀ (v907 : BitVec 32), Decidable (k0_chk74 v907) := fun v907 => decidable_of_iff' _ (Iff.of_eq (k0_chk74.eq_1 v907))
theorem k0_off74_inb : ∀ (v907 : BitVec 32) (k0_hw74 : k0_chk74 v907), ∀ a, (k0_off74 v907) a + S1x128.size a ≤ S50000x128.size a := fun v907 k0_hw74 => k0_hw74

def k0_off75 (v920 : BitVec 32) : Fin 2 → Nat :=
  let c0_i32_709 : BitVec 32 := 0#32
  ![v920.toNat, 0]

def k0_chk75 (v920 : BitVec 32) : Prop :=
  (∀ a, (k0_off75 v920) a + S1x128.size a ≤ S50000x128.size a)
instance k0_chk75.dec : ∀ (v920 : BitVec 32), Decidable (k0_chk75 v920) := fun v920 => decidable_of_iff' _ (Iff.of_eq (k0_chk75.eq_1 v920))
theorem k0_off75_inb : ∀ (v920 : BitVec 32) (k0_hw75 : k0_chk75 v920), ∀ a, (k0_off75 v920) a + S1x128.size a ≤ S50000x128.size a := fun v920 k0_hw75 => k0_hw75

def k0_off76 (v933 : BitVec 32) : Fin 2 → Nat :=
  let c0_i32_719 : BitVec 32 := 0#32
  ![v933.toNat, 0]

def k0_chk76 (v933 : BitVec 32) : Prop :=
  (∀ a, (k0_off76 v933) a + S1x128.size a ≤ S50000x128.size a)
instance k0_chk76.dec : ∀ (v933 : BitVec 32), Decidable (k0_chk76 v933) := fun v933 => decidable_of_iff' _ (Iff.of_eq (k0_chk76.eq_1 v933))
theorem k0_off76_inb : ∀ (v933 : BitVec 32) (k0_hw76 : k0_chk76 v933), ∀ a, (k0_off76 v933) a + S1x128.size a ≤ S50000x128.size a := fun v933 k0_hw76 => k0_hw76

def k0_off77 (v946 : BitVec 32) : Fin 2 → Nat :=
  let c0_i32_729 : BitVec 32 := 0#32
  ![v946.toNat, 0]

def k0_chk77 (v946 : BitVec 32) : Prop :=
  (∀ a, (k0_off77 v946) a + S1x128.size a ≤ S50000x128.size a)
instance k0_chk77.dec : ∀ (v946 : BitVec 32), Decidable (k0_chk77 v946) := fun v946 => decidable_of_iff' _ (Iff.of_eq (k0_chk77.eq_1 v946))
theorem k0_off77_inb : ∀ (v946 : BitVec 32) (k0_hw77 : k0_chk77 v946), ∀ a, (k0_off77 v946) a + S1x128.size a ≤ S50000x128.size a := fun v946 k0_hw77 => k0_hw77

def k0_off78 (v959 : BitVec 32) : Fin 2 → Nat :=
  let c0_i32_739 : BitVec 32 := 0#32
  ![v959.toNat, 0]

def k0_chk78 (v959 : BitVec 32) : Prop :=
  (∀ a, (k0_off78 v959) a + S1x128.size a ≤ S50000x128.size a)
instance k0_chk78.dec : ∀ (v959 : BitVec 32), Decidable (k0_chk78 v959) := fun v959 => decidable_of_iff' _ (Iff.of_eq (k0_chk78.eq_1 v959))
theorem k0_off78_inb : ∀ (v959 : BitVec 32) (k0_hw78 : k0_chk78 v959), ∀ a, (k0_off78 v959) a + S1x128.size a ≤ S50000x128.size a := fun v959 k0_hw78 => k0_hw78

def k0_off79 (v972 : BitVec 32) : Fin 2 → Nat :=
  let c0_i32_749 : BitVec 32 := 0#32
  ![v972.toNat, 0]

def k0_chk79 (v972 : BitVec 32) : Prop :=
  (∀ a, (k0_off79 v972) a + S1x128.size a ≤ S50000x128.size a)
instance k0_chk79.dec : ∀ (v972 : BitVec 32), Decidable (k0_chk79 v972) := fun v972 => decidable_of_iff' _ (Iff.of_eq (k0_chk79.eq_1 v972))
theorem k0_off79_inb : ∀ (v972 : BitVec 32) (k0_hw79 : k0_chk79 v972), ∀ a, (k0_off79 v972) a + S1x128.size a ≤ S50000x128.size a := fun v972 k0_hw79 => k0_hw79

def k0_off80 (v985 : BitVec 32) : Fin 2 → Nat :=
  let c0_i32_759 : BitVec 32 := 0#32
  ![v985.toNat, 0]

def k0_chk80 (v985 : BitVec 32) : Prop :=
  (∀ a, (k0_off80 v985) a + S1x128.size a ≤ S50000x128.size a)
instance k0_chk80.dec : ∀ (v985 : BitVec 32), Decidable (k0_chk80 v985) := fun v985 => decidable_of_iff' _ (Iff.of_eq (k0_chk80.eq_1 v985))
theorem k0_off80_inb : ∀ (v985 : BitVec 32) (k0_hw80 : k0_chk80 v985), ∀ a, (k0_off80 v985) a + S1x128.size a ≤ S50000x128.size a := fun v985 k0_hw80 => k0_hw80

def k0_off81 (v998 : BitVec 32) : Fin 2 → Nat :=
  let c0_i32_769 : BitVec 32 := 0#32
  ![v998.toNat, 0]

def k0_chk81 (v998 : BitVec 32) : Prop :=
  (∀ a, (k0_off81 v998) a + S1x128.size a ≤ S50000x128.size a)
instance k0_chk81.dec : ∀ (v998 : BitVec 32), Decidable (k0_chk81 v998) := fun v998 => decidable_of_iff' _ (Iff.of_eq (k0_chk81.eq_1 v998))
theorem k0_off81_inb : ∀ (v998 : BitVec 32) (k0_hw81 : k0_chk81 v998), ∀ a, (k0_off81 v998) a + S1x128.size a ≤ S50000x128.size a := fun v998 k0_hw81 => k0_hw81

def k0_off82 (v1011 : BitVec 32) : Fin 2 → Nat :=
  let c0_i32_779 : BitVec 32 := 0#32
  ![v1011.toNat, 0]

def k0_chk82 (v1011 : BitVec 32) : Prop :=
  (∀ a, (k0_off82 v1011) a + S1x128.size a ≤ S50000x128.size a)
instance k0_chk82.dec : ∀ (v1011 : BitVec 32), Decidable (k0_chk82 v1011) := fun v1011 => decidable_of_iff' _ (Iff.of_eq (k0_chk82.eq_1 v1011))
theorem k0_off82_inb : ∀ (v1011 : BitVec 32) (k0_hw82 : k0_chk82 v1011), ∀ a, (k0_off82 v1011) a + S1x128.size a ≤ S50000x128.size a := fun v1011 k0_hw82 => k0_hw82

def k0_off83 (v1024 : BitVec 32) : Fin 2 → Nat :=
  let c0_i32_789 : BitVec 32 := 0#32
  ![v1024.toNat, 0]

def k0_chk83 (v1024 : BitVec 32) : Prop :=
  (∀ a, (k0_off83 v1024) a + S1x128.size a ≤ S50000x128.size a)
instance k0_chk83.dec : ∀ (v1024 : BitVec 32), Decidable (k0_chk83 v1024) := fun v1024 => decidable_of_iff' _ (Iff.of_eq (k0_chk83.eq_1 v1024))
theorem k0_off83_inb : ∀ (v1024 : BitVec 32) (k0_hw83 : k0_chk83 v1024), ∀ a, (k0_off83 v1024) a + S1x128.size a ≤ S50000x128.size a := fun v1024 k0_hw83 => k0_hw83

def k0_off84 (v1037 : BitVec 32) : Fin 2 → Nat :=
  let c0_i32_799 : BitVec 32 := 0#32
  ![v1037.toNat, 0]

def k0_chk84 (v1037 : BitVec 32) : Prop :=
  (∀ a, (k0_off84 v1037) a + S1x128.size a ≤ S50000x128.size a)
instance k0_chk84.dec : ∀ (v1037 : BitVec 32), Decidable (k0_chk84 v1037) := fun v1037 => decidable_of_iff' _ (Iff.of_eq (k0_chk84.eq_1 v1037))
theorem k0_off84_inb : ∀ (v1037 : BitVec 32) (k0_hw84 : k0_chk84 v1037), ∀ a, (k0_off84 v1037) a + S1x128.size a ≤ S50000x128.size a := fun v1037 k0_hw84 => k0_hw84

def k0_off85 (v1050 : BitVec 32) : Fin 2 → Nat :=
  let c0_i32_809 : BitVec 32 := 0#32
  ![v1050.toNat, 0]

def k0_chk85 (v1050 : BitVec 32) : Prop :=
  (∀ a, (k0_off85 v1050) a + S1x128.size a ≤ S50000x128.size a)
instance k0_chk85.dec : ∀ (v1050 : BitVec 32), Decidable (k0_chk85 v1050) := fun v1050 => decidable_of_iff' _ (Iff.of_eq (k0_chk85.eq_1 v1050))
theorem k0_off85_inb : ∀ (v1050 : BitVec 32) (k0_hw85 : k0_chk85 v1050), ∀ a, (k0_off85 v1050) a + S1x128.size a ≤ S50000x128.size a := fun v1050 k0_hw85 => k0_hw85

def k0_off86 (v1063 : BitVec 32) : Fin 2 → Nat :=
  let c0_i32_819 : BitVec 32 := 0#32
  ![v1063.toNat, 0]

def k0_chk86 (v1063 : BitVec 32) : Prop :=
  (∀ a, (k0_off86 v1063) a + S1x128.size a ≤ S50000x128.size a)
instance k0_chk86.dec : ∀ (v1063 : BitVec 32), Decidable (k0_chk86 v1063) := fun v1063 => decidable_of_iff' _ (Iff.of_eq (k0_chk86.eq_1 v1063))
theorem k0_off86_inb : ∀ (v1063 : BitVec 32) (k0_hw86 : k0_chk86 v1063), ∀ a, (k0_off86 v1063) a + S1x128.size a ≤ S50000x128.size a := fun v1063 k0_hw86 => k0_hw86

def k0_off87 (v1076 : BitVec 32) : Fin 2 → Nat :=
  let c0_i32_829 : BitVec 32 := 0#32
  ![v1076.toNat, 0]

def k0_chk87 (v1076 : BitVec 32) : Prop :=
  (∀ a, (k0_off87 v1076) a + S1x128.size a ≤ S50000x128.size a)
instance k0_chk87.dec : ∀ (v1076 : BitVec 32), Decidable (k0_chk87 v1076) := fun v1076 => decidable_of_iff' _ (Iff.of_eq (k0_chk87.eq_1 v1076))
theorem k0_off87_inb : ∀ (v1076 : BitVec 32) (k0_hw87 : k0_chk87 v1076), ∀ a, (k0_off87 v1076) a + S1x128.size a ≤ S50000x128.size a := fun v1076 k0_hw87 => k0_hw87

def k0_off88 (v1089 : BitVec 32) : Fin 2 → Nat :=
  let c0_i32_839 : BitVec 32 := 0#32
  ![v1089.toNat, 0]

def k0_chk88 (v1089 : BitVec 32) : Prop :=
  (∀ a, (k0_off88 v1089) a + S1x128.size a ≤ S50000x128.size a)
instance k0_chk88.dec : ∀ (v1089 : BitVec 32), Decidable (k0_chk88 v1089) := fun v1089 => decidable_of_iff' _ (Iff.of_eq (k0_chk88.eq_1 v1089))
theorem k0_off88_inb : ∀ (v1089 : BitVec 32) (k0_hw88 : k0_chk88 v1089), ∀ a, (k0_off88 v1089) a + S1x128.size a ≤ S50000x128.size a := fun v1089 k0_hw88 => k0_hw88

def k0_off89 (v1102 : BitVec 32) : Fin 2 → Nat :=
  let c0_i32_849 : BitVec 32 := 0#32
  ![v1102.toNat, 0]

def k0_chk89 (v1102 : BitVec 32) : Prop :=
  (∀ a, (k0_off89 v1102) a + S1x128.size a ≤ S50000x128.size a)
instance k0_chk89.dec : ∀ (v1102 : BitVec 32), Decidable (k0_chk89 v1102) := fun v1102 => decidable_of_iff' _ (Iff.of_eq (k0_chk89.eq_1 v1102))
theorem k0_off89_inb : ∀ (v1102 : BitVec 32) (k0_hw89 : k0_chk89 v1102), ∀ a, (k0_off89 v1102) a + S1x128.size a ≤ S50000x128.size a := fun v1102 k0_hw89 => k0_hw89

def k0_off90 (v1115 : BitVec 32) : Fin 2 → Nat :=
  let c0_i32_859 : BitVec 32 := 0#32
  ![v1115.toNat, 0]

def k0_chk90 (v1115 : BitVec 32) : Prop :=
  (∀ a, (k0_off90 v1115) a + S1x128.size a ≤ S50000x128.size a)
instance k0_chk90.dec : ∀ (v1115 : BitVec 32), Decidable (k0_chk90 v1115) := fun v1115 => decidable_of_iff' _ (Iff.of_eq (k0_chk90.eq_1 v1115))
theorem k0_off90_inb : ∀ (v1115 : BitVec 32) (k0_hw90 : k0_chk90 v1115), ∀ a, (k0_off90 v1115) a + S1x128.size a ≤ S50000x128.size a := fun v1115 k0_hw90 => k0_hw90

def k0_off91 (v1128 : BitVec 32) : Fin 2 → Nat :=
  let c0_i32_869 : BitVec 32 := 0#32
  ![v1128.toNat, 0]

def k0_chk91 (v1128 : BitVec 32) : Prop :=
  (∀ a, (k0_off91 v1128) a + S1x128.size a ≤ S50000x128.size a)
instance k0_chk91.dec : ∀ (v1128 : BitVec 32), Decidable (k0_chk91 v1128) := fun v1128 => decidable_of_iff' _ (Iff.of_eq (k0_chk91.eq_1 v1128))
theorem k0_off91_inb : ∀ (v1128 : BitVec 32) (k0_hw91 : k0_chk91 v1128), ∀ a, (k0_off91 v1128) a + S1x128.size a ≤ S50000x128.size a := fun v1128 k0_hw91 => k0_hw91

def k0_off92 (v1141 : BitVec 32) : Fin 2 → Nat :=
  let c0_i32_879 : BitVec 32 := 0#32
  ![v1141.toNat, 0]

def k0_chk92 (v1141 : BitVec 32) : Prop :=
  (∀ a, (k0_off92 v1141) a + S1x128.size a ≤ S50000x128.size a)
instance k0_chk92.dec : ∀ (v1141 : BitVec 32), Decidable (k0_chk92 v1141) := fun v1141 => decidable_of_iff' _ (Iff.of_eq (k0_chk92.eq_1 v1141))
theorem k0_off92_inb : ∀ (v1141 : BitVec 32) (k0_hw92 : k0_chk92 v1141), ∀ a, (k0_off92 v1141) a + S1x128.size a ≤ S50000x128.size a := fun v1141 k0_hw92 => k0_hw92

def k0_off93 (v1154 : BitVec 32) : Fin 2 → Nat :=
  let c0_i32_889 : BitVec 32 := 0#32
  ![v1154.toNat, 0]

def k0_chk93 (v1154 : BitVec 32) : Prop :=
  (∀ a, (k0_off93 v1154) a + S1x128.size a ≤ S50000x128.size a)
instance k0_chk93.dec : ∀ (v1154 : BitVec 32), Decidable (k0_chk93 v1154) := fun v1154 => decidable_of_iff' _ (Iff.of_eq (k0_chk93.eq_1 v1154))
theorem k0_off93_inb : ∀ (v1154 : BitVec 32) (k0_hw93 : k0_chk93 v1154), ∀ a, (k0_off93 v1154) a + S1x128.size a ≤ S50000x128.size a := fun v1154 k0_hw93 => k0_hw93

def k0_off94 (v1167 : BitVec 32) : Fin 2 → Nat :=
  let c0_i32_899 : BitVec 32 := 0#32
  ![v1167.toNat, 0]

def k0_chk94 (v1167 : BitVec 32) : Prop :=
  (∀ a, (k0_off94 v1167) a + S1x128.size a ≤ S50000x128.size a)
instance k0_chk94.dec : ∀ (v1167 : BitVec 32), Decidable (k0_chk94 v1167) := fun v1167 => decidable_of_iff' _ (Iff.of_eq (k0_chk94.eq_1 v1167))
theorem k0_off94_inb : ∀ (v1167 : BitVec 32) (k0_hw94 : k0_chk94 v1167), ∀ a, (k0_off94 v1167) a + S1x128.size a ≤ S50000x128.size a := fun v1167 k0_hw94 => k0_hw94

def k0_off95 (v1180 : BitVec 32) : Fin 2 → Nat :=
  let c0_i32_909 : BitVec 32 := 0#32
  ![v1180.toNat, 0]

def k0_chk95 (v1180 : BitVec 32) : Prop :=
  (∀ a, (k0_off95 v1180) a + S1x128.size a ≤ S50000x128.size a)
instance k0_chk95.dec : ∀ (v1180 : BitVec 32), Decidable (k0_chk95 v1180) := fun v1180 => decidable_of_iff' _ (Iff.of_eq (k0_chk95.eq_1 v1180))
theorem k0_off95_inb : ∀ (v1180 : BitVec 32) (k0_hw95 : k0_chk95 v1180), ∀ a, (k0_off95 v1180) a + S1x128.size a ≤ S50000x128.size a := fun v1180 k0_hw95 => k0_hw95

def k0_off96 (v1193 : BitVec 32) : Fin 2 → Nat :=
  let c0_i32_919 : BitVec 32 := 0#32
  ![v1193.toNat, 0]

def k0_chk96 (v1193 : BitVec 32) : Prop :=
  (∀ a, (k0_off96 v1193) a + S1x128.size a ≤ S50000x128.size a)
instance k0_chk96.dec : ∀ (v1193 : BitVec 32), Decidable (k0_chk96 v1193) := fun v1193 => decidable_of_iff' _ (Iff.of_eq (k0_chk96.eq_1 v1193))
theorem k0_off96_inb : ∀ (v1193 : BitVec 32) (k0_hw96 : k0_chk96 v1193), ∀ a, (k0_off96 v1193) a + S1x128.size a ≤ S50000x128.size a := fun v1193 k0_hw96 => k0_hw96

def k0_off97 (v1206 : BitVec 32) : Fin 2 → Nat :=
  let c0_i32_929 : BitVec 32 := 0#32
  ![v1206.toNat, 0]

def k0_chk97 (v1206 : BitVec 32) : Prop :=
  (∀ a, (k0_off97 v1206) a + S1x128.size a ≤ S50000x128.size a)
instance k0_chk97.dec : ∀ (v1206 : BitVec 32), Decidable (k0_chk97 v1206) := fun v1206 => decidable_of_iff' _ (Iff.of_eq (k0_chk97.eq_1 v1206))
theorem k0_off97_inb : ∀ (v1206 : BitVec 32) (k0_hw97 : k0_chk97 v1206), ∀ a, (k0_off97 v1206) a + S1x128.size a ≤ S50000x128.size a := fun v1206 k0_hw97 => k0_hw97

def k0_off98 (v1219 : BitVec 32) : Fin 2 → Nat :=
  let c0_i32_939 : BitVec 32 := 0#32
  ![v1219.toNat, 0]

def k0_chk98 (v1219 : BitVec 32) : Prop :=
  (∀ a, (k0_off98 v1219) a + S1x128.size a ≤ S50000x128.size a)
instance k0_chk98.dec : ∀ (v1219 : BitVec 32), Decidable (k0_chk98 v1219) := fun v1219 => decidable_of_iff' _ (Iff.of_eq (k0_chk98.eq_1 v1219))
theorem k0_off98_inb : ∀ (v1219 : BitVec 32) (k0_hw98 : k0_chk98 v1219), ∀ a, (k0_off98 v1219) a + S1x128.size a ≤ S50000x128.size a := fun v1219 k0_hw98 => k0_hw98

def k0_off99 (v1232 : BitVec 32) : Fin 2 → Nat :=
  let c0_i32_949 : BitVec 32 := 0#32
  ![v1232.toNat, 0]

def k0_chk99 (v1232 : BitVec 32) : Prop :=
  (∀ a, (k0_off99 v1232) a + S1x128.size a ≤ S50000x128.size a)
instance k0_chk99.dec : ∀ (v1232 : BitVec 32), Decidable (k0_chk99 v1232) := fun v1232 => decidable_of_iff' _ (Iff.of_eq (k0_chk99.eq_1 v1232))
theorem k0_off99_inb : ∀ (v1232 : BitVec 32) (k0_hw99 : k0_chk99 v1232), ∀ a, (k0_off99 v1232) a + S1x128.size a ≤ S50000x128.size a := fun v1232 k0_hw99 => k0_hw99

def k0_off100 (v1245 : BitVec 32) : Fin 2 → Nat :=
  let c0_i32_959 : BitVec 32 := 0#32
  ![v1245.toNat, 0]

def k0_chk100 (v1245 : BitVec 32) : Prop :=
  (∀ a, (k0_off100 v1245) a + S1x128.size a ≤ S50000x128.size a)
instance k0_chk100.dec : ∀ (v1245 : BitVec 32), Decidable (k0_chk100 v1245) := fun v1245 => decidable_of_iff' _ (Iff.of_eq (k0_chk100.eq_1 v1245))
theorem k0_off100_inb : ∀ (v1245 : BitVec 32) (k0_hw100 : k0_chk100 v1245), ∀ a, (k0_off100 v1245) a + S1x128.size a ≤ S50000x128.size a := fun v1245 k0_hw100 => k0_hw100

def k0_off101 (v1258 : BitVec 32) : Fin 2 → Nat :=
  let c0_i32_969 : BitVec 32 := 0#32
  ![v1258.toNat, 0]

def k0_chk101 (v1258 : BitVec 32) : Prop :=
  (∀ a, (k0_off101 v1258) a + S1x128.size a ≤ S50000x128.size a)
instance k0_chk101.dec : ∀ (v1258 : BitVec 32), Decidable (k0_chk101 v1258) := fun v1258 => decidable_of_iff' _ (Iff.of_eq (k0_chk101.eq_1 v1258))
theorem k0_off101_inb : ∀ (v1258 : BitVec 32) (k0_hw101 : k0_chk101 v1258), ∀ a, (k0_off101 v1258) a + S1x128.size a ≤ S50000x128.size a := fun v1258 k0_hw101 => k0_hw101

def k0_off102 (v1271 : BitVec 32) : Fin 2 → Nat :=
  let c0_i32_979 : BitVec 32 := 0#32
  ![v1271.toNat, 0]

def k0_chk102 (v1271 : BitVec 32) : Prop :=
  (∀ a, (k0_off102 v1271) a + S1x128.size a ≤ S50000x128.size a)
instance k0_chk102.dec : ∀ (v1271 : BitVec 32), Decidable (k0_chk102 v1271) := fun v1271 => decidable_of_iff' _ (Iff.of_eq (k0_chk102.eq_1 v1271))
theorem k0_off102_inb : ∀ (v1271 : BitVec 32) (k0_hw102 : k0_chk102 v1271), ∀ a, (k0_off102 v1271) a + S1x128.size a ≤ S50000x128.size a := fun v1271 k0_hw102 => k0_hw102

def k0_off103 (v1284 : BitVec 32) : Fin 2 → Nat :=
  let c0_i32_989 : BitVec 32 := 0#32
  ![v1284.toNat, 0]

def k0_chk103 (v1284 : BitVec 32) : Prop :=
  (∀ a, (k0_off103 v1284) a + S1x128.size a ≤ S50000x128.size a)
instance k0_chk103.dec : ∀ (v1284 : BitVec 32), Decidable (k0_chk103 v1284) := fun v1284 => decidable_of_iff' _ (Iff.of_eq (k0_chk103.eq_1 v1284))
theorem k0_off103_inb : ∀ (v1284 : BitVec 32) (k0_hw103 : k0_chk103 v1284), ∀ a, (k0_off103 v1284) a + S1x128.size a ≤ S50000x128.size a := fun v1284 k0_hw103 => k0_hw103

def k0_off104 (v1297 : BitVec 32) : Fin 2 → Nat :=
  let c0_i32_999 : BitVec 32 := 0#32
  ![v1297.toNat, 0]

def k0_chk104 (v1297 : BitVec 32) : Prop :=
  (∀ a, (k0_off104 v1297) a + S1x128.size a ≤ S50000x128.size a)
instance k0_chk104.dec : ∀ (v1297 : BitVec 32), Decidable (k0_chk104 v1297) := fun v1297 => decidable_of_iff' _ (Iff.of_eq (k0_chk104.eq_1 v1297))
theorem k0_off104_inb : ∀ (v1297 : BitVec 32) (k0_hw104 : k0_chk104 v1297), ∀ a, (k0_off104 v1297) a + S1x128.size a ≤ S50000x128.size a := fun v1297 k0_hw104 => k0_hw104

def k0_off105 (v1310 : BitVec 32) : Fin 2 → Nat :=
  let c0_i32_1009 : BitVec 32 := 0#32
  ![v1310.toNat, 0]

def k0_chk105 (v1310 : BitVec 32) : Prop :=
  (∀ a, (k0_off105 v1310) a + S1x128.size a ≤ S50000x128.size a)
instance k0_chk105.dec : ∀ (v1310 : BitVec 32), Decidable (k0_chk105 v1310) := fun v1310 => decidable_of_iff' _ (Iff.of_eq (k0_chk105.eq_1 v1310))
theorem k0_off105_inb : ∀ (v1310 : BitVec 32) (k0_hw105 : k0_chk105 v1310), ∀ a, (k0_off105 v1310) a + S1x128.size a ≤ S50000x128.size a := fun v1310 k0_hw105 => k0_hw105

def k0_off106 (v1323 : BitVec 32) : Fin 2 → Nat :=
  let c0_i32_1019 : BitVec 32 := 0#32
  ![v1323.toNat, 0]

def k0_chk106 (v1323 : BitVec 32) : Prop :=
  (∀ a, (k0_off106 v1323) a + S1x128.size a ≤ S50000x128.size a)
instance k0_chk106.dec : ∀ (v1323 : BitVec 32), Decidable (k0_chk106 v1323) := fun v1323 => decidable_of_iff' _ (Iff.of_eq (k0_chk106.eq_1 v1323))
theorem k0_off106_inb : ∀ (v1323 : BitVec 32) (k0_hw106 : k0_chk106 v1323), ∀ a, (k0_off106 v1323) a + S1x128.size a ≤ S50000x128.size a := fun v1323 k0_hw106 => k0_hw106

def k0_off107 (v1336 : BitVec 32) : Fin 2 → Nat :=
  let c0_i32_1029 : BitVec 32 := 0#32
  ![v1336.toNat, 0]

def k0_chk107 (v1336 : BitVec 32) : Prop :=
  (∀ a, (k0_off107 v1336) a + S1x128.size a ≤ S50000x128.size a)
instance k0_chk107.dec : ∀ (v1336 : BitVec 32), Decidable (k0_chk107 v1336) := fun v1336 => decidable_of_iff' _ (Iff.of_eq (k0_chk107.eq_1 v1336))
theorem k0_off107_inb : ∀ (v1336 : BitVec 32) (k0_hw107 : k0_chk107 v1336), ∀ a, (k0_off107 v1336) a + S1x128.size a ≤ S50000x128.size a := fun v1336 k0_hw107 => k0_hw107

def k0_off108 (v1349 : BitVec 32) : Fin 2 → Nat :=
  let c0_i32_1039 : BitVec 32 := 0#32
  ![v1349.toNat, 0]

def k0_chk108 (v1349 : BitVec 32) : Prop :=
  (∀ a, (k0_off108 v1349) a + S1x128.size a ≤ S50000x128.size a)
instance k0_chk108.dec : ∀ (v1349 : BitVec 32), Decidable (k0_chk108 v1349) := fun v1349 => decidable_of_iff' _ (Iff.of_eq (k0_chk108.eq_1 v1349))
theorem k0_off108_inb : ∀ (v1349 : BitVec 32) (k0_hw108 : k0_chk108 v1349), ∀ a, (k0_off108 v1349) a + S1x128.size a ≤ S50000x128.size a := fun v1349 k0_hw108 => k0_hw108

def k0_off109 (v1362 : BitVec 32) : Fin 2 → Nat :=
  let c0_i32_1049 : BitVec 32 := 0#32
  ![v1362.toNat, 0]

def k0_chk109 (v1362 : BitVec 32) : Prop :=
  (∀ a, (k0_off109 v1362) a + S1x128.size a ≤ S50000x128.size a)
instance k0_chk109.dec : ∀ (v1362 : BitVec 32), Decidable (k0_chk109 v1362) := fun v1362 => decidable_of_iff' _ (Iff.of_eq (k0_chk109.eq_1 v1362))
theorem k0_off109_inb : ∀ (v1362 : BitVec 32) (k0_hw109 : k0_chk109 v1362), ∀ a, (k0_off109 v1362) a + S1x128.size a ≤ S50000x128.size a := fun v1362 k0_hw109 => k0_hw109

def k0_off110 (v1375 : BitVec 32) : Fin 2 → Nat :=
  let c0_i32_1059 : BitVec 32 := 0#32
  ![v1375.toNat, 0]

def k0_chk110 (v1375 : BitVec 32) : Prop :=
  (∀ a, (k0_off110 v1375) a + S1x128.size a ≤ S50000x128.size a)
instance k0_chk110.dec : ∀ (v1375 : BitVec 32), Decidable (k0_chk110 v1375) := fun v1375 => decidable_of_iff' _ (Iff.of_eq (k0_chk110.eq_1 v1375))
theorem k0_off110_inb : ∀ (v1375 : BitVec 32) (k0_hw110 : k0_chk110 v1375), ∀ a, (k0_off110 v1375) a + S1x128.size a ≤ S50000x128.size a := fun v1375 k0_hw110 => k0_hw110

def k0_off111 (v1388 : BitVec 32) : Fin 2 → Nat :=
  let c0_i32_1069 : BitVec 32 := 0#32
  ![v1388.toNat, 0]

def k0_chk111 (v1388 : BitVec 32) : Prop :=
  (∀ a, (k0_off111 v1388) a + S1x128.size a ≤ S50000x128.size a)
instance k0_chk111.dec : ∀ (v1388 : BitVec 32), Decidable (k0_chk111 v1388) := fun v1388 => decidable_of_iff' _ (Iff.of_eq (k0_chk111.eq_1 v1388))
theorem k0_off111_inb : ∀ (v1388 : BitVec 32) (k0_hw111 : k0_chk111 v1388), ∀ a, (k0_off111 v1388) a + S1x128.size a ≤ S50000x128.size a := fun v1388 k0_hw111 => k0_hw111

def k0_off112 (v1401 : BitVec 32) : Fin 2 → Nat :=
  let c0_i32_1079 : BitVec 32 := 0#32
  ![v1401.toNat, 0]

def k0_chk112 (v1401 : BitVec 32) : Prop :=
  (∀ a, (k0_off112 v1401) a + S1x128.size a ≤ S50000x128.size a)
instance k0_chk112.dec : ∀ (v1401 : BitVec 32), Decidable (k0_chk112 v1401) := fun v1401 => decidable_of_iff' _ (Iff.of_eq (k0_chk112.eq_1 v1401))
theorem k0_off112_inb : ∀ (v1401 : BitVec 32) (k0_hw112 : k0_chk112 v1401), ∀ a, (k0_off112 v1401) a + S1x128.size a ≤ S50000x128.size a := fun v1401 k0_hw112 => k0_hw112

def k0_off113 (v1414 : BitVec 32) : Fin 2 → Nat :=
  let c0_i32_1089 : BitVec 32 := 0#32
  ![v1414.toNat, 0]

def k0_chk113 (v1414 : BitVec 32) : Prop :=
  (∀ a, (k0_off113 v1414) a + S1x128.size a ≤ S50000x128.size a)
instance k0_chk113.dec : ∀ (v1414 : BitVec 32), Decidable (k0_chk113 v1414) := fun v1414 => decidable_of_iff' _ (Iff.of_eq (k0_chk113.eq_1 v1414))
theorem k0_off113_inb : ∀ (v1414 : BitVec 32) (k0_hw113 : k0_chk113 v1414), ∀ a, (k0_off113 v1414) a + S1x128.size a ≤ S50000x128.size a := fun v1414 k0_hw113 => k0_hw113

def k0_off114 (v1427 : BitVec 32) : Fin 2 → Nat :=
  let c0_i32_1099 : BitVec 32 := 0#32
  ![v1427.toNat, 0]

def k0_chk114 (v1427 : BitVec 32) : Prop :=
  (∀ a, (k0_off114 v1427) a + S1x128.size a ≤ S50000x128.size a)
instance k0_chk114.dec : ∀ (v1427 : BitVec 32), Decidable (k0_chk114 v1427) := fun v1427 => decidable_of_iff' _ (Iff.of_eq (k0_chk114.eq_1 v1427))
theorem k0_off114_inb : ∀ (v1427 : BitVec 32) (k0_hw114 : k0_chk114 v1427), ∀ a, (k0_off114 v1427) a + S1x128.size a ≤ S50000x128.size a := fun v1427 k0_hw114 => k0_hw114

def k0_off115 (v1440 : BitVec 32) : Fin 2 → Nat :=
  let c0_i32_1109 : BitVec 32 := 0#32
  ![v1440.toNat, 0]

def k0_chk115 (v1440 : BitVec 32) : Prop :=
  (∀ a, (k0_off115 v1440) a + S1x128.size a ≤ S50000x128.size a)
instance k0_chk115.dec : ∀ (v1440 : BitVec 32), Decidable (k0_chk115 v1440) := fun v1440 => decidable_of_iff' _ (Iff.of_eq (k0_chk115.eq_1 v1440))
theorem k0_off115_inb : ∀ (v1440 : BitVec 32) (k0_hw115 : k0_chk115 v1440), ∀ a, (k0_off115 v1440) a + S1x128.size a ≤ S50000x128.size a := fun v1440 k0_hw115 => k0_hw115

def k0_off116 (v1453 : BitVec 32) : Fin 2 → Nat :=
  let c0_i32_1119 : BitVec 32 := 0#32
  ![v1453.toNat, 0]

def k0_chk116 (v1453 : BitVec 32) : Prop :=
  (∀ a, (k0_off116 v1453) a + S1x128.size a ≤ S50000x128.size a)
instance k0_chk116.dec : ∀ (v1453 : BitVec 32), Decidable (k0_chk116 v1453) := fun v1453 => decidable_of_iff' _ (Iff.of_eq (k0_chk116.eq_1 v1453))
theorem k0_off116_inb : ∀ (v1453 : BitVec 32) (k0_hw116 : k0_chk116 v1453), ∀ a, (k0_off116 v1453) a + S1x128.size a ≤ S50000x128.size a := fun v1453 k0_hw116 => k0_hw116

def k0_off117 (v1466 : BitVec 32) : Fin 2 → Nat :=
  let c0_i32_1129 : BitVec 32 := 0#32
  ![v1466.toNat, 0]

def k0_chk117 (v1466 : BitVec 32) : Prop :=
  (∀ a, (k0_off117 v1466) a + S1x128.size a ≤ S50000x128.size a)
instance k0_chk117.dec : ∀ (v1466 : BitVec 32), Decidable (k0_chk117 v1466) := fun v1466 => decidable_of_iff' _ (Iff.of_eq (k0_chk117.eq_1 v1466))
theorem k0_off117_inb : ∀ (v1466 : BitVec 32) (k0_hw117 : k0_chk117 v1466), ∀ a, (k0_off117 v1466) a + S1x128.size a ≤ S50000x128.size a := fun v1466 k0_hw117 => k0_hw117

def k0_off118 (v1479 : BitVec 32) : Fin 2 → Nat :=
  let c0_i32_1139 : BitVec 32 := 0#32
  ![v1479.toNat, 0]

def k0_chk118 (v1479 : BitVec 32) : Prop :=
  (∀ a, (k0_off118 v1479) a + S1x128.size a ≤ S50000x128.size a)
instance k0_chk118.dec : ∀ (v1479 : BitVec 32), Decidable (k0_chk118 v1479) := fun v1479 => decidable_of_iff' _ (Iff.of_eq (k0_chk118.eq_1 v1479))
theorem k0_off118_inb : ∀ (v1479 : BitVec 32) (k0_hw118 : k0_chk118 v1479), ∀ a, (k0_off118 v1479) a + S1x128.size a ≤ S50000x128.size a := fun v1479 k0_hw118 => k0_hw118

def k0_off119 (v1492 : BitVec 32) : Fin 2 → Nat :=
  let c0_i32_1149 : BitVec 32 := 0#32
  ![v1492.toNat, 0]

def k0_chk119 (v1492 : BitVec 32) : Prop :=
  (∀ a, (k0_off119 v1492) a + S1x128.size a ≤ S50000x128.size a)
instance k0_chk119.dec : ∀ (v1492 : BitVec 32), Decidable (k0_chk119 v1492) := fun v1492 => decidable_of_iff' _ (Iff.of_eq (k0_chk119.eq_1 v1492))
theorem k0_off119_inb : ∀ (v1492 : BitVec 32) (k0_hw119 : k0_chk119 v1492), ∀ a, (k0_off119 v1492) a + S1x128.size a ≤ S50000x128.size a := fun v1492 k0_hw119 => k0_hw119

def k0_off120 (v1505 : BitVec 32) : Fin 2 → Nat :=
  let c0_i32_1159 : BitVec 32 := 0#32
  ![v1505.toNat, 0]

def k0_chk120 (v1505 : BitVec 32) : Prop :=
  (∀ a, (k0_off120 v1505) a + S1x128.size a ≤ S50000x128.size a)
instance k0_chk120.dec : ∀ (v1505 : BitVec 32), Decidable (k0_chk120 v1505) := fun v1505 => decidable_of_iff' _ (Iff.of_eq (k0_chk120.eq_1 v1505))
theorem k0_off120_inb : ∀ (v1505 : BitVec 32) (k0_hw120 : k0_chk120 v1505), ∀ a, (k0_off120 v1505) a + S1x128.size a ≤ S50000x128.size a := fun v1505 k0_hw120 => k0_hw120

def k0_off121 (v1518 : BitVec 32) : Fin 2 → Nat :=
  let c0_i32_1169 : BitVec 32 := 0#32
  ![v1518.toNat, 0]

def k0_chk121 (v1518 : BitVec 32) : Prop :=
  (∀ a, (k0_off121 v1518) a + S1x128.size a ≤ S50000x128.size a)
instance k0_chk121.dec : ∀ (v1518 : BitVec 32), Decidable (k0_chk121 v1518) := fun v1518 => decidable_of_iff' _ (Iff.of_eq (k0_chk121.eq_1 v1518))
theorem k0_off121_inb : ∀ (v1518 : BitVec 32) (k0_hw121 : k0_chk121 v1518), ∀ a, (k0_off121 v1518) a + S1x128.size a ≤ S50000x128.size a := fun v1518 k0_hw121 => k0_hw121

def k0_off122 (v1531 : BitVec 32) : Fin 2 → Nat :=
  let c0_i32_1179 : BitVec 32 := 0#32
  ![v1531.toNat, 0]

def k0_chk122 (v1531 : BitVec 32) : Prop :=
  (∀ a, (k0_off122 v1531) a + S1x128.size a ≤ S50000x128.size a)
instance k0_chk122.dec : ∀ (v1531 : BitVec 32), Decidable (k0_chk122 v1531) := fun v1531 => decidable_of_iff' _ (Iff.of_eq (k0_chk122.eq_1 v1531))
theorem k0_off122_inb : ∀ (v1531 : BitVec 32) (k0_hw122 : k0_chk122 v1531), ∀ a, (k0_off122 v1531) a + S1x128.size a ≤ S50000x128.size a := fun v1531 k0_hw122 => k0_hw122

def k0_off123 (v1544 : BitVec 32) : Fin 2 → Nat :=
  let c0_i32_1189 : BitVec 32 := 0#32
  ![v1544.toNat, 0]

def k0_chk123 (v1544 : BitVec 32) : Prop :=
  (∀ a, (k0_off123 v1544) a + S1x128.size a ≤ S50000x128.size a)
instance k0_chk123.dec : ∀ (v1544 : BitVec 32), Decidable (k0_chk123 v1544) := fun v1544 => decidable_of_iff' _ (Iff.of_eq (k0_chk123.eq_1 v1544))
theorem k0_off123_inb : ∀ (v1544 : BitVec 32) (k0_hw123 : k0_chk123 v1544), ∀ a, (k0_off123 v1544) a + S1x128.size a ≤ S50000x128.size a := fun v1544 k0_hw123 => k0_hw123

def k0_off124 (v1557 : BitVec 32) : Fin 2 → Nat :=
  let c0_i32_1199 : BitVec 32 := 0#32
  ![v1557.toNat, 0]

def k0_chk124 (v1557 : BitVec 32) : Prop :=
  (∀ a, (k0_off124 v1557) a + S1x128.size a ≤ S50000x128.size a)
instance k0_chk124.dec : ∀ (v1557 : BitVec 32), Decidable (k0_chk124 v1557) := fun v1557 => decidable_of_iff' _ (Iff.of_eq (k0_chk124.eq_1 v1557))
theorem k0_off124_inb : ∀ (v1557 : BitVec 32) (k0_hw124 : k0_chk124 v1557), ∀ a, (k0_off124 v1557) a + S1x128.size a ≤ S50000x128.size a := fun v1557 k0_hw124 => k0_hw124

def k0_off125 (v1570 : BitVec 32) : Fin 2 → Nat :=
  let c0_i32_1209 : BitVec 32 := 0#32
  ![v1570.toNat, 0]

def k0_chk125 (v1570 : BitVec 32) : Prop :=
  (∀ a, (k0_off125 v1570) a + S1x128.size a ≤ S50000x128.size a)
instance k0_chk125.dec : ∀ (v1570 : BitVec 32), Decidable (k0_chk125 v1570) := fun v1570 => decidable_of_iff' _ (Iff.of_eq (k0_chk125.eq_1 v1570))
theorem k0_off125_inb : ∀ (v1570 : BitVec 32) (k0_hw125 : k0_chk125 v1570), ∀ a, (k0_off125 v1570) a + S1x128.size a ≤ S50000x128.size a := fun v1570 k0_hw125 => k0_hw125

def k0_off126 (v1583 : BitVec 32) : Fin 2 → Nat :=
  let c0_i32_1219 : BitVec 32 := 0#32
  ![v1583.toNat, 0]

def k0_chk126 (v1583 : BitVec 32) : Prop :=
  (∀ a, (k0_off126 v1583) a + S1x128.size a ≤ S50000x128.size a)
instance k0_chk126.dec : ∀ (v1583 : BitVec 32), Decidable (k0_chk126 v1583) := fun v1583 => decidable_of_iff' _ (Iff.of_eq (k0_chk126.eq_1 v1583))
theorem k0_off126_inb : ∀ (v1583 : BitVec 32) (k0_hw126 : k0_chk126 v1583), ∀ a, (k0_off126 v1583) a + S1x128.size a ≤ S50000x128.size a := fun v1583 k0_hw126 => k0_hw126

def k0_off127 (v1596 : BitVec 32) : Fin 2 → Nat :=
  let c0_i32_1229 : BitVec 32 := 0#32
  ![v1596.toNat, 0]

def k0_chk127 (v1596 : BitVec 32) : Prop :=
  (∀ a, (k0_off127 v1596) a + S1x128.size a ≤ S50000x128.size a)
instance k0_chk127.dec : ∀ (v1596 : BitVec 32), Decidable (k0_chk127 v1596) := fun v1596 => decidable_of_iff' _ (Iff.of_eq (k0_chk127.eq_1 v1596))
theorem k0_off127_inb : ∀ (v1596 : BitVec 32) (k0_hw127 : k0_chk127 v1596), ∀ a, (k0_off127 v1596) a + S1x128.size a ≤ S50000x128.size a := fun v1596 k0_hw127 => k0_hw127

def k0_off128 (v1609 : BitVec 32) : Fin 2 → Nat :=
  let c0_i32_1239 : BitVec 32 := 0#32
  ![v1609.toNat, 0]

def k0_chk128 (v1609 : BitVec 32) : Prop :=
  (∀ a, (k0_off128 v1609) a + S1x128.size a ≤ S50000x128.size a)
instance k0_chk128.dec : ∀ (v1609 : BitVec 32), Decidable (k0_chk128 v1609) := fun v1609 => decidable_of_iff' _ (Iff.of_eq (k0_chk128.eq_1 v1609))
theorem k0_off128_inb : ∀ (v1609 : BitVec 32) (k0_hw128 : k0_chk128 v1609), ∀ a, (k0_off128 v1609) a + S1x128.size a ≤ S50000x128.size a := fun v1609 k0_hw128 => k0_hw128

def k0_off129 (v1664 : BitVec 32) : Fin 2 → Nat :=
  let c0_i32_1286 : BitVec 32 := 0#32
  ![v1664.toNat, 0]

def k0_chk129 (v1664 : BitVec 32) : Prop :=
  (∀ a, (k0_off129 v1664) a + S1x128.size a ≤ S50000x128.size a)
instance k0_chk129.dec : ∀ (v1664 : BitVec 32), Decidable (k0_chk129 v1664) := fun v1664 => decidable_of_iff' _ (Iff.of_eq (k0_chk129.eq_1 v1664))
theorem k0_off129_inb : ∀ (v1664 : BitVec 32) (k0_hw129 : k0_chk129 v1664), ∀ a, (k0_off129 v1664) a + S1x128.size a ≤ S50000x128.size a := fun v1664 k0_hw129 => k0_hw129

def k0_off130 (v1671 : BitVec 32) : Fin 2 → Nat :=
  let c0_i32_1293 : BitVec 32 := 0#32
  ![v1671.toNat, 0]

def k0_chk130 (v1671 : BitVec 32) : Prop :=
  (∀ a, (k0_off130 v1671) a + S1x128.size a ≤ S50000x128.size a)
instance k0_chk130.dec : ∀ (v1671 : BitVec 32), Decidable (k0_chk130 v1671) := fun v1671 => decidable_of_iff' _ (Iff.of_eq (k0_chk130.eq_1 v1671))
theorem k0_off130_inb : ∀ (v1671 : BitVec 32) (k0_hw130 : k0_chk130 v1671), ∀ a, (k0_off130 v1671) a + S1x128.size a ≤ S50000x128.size a := fun v1671 k0_hw130 => k0_hw130

def k0_off131 (v1678 : BitVec 32) : Fin 2 → Nat :=
  let c0_i32_1300 : BitVec 32 := 0#32
  ![v1678.toNat, 0]

def k0_chk131 (v1678 : BitVec 32) : Prop :=
  (∀ a, (k0_off131 v1678) a + S1x128.size a ≤ S50000x128.size a)
instance k0_chk131.dec : ∀ (v1678 : BitVec 32), Decidable (k0_chk131 v1678) := fun v1678 => decidable_of_iff' _ (Iff.of_eq (k0_chk131.eq_1 v1678))
theorem k0_off131_inb : ∀ (v1678 : BitVec 32) (k0_hw131 : k0_chk131 v1678), ∀ a, (k0_off131 v1678) a + S1x128.size a ≤ S50000x128.size a := fun v1678 k0_hw131 => k0_hw131

def k0_off132 (v1685 : BitVec 32) : Fin 2 → Nat :=
  let c0_i32_1307 : BitVec 32 := 0#32
  ![v1685.toNat, 0]

def k0_chk132 (v1685 : BitVec 32) : Prop :=
  (∀ a, (k0_off132 v1685) a + S1x128.size a ≤ S50000x128.size a)
instance k0_chk132.dec : ∀ (v1685 : BitVec 32), Decidable (k0_chk132 v1685) := fun v1685 => decidable_of_iff' _ (Iff.of_eq (k0_chk132.eq_1 v1685))
theorem k0_off132_inb : ∀ (v1685 : BitVec 32) (k0_hw132 : k0_chk132 v1685), ∀ a, (k0_off132 v1685) a + S1x128.size a ≤ S50000x128.size a := fun v1685 k0_hw132 => k0_hw132

def k0_off133 (v1692 : BitVec 32) : Fin 2 → Nat :=
  let c0_i32_1314 : BitVec 32 := 0#32
  ![v1692.toNat, 0]

def k0_chk133 (v1692 : BitVec 32) : Prop :=
  (∀ a, (k0_off133 v1692) a + S1x128.size a ≤ S50000x128.size a)
instance k0_chk133.dec : ∀ (v1692 : BitVec 32), Decidable (k0_chk133 v1692) := fun v1692 => decidable_of_iff' _ (Iff.of_eq (k0_chk133.eq_1 v1692))
theorem k0_off133_inb : ∀ (v1692 : BitVec 32) (k0_hw133 : k0_chk133 v1692), ∀ a, (k0_off133 v1692) a + S1x128.size a ≤ S50000x128.size a := fun v1692 k0_hw133 => k0_hw133

def k0_off134 (v1699 : BitVec 32) : Fin 2 → Nat :=
  let c0_i32_1321 : BitVec 32 := 0#32
  ![v1699.toNat, 0]

def k0_chk134 (v1699 : BitVec 32) : Prop :=
  (∀ a, (k0_off134 v1699) a + S1x128.size a ≤ S50000x128.size a)
instance k0_chk134.dec : ∀ (v1699 : BitVec 32), Decidable (k0_chk134 v1699) := fun v1699 => decidable_of_iff' _ (Iff.of_eq (k0_chk134.eq_1 v1699))
theorem k0_off134_inb : ∀ (v1699 : BitVec 32) (k0_hw134 : k0_chk134 v1699), ∀ a, (k0_off134 v1699) a + S1x128.size a ≤ S50000x128.size a := fun v1699 k0_hw134 => k0_hw134

def k0_off135 (v1706 : BitVec 32) : Fin 2 → Nat :=
  let c0_i32_1328 : BitVec 32 := 0#32
  ![v1706.toNat, 0]

def k0_chk135 (v1706 : BitVec 32) : Prop :=
  (∀ a, (k0_off135 v1706) a + S1x128.size a ≤ S50000x128.size a)
instance k0_chk135.dec : ∀ (v1706 : BitVec 32), Decidable (k0_chk135 v1706) := fun v1706 => decidable_of_iff' _ (Iff.of_eq (k0_chk135.eq_1 v1706))
theorem k0_off135_inb : ∀ (v1706 : BitVec 32) (k0_hw135 : k0_chk135 v1706), ∀ a, (k0_off135 v1706) a + S1x128.size a ≤ S50000x128.size a := fun v1706 k0_hw135 => k0_hw135

def k0_off136 (v1713 : BitVec 32) : Fin 2 → Nat :=
  let c0_i32_1335 : BitVec 32 := 0#32
  ![v1713.toNat, 0]

def k0_chk136 (v1713 : BitVec 32) : Prop :=
  (∀ a, (k0_off136 v1713) a + S1x128.size a ≤ S50000x128.size a)
instance k0_chk136.dec : ∀ (v1713 : BitVec 32), Decidable (k0_chk136 v1713) := fun v1713 => decidable_of_iff' _ (Iff.of_eq (k0_chk136.eq_1 v1713))
theorem k0_off136_inb : ∀ (v1713 : BitVec 32) (k0_hw136 : k0_chk136 v1713), ∀ a, (k0_off136 v1713) a + S1x128.size a ≤ S50000x128.size a := fun v1713 k0_hw136 => k0_hw136

def k0_off137 (v1726 : BitVec 32) : Fin 2 → Nat :=
  let c0_i32_1347 : BitVec 32 := 0#32
  ![v1726.toNat, 0]

def k0_chk137 (v1726 : BitVec 32) : Prop :=
  (∀ a, (k0_off137 v1726) a + S1x128.size a ≤ S50000x128.size a)
instance k0_chk137.dec : ∀ (v1726 : BitVec 32), Decidable (k0_chk137 v1726) := fun v1726 => decidable_of_iff' _ (Iff.of_eq (k0_chk137.eq_1 v1726))
theorem k0_off137_inb : ∀ (v1726 : BitVec 32) (k0_hw137 : k0_chk137 v1726), ∀ a, (k0_off137 v1726) a + S1x128.size a ≤ S50000x128.size a := fun v1726 k0_hw137 => k0_hw137

def k0_off138 (v1739 : BitVec 32) : Fin 2 → Nat :=
  let c0_i32_1359 : BitVec 32 := 0#32
  ![v1739.toNat, 0]

def k0_chk138 (v1739 : BitVec 32) : Prop :=
  (∀ a, (k0_off138 v1739) a + S1x128.size a ≤ S50000x128.size a)
instance k0_chk138.dec : ∀ (v1739 : BitVec 32), Decidable (k0_chk138 v1739) := fun v1739 => decidable_of_iff' _ (Iff.of_eq (k0_chk138.eq_1 v1739))
theorem k0_off138_inb : ∀ (v1739 : BitVec 32) (k0_hw138 : k0_chk138 v1739), ∀ a, (k0_off138 v1739) a + S1x128.size a ≤ S50000x128.size a := fun v1739 k0_hw138 => k0_hw138

def k0_off139 (v1752 : BitVec 32) : Fin 2 → Nat :=
  let c0_i32_1371 : BitVec 32 := 0#32
  ![v1752.toNat, 0]

def k0_chk139 (v1752 : BitVec 32) : Prop :=
  (∀ a, (k0_off139 v1752) a + S1x128.size a ≤ S50000x128.size a)
instance k0_chk139.dec : ∀ (v1752 : BitVec 32), Decidable (k0_chk139 v1752) := fun v1752 => decidable_of_iff' _ (Iff.of_eq (k0_chk139.eq_1 v1752))
theorem k0_off139_inb : ∀ (v1752 : BitVec 32) (k0_hw139 : k0_chk139 v1752), ∀ a, (k0_off139 v1752) a + S1x128.size a ≤ S50000x128.size a := fun v1752 k0_hw139 => k0_hw139

def k0_off140 (v1765 : BitVec 32) : Fin 2 → Nat :=
  let c0_i32_1383 : BitVec 32 := 0#32
  ![v1765.toNat, 0]

def k0_chk140 (v1765 : BitVec 32) : Prop :=
  (∀ a, (k0_off140 v1765) a + S1x128.size a ≤ S50000x128.size a)
instance k0_chk140.dec : ∀ (v1765 : BitVec 32), Decidable (k0_chk140 v1765) := fun v1765 => decidable_of_iff' _ (Iff.of_eq (k0_chk140.eq_1 v1765))
theorem k0_off140_inb : ∀ (v1765 : BitVec 32) (k0_hw140 : k0_chk140 v1765), ∀ a, (k0_off140 v1765) a + S1x128.size a ≤ S50000x128.size a := fun v1765 k0_hw140 => k0_hw140

def k0_off141 (v1778 : BitVec 32) : Fin 2 → Nat :=
  let c0_i32_1395 : BitVec 32 := 0#32
  ![v1778.toNat, 0]

def k0_chk141 (v1778 : BitVec 32) : Prop :=
  (∀ a, (k0_off141 v1778) a + S1x128.size a ≤ S50000x128.size a)
instance k0_chk141.dec : ∀ (v1778 : BitVec 32), Decidable (k0_chk141 v1778) := fun v1778 => decidable_of_iff' _ (Iff.of_eq (k0_chk141.eq_1 v1778))
theorem k0_off141_inb : ∀ (v1778 : BitVec 32) (k0_hw141 : k0_chk141 v1778), ∀ a, (k0_off141 v1778) a + S1x128.size a ≤ S50000x128.size a := fun v1778 k0_hw141 => k0_hw141

def k0_off142 (v1791 : BitVec 32) : Fin 2 → Nat :=
  let c0_i32_1407 : BitVec 32 := 0#32
  ![v1791.toNat, 0]

def k0_chk142 (v1791 : BitVec 32) : Prop :=
  (∀ a, (k0_off142 v1791) a + S1x128.size a ≤ S50000x128.size a)
instance k0_chk142.dec : ∀ (v1791 : BitVec 32), Decidable (k0_chk142 v1791) := fun v1791 => decidable_of_iff' _ (Iff.of_eq (k0_chk142.eq_1 v1791))
theorem k0_off142_inb : ∀ (v1791 : BitVec 32) (k0_hw142 : k0_chk142 v1791), ∀ a, (k0_off142 v1791) a + S1x128.size a ≤ S50000x128.size a := fun v1791 k0_hw142 => k0_hw142

def k0_off143 (v1804 : BitVec 32) : Fin 2 → Nat :=
  let c0_i32_1419 : BitVec 32 := 0#32
  ![v1804.toNat, 0]

def k0_chk143 (v1804 : BitVec 32) : Prop :=
  (∀ a, (k0_off143 v1804) a + S1x128.size a ≤ S50000x128.size a)
instance k0_chk143.dec : ∀ (v1804 : BitVec 32), Decidable (k0_chk143 v1804) := fun v1804 => decidable_of_iff' _ (Iff.of_eq (k0_chk143.eq_1 v1804))
theorem k0_off143_inb : ∀ (v1804 : BitVec 32) (k0_hw143 : k0_chk143 v1804), ∀ a, (k0_off143 v1804) a + S1x128.size a ≤ S50000x128.size a := fun v1804 k0_hw143 => k0_hw143

def k0_off144 (v1817 : BitVec 32) : Fin 2 → Nat :=
  let c0_i32_1431 : BitVec 32 := 0#32
  ![v1817.toNat, 0]

def k0_chk144 (v1817 : BitVec 32) : Prop :=
  (∀ a, (k0_off144 v1817) a + S1x128.size a ≤ S50000x128.size a)
instance k0_chk144.dec : ∀ (v1817 : BitVec 32), Decidable (k0_chk144 v1817) := fun v1817 => decidable_of_iff' _ (Iff.of_eq (k0_chk144.eq_1 v1817))
theorem k0_off144_inb : ∀ (v1817 : BitVec 32) (k0_hw144 : k0_chk144 v1817), ∀ a, (k0_off144 v1817) a + S1x128.size a ≤ S50000x128.size a := fun v1817 k0_hw144 => k0_hw144

def k0_off145 (v1830 : BitVec 32) : Fin 2 → Nat :=
  let c0_i32_1443 : BitVec 32 := 0#32
  ![v1830.toNat, 0]

def k0_chk145 (v1830 : BitVec 32) : Prop :=
  (∀ a, (k0_off145 v1830) a + S1x128.size a ≤ S50000x128.size a)
instance k0_chk145.dec : ∀ (v1830 : BitVec 32), Decidable (k0_chk145 v1830) := fun v1830 => decidable_of_iff' _ (Iff.of_eq (k0_chk145.eq_1 v1830))
theorem k0_off145_inb : ∀ (v1830 : BitVec 32) (k0_hw145 : k0_chk145 v1830), ∀ a, (k0_off145 v1830) a + S1x128.size a ≤ S50000x128.size a := fun v1830 k0_hw145 => k0_hw145

def k0_off146 (v1843 : BitVec 32) : Fin 2 → Nat :=
  let c0_i32_1455 : BitVec 32 := 0#32
  ![v1843.toNat, 0]

def k0_chk146 (v1843 : BitVec 32) : Prop :=
  (∀ a, (k0_off146 v1843) a + S1x128.size a ≤ S50000x128.size a)
instance k0_chk146.dec : ∀ (v1843 : BitVec 32), Decidable (k0_chk146 v1843) := fun v1843 => decidable_of_iff' _ (Iff.of_eq (k0_chk146.eq_1 v1843))
theorem k0_off146_inb : ∀ (v1843 : BitVec 32) (k0_hw146 : k0_chk146 v1843), ∀ a, (k0_off146 v1843) a + S1x128.size a ≤ S50000x128.size a := fun v1843 k0_hw146 => k0_hw146

def k0_off147 (v1856 : BitVec 32) : Fin 2 → Nat :=
  let c0_i32_1467 : BitVec 32 := 0#32
  ![v1856.toNat, 0]

def k0_chk147 (v1856 : BitVec 32) : Prop :=
  (∀ a, (k0_off147 v1856) a + S1x128.size a ≤ S50000x128.size a)
instance k0_chk147.dec : ∀ (v1856 : BitVec 32), Decidable (k0_chk147 v1856) := fun v1856 => decidable_of_iff' _ (Iff.of_eq (k0_chk147.eq_1 v1856))
theorem k0_off147_inb : ∀ (v1856 : BitVec 32) (k0_hw147 : k0_chk147 v1856), ∀ a, (k0_off147 v1856) a + S1x128.size a ≤ S50000x128.size a := fun v1856 k0_hw147 => k0_hw147

def k0_off148 (v1869 : BitVec 32) : Fin 2 → Nat :=
  let c0_i32_1479 : BitVec 32 := 0#32
  ![v1869.toNat, 0]

def k0_chk148 (v1869 : BitVec 32) : Prop :=
  (∀ a, (k0_off148 v1869) a + S1x128.size a ≤ S50000x128.size a)
instance k0_chk148.dec : ∀ (v1869 : BitVec 32), Decidable (k0_chk148 v1869) := fun v1869 => decidable_of_iff' _ (Iff.of_eq (k0_chk148.eq_1 v1869))
theorem k0_off148_inb : ∀ (v1869 : BitVec 32) (k0_hw148 : k0_chk148 v1869), ∀ a, (k0_off148 v1869) a + S1x128.size a ≤ S50000x128.size a := fun v1869 k0_hw148 => k0_hw148

def k0_off149 (v1882 : BitVec 32) : Fin 2 → Nat :=
  let c0_i32_1491 : BitVec 32 := 0#32
  ![v1882.toNat, 0]

def k0_chk149 (v1882 : BitVec 32) : Prop :=
  (∀ a, (k0_off149 v1882) a + S1x128.size a ≤ S50000x128.size a)
instance k0_chk149.dec : ∀ (v1882 : BitVec 32), Decidable (k0_chk149 v1882) := fun v1882 => decidable_of_iff' _ (Iff.of_eq (k0_chk149.eq_1 v1882))
theorem k0_off149_inb : ∀ (v1882 : BitVec 32) (k0_hw149 : k0_chk149 v1882), ∀ a, (k0_off149 v1882) a + S1x128.size a ≤ S50000x128.size a := fun v1882 k0_hw149 => k0_hw149

def k0_off150 (v1895 : BitVec 32) : Fin 2 → Nat :=
  let c0_i32_1503 : BitVec 32 := 0#32
  ![v1895.toNat, 0]

def k0_chk150 (v1895 : BitVec 32) : Prop :=
  (∀ a, (k0_off150 v1895) a + S1x128.size a ≤ S50000x128.size a)
instance k0_chk150.dec : ∀ (v1895 : BitVec 32), Decidable (k0_chk150 v1895) := fun v1895 => decidable_of_iff' _ (Iff.of_eq (k0_chk150.eq_1 v1895))
theorem k0_off150_inb : ∀ (v1895 : BitVec 32) (k0_hw150 : k0_chk150 v1895), ∀ a, (k0_off150 v1895) a + S1x128.size a ≤ S50000x128.size a := fun v1895 k0_hw150 => k0_hw150

def k0_off151 (v1908 : BitVec 32) : Fin 2 → Nat :=
  let c0_i32_1515 : BitVec 32 := 0#32
  ![v1908.toNat, 0]

def k0_chk151 (v1908 : BitVec 32) : Prop :=
  (∀ a, (k0_off151 v1908) a + S1x128.size a ≤ S50000x128.size a)
instance k0_chk151.dec : ∀ (v1908 : BitVec 32), Decidable (k0_chk151 v1908) := fun v1908 => decidable_of_iff' _ (Iff.of_eq (k0_chk151.eq_1 v1908))
theorem k0_off151_inb : ∀ (v1908 : BitVec 32) (k0_hw151 : k0_chk151 v1908), ∀ a, (k0_off151 v1908) a + S1x128.size a ≤ S50000x128.size a := fun v1908 k0_hw151 => k0_hw151

def k0_off152 (v1921 : BitVec 32) : Fin 2 → Nat :=
  let c0_i32_1527 : BitVec 32 := 0#32
  ![v1921.toNat, 0]

def k0_chk152 (v1921 : BitVec 32) : Prop :=
  (∀ a, (k0_off152 v1921) a + S1x128.size a ≤ S50000x128.size a)
instance k0_chk152.dec : ∀ (v1921 : BitVec 32), Decidable (k0_chk152 v1921) := fun v1921 => decidable_of_iff' _ (Iff.of_eq (k0_chk152.eq_1 v1921))
theorem k0_off152_inb : ∀ (v1921 : BitVec 32) (k0_hw152 : k0_chk152 v1921), ∀ a, (k0_off152 v1921) a + S1x128.size a ≤ S50000x128.size a := fun v1921 k0_hw152 => k0_hw152

def k0_off153 (v1934 : BitVec 32) : Fin 2 → Nat :=
  let c0_i32_1539 : BitVec 32 := 0#32
  ![v1934.toNat, 0]

def k0_chk153 (v1934 : BitVec 32) : Prop :=
  (∀ a, (k0_off153 v1934) a + S1x128.size a ≤ S50000x128.size a)
instance k0_chk153.dec : ∀ (v1934 : BitVec 32), Decidable (k0_chk153 v1934) := fun v1934 => decidable_of_iff' _ (Iff.of_eq (k0_chk153.eq_1 v1934))
theorem k0_off153_inb : ∀ (v1934 : BitVec 32) (k0_hw153 : k0_chk153 v1934), ∀ a, (k0_off153 v1934) a + S1x128.size a ≤ S50000x128.size a := fun v1934 k0_hw153 => k0_hw153

def k0_off154 (v1947 : BitVec 32) : Fin 2 → Nat :=
  let c0_i32_1551 : BitVec 32 := 0#32
  ![v1947.toNat, 0]

def k0_chk154 (v1947 : BitVec 32) : Prop :=
  (∀ a, (k0_off154 v1947) a + S1x128.size a ≤ S50000x128.size a)
instance k0_chk154.dec : ∀ (v1947 : BitVec 32), Decidable (k0_chk154 v1947) := fun v1947 => decidable_of_iff' _ (Iff.of_eq (k0_chk154.eq_1 v1947))
theorem k0_off154_inb : ∀ (v1947 : BitVec 32) (k0_hw154 : k0_chk154 v1947), ∀ a, (k0_off154 v1947) a + S1x128.size a ≤ S50000x128.size a := fun v1947 k0_hw154 => k0_hw154

def k0_off155 (v1960 : BitVec 32) : Fin 2 → Nat :=
  let c0_i32_1563 : BitVec 32 := 0#32
  ![v1960.toNat, 0]

def k0_chk155 (v1960 : BitVec 32) : Prop :=
  (∀ a, (k0_off155 v1960) a + S1x128.size a ≤ S50000x128.size a)
instance k0_chk155.dec : ∀ (v1960 : BitVec 32), Decidable (k0_chk155 v1960) := fun v1960 => decidable_of_iff' _ (Iff.of_eq (k0_chk155.eq_1 v1960))
theorem k0_off155_inb : ∀ (v1960 : BitVec 32) (k0_hw155 : k0_chk155 v1960), ∀ a, (k0_off155 v1960) a + S1x128.size a ≤ S50000x128.size a := fun v1960 k0_hw155 => k0_hw155

def k0_off156 (v1973 : BitVec 32) : Fin 2 → Nat :=
  let c0_i32_1575 : BitVec 32 := 0#32
  ![v1973.toNat, 0]

def k0_chk156 (v1973 : BitVec 32) : Prop :=
  (∀ a, (k0_off156 v1973) a + S1x128.size a ≤ S50000x128.size a)
instance k0_chk156.dec : ∀ (v1973 : BitVec 32), Decidable (k0_chk156 v1973) := fun v1973 => decidable_of_iff' _ (Iff.of_eq (k0_chk156.eq_1 v1973))
theorem k0_off156_inb : ∀ (v1973 : BitVec 32) (k0_hw156 : k0_chk156 v1973), ∀ a, (k0_off156 v1973) a + S1x128.size a ≤ S50000x128.size a := fun v1973 k0_hw156 => k0_hw156

def k0_off157 (v1986 : BitVec 32) : Fin 2 → Nat :=
  let c0_i32_1587 : BitVec 32 := 0#32
  ![v1986.toNat, 0]

def k0_chk157 (v1986 : BitVec 32) : Prop :=
  (∀ a, (k0_off157 v1986) a + S1x128.size a ≤ S50000x128.size a)
instance k0_chk157.dec : ∀ (v1986 : BitVec 32), Decidable (k0_chk157 v1986) := fun v1986 => decidable_of_iff' _ (Iff.of_eq (k0_chk157.eq_1 v1986))
theorem k0_off157_inb : ∀ (v1986 : BitVec 32) (k0_hw157 : k0_chk157 v1986), ∀ a, (k0_off157 v1986) a + S1x128.size a ≤ S50000x128.size a := fun v1986 k0_hw157 => k0_hw157

def k0_off158 (v1999 : BitVec 32) : Fin 2 → Nat :=
  let c0_i32_1599 : BitVec 32 := 0#32
  ![v1999.toNat, 0]

def k0_chk158 (v1999 : BitVec 32) : Prop :=
  (∀ a, (k0_off158 v1999) a + S1x128.size a ≤ S50000x128.size a)
instance k0_chk158.dec : ∀ (v1999 : BitVec 32), Decidable (k0_chk158 v1999) := fun v1999 => decidable_of_iff' _ (Iff.of_eq (k0_chk158.eq_1 v1999))
theorem k0_off158_inb : ∀ (v1999 : BitVec 32) (k0_hw158 : k0_chk158 v1999), ∀ a, (k0_off158 v1999) a + S1x128.size a ≤ S50000x128.size a := fun v1999 k0_hw158 => k0_hw158

def k0_off159 (v2012 : BitVec 32) : Fin 2 → Nat :=
  let c0_i32_1611 : BitVec 32 := 0#32
  ![v2012.toNat, 0]

def k0_chk159 (v2012 : BitVec 32) : Prop :=
  (∀ a, (k0_off159 v2012) a + S1x128.size a ≤ S50000x128.size a)
instance k0_chk159.dec : ∀ (v2012 : BitVec 32), Decidable (k0_chk159 v2012) := fun v2012 => decidable_of_iff' _ (Iff.of_eq (k0_chk159.eq_1 v2012))
theorem k0_off159_inb : ∀ (v2012 : BitVec 32) (k0_hw159 : k0_chk159 v2012), ∀ a, (k0_off159 v2012) a + S1x128.size a ≤ S50000x128.size a := fun v2012 k0_hw159 => k0_hw159

def k0_off160 (v2025 : BitVec 32) : Fin 2 → Nat :=
  let c0_i32_1623 : BitVec 32 := 0#32
  ![v2025.toNat, 0]

def k0_chk160 (v2025 : BitVec 32) : Prop :=
  (∀ a, (k0_off160 v2025) a + S1x128.size a ≤ S50000x128.size a)
instance k0_chk160.dec : ∀ (v2025 : BitVec 32), Decidable (k0_chk160 v2025) := fun v2025 => decidable_of_iff' _ (Iff.of_eq (k0_chk160.eq_1 v2025))
theorem k0_off160_inb : ∀ (v2025 : BitVec 32) (k0_hw160 : k0_chk160 v2025), ∀ a, (k0_off160 v2025) a + S1x128.size a ≤ S50000x128.size a := fun v2025 k0_hw160 => k0_hw160

def k0_off161 (v2038 : BitVec 32) : Fin 2 → Nat :=
  let c0_i32_1635 : BitVec 32 := 0#32
  ![v2038.toNat, 0]

def k0_chk161 (v2038 : BitVec 32) : Prop :=
  (∀ a, (k0_off161 v2038) a + S1x128.size a ≤ S50000x128.size a)
instance k0_chk161.dec : ∀ (v2038 : BitVec 32), Decidable (k0_chk161 v2038) := fun v2038 => decidable_of_iff' _ (Iff.of_eq (k0_chk161.eq_1 v2038))
theorem k0_off161_inb : ∀ (v2038 : BitVec 32) (k0_hw161 : k0_chk161 v2038), ∀ a, (k0_off161 v2038) a + S1x128.size a ≤ S50000x128.size a := fun v2038 k0_hw161 => k0_hw161

def k0_off162 (v2051 : BitVec 32) : Fin 2 → Nat :=
  let c0_i32_1647 : BitVec 32 := 0#32
  ![v2051.toNat, 0]

def k0_chk162 (v2051 : BitVec 32) : Prop :=
  (∀ a, (k0_off162 v2051) a + S1x128.size a ≤ S50000x128.size a)
instance k0_chk162.dec : ∀ (v2051 : BitVec 32), Decidable (k0_chk162 v2051) := fun v2051 => decidable_of_iff' _ (Iff.of_eq (k0_chk162.eq_1 v2051))
theorem k0_off162_inb : ∀ (v2051 : BitVec 32) (k0_hw162 : k0_chk162 v2051), ∀ a, (k0_off162 v2051) a + S1x128.size a ≤ S50000x128.size a := fun v2051 k0_hw162 => k0_hw162

def k0_off163 (v2064 : BitVec 32) : Fin 2 → Nat :=
  let c0_i32_1659 : BitVec 32 := 0#32
  ![v2064.toNat, 0]

def k0_chk163 (v2064 : BitVec 32) : Prop :=
  (∀ a, (k0_off163 v2064) a + S1x128.size a ≤ S50000x128.size a)
instance k0_chk163.dec : ∀ (v2064 : BitVec 32), Decidable (k0_chk163 v2064) := fun v2064 => decidable_of_iff' _ (Iff.of_eq (k0_chk163.eq_1 v2064))
theorem k0_off163_inb : ∀ (v2064 : BitVec 32) (k0_hw163 : k0_chk163 v2064), ∀ a, (k0_off163 v2064) a + S1x128.size a ≤ S50000x128.size a := fun v2064 k0_hw163 => k0_hw163

def k0_off164 (v2077 : BitVec 32) : Fin 2 → Nat :=
  let c0_i32_1671 : BitVec 32 := 0#32
  ![v2077.toNat, 0]

def k0_chk164 (v2077 : BitVec 32) : Prop :=
  (∀ a, (k0_off164 v2077) a + S1x128.size a ≤ S50000x128.size a)
instance k0_chk164.dec : ∀ (v2077 : BitVec 32), Decidable (k0_chk164 v2077) := fun v2077 => decidable_of_iff' _ (Iff.of_eq (k0_chk164.eq_1 v2077))
theorem k0_off164_inb : ∀ (v2077 : BitVec 32) (k0_hw164 : k0_chk164 v2077), ∀ a, (k0_off164 v2077) a + S1x128.size a ≤ S50000x128.size a := fun v2077 k0_hw164 => k0_hw164

def k0_off165 (v2090 : BitVec 32) : Fin 2 → Nat :=
  let c0_i32_1683 : BitVec 32 := 0#32
  ![v2090.toNat, 0]

def k0_chk165 (v2090 : BitVec 32) : Prop :=
  (∀ a, (k0_off165 v2090) a + S1x128.size a ≤ S50000x128.size a)
instance k0_chk165.dec : ∀ (v2090 : BitVec 32), Decidable (k0_chk165 v2090) := fun v2090 => decidable_of_iff' _ (Iff.of_eq (k0_chk165.eq_1 v2090))
theorem k0_off165_inb : ∀ (v2090 : BitVec 32) (k0_hw165 : k0_chk165 v2090), ∀ a, (k0_off165 v2090) a + S1x128.size a ≤ S50000x128.size a := fun v2090 k0_hw165 => k0_hw165

def k0_off166 (v2103 : BitVec 32) : Fin 2 → Nat :=
  let c0_i32_1695 : BitVec 32 := 0#32
  ![v2103.toNat, 0]

def k0_chk166 (v2103 : BitVec 32) : Prop :=
  (∀ a, (k0_off166 v2103) a + S1x128.size a ≤ S50000x128.size a)
instance k0_chk166.dec : ∀ (v2103 : BitVec 32), Decidable (k0_chk166 v2103) := fun v2103 => decidable_of_iff' _ (Iff.of_eq (k0_chk166.eq_1 v2103))
theorem k0_off166_inb : ∀ (v2103 : BitVec 32) (k0_hw166 : k0_chk166 v2103), ∀ a, (k0_off166 v2103) a + S1x128.size a ≤ S50000x128.size a := fun v2103 k0_hw166 => k0_hw166

def k0_off167 (v2116 : BitVec 32) : Fin 2 → Nat :=
  let c0_i32_1707 : BitVec 32 := 0#32
  ![v2116.toNat, 0]

def k0_chk167 (v2116 : BitVec 32) : Prop :=
  (∀ a, (k0_off167 v2116) a + S1x128.size a ≤ S50000x128.size a)
instance k0_chk167.dec : ∀ (v2116 : BitVec 32), Decidable (k0_chk167 v2116) := fun v2116 => decidable_of_iff' _ (Iff.of_eq (k0_chk167.eq_1 v2116))
theorem k0_off167_inb : ∀ (v2116 : BitVec 32) (k0_hw167 : k0_chk167 v2116), ∀ a, (k0_off167 v2116) a + S1x128.size a ≤ S50000x128.size a := fun v2116 k0_hw167 => k0_hw167

def k0_off168 (v2129 : BitVec 32) : Fin 2 → Nat :=
  let c0_i32_1719 : BitVec 32 := 0#32
  ![v2129.toNat, 0]

def k0_chk168 (v2129 : BitVec 32) : Prop :=
  (∀ a, (k0_off168 v2129) a + S1x128.size a ≤ S50000x128.size a)
instance k0_chk168.dec : ∀ (v2129 : BitVec 32), Decidable (k0_chk168 v2129) := fun v2129 => decidable_of_iff' _ (Iff.of_eq (k0_chk168.eq_1 v2129))
theorem k0_off168_inb : ∀ (v2129 : BitVec 32) (k0_hw168 : k0_chk168 v2129), ∀ a, (k0_off168 v2129) a + S1x128.size a ≤ S50000x128.size a := fun v2129 k0_hw168 => k0_hw168

def k0_off169 (v2142 : BitVec 32) : Fin 2 → Nat :=
  let c0_i32_1731 : BitVec 32 := 0#32
  ![v2142.toNat, 0]

def k0_chk169 (v2142 : BitVec 32) : Prop :=
  (∀ a, (k0_off169 v2142) a + S1x128.size a ≤ S50000x128.size a)
instance k0_chk169.dec : ∀ (v2142 : BitVec 32), Decidable (k0_chk169 v2142) := fun v2142 => decidable_of_iff' _ (Iff.of_eq (k0_chk169.eq_1 v2142))
theorem k0_off169_inb : ∀ (v2142 : BitVec 32) (k0_hw169 : k0_chk169 v2142), ∀ a, (k0_off169 v2142) a + S1x128.size a ≤ S50000x128.size a := fun v2142 k0_hw169 => k0_hw169

def k0_off170 (v2155 : BitVec 32) : Fin 2 → Nat :=
  let c0_i32_1743 : BitVec 32 := 0#32
  ![v2155.toNat, 0]

def k0_chk170 (v2155 : BitVec 32) : Prop :=
  (∀ a, (k0_off170 v2155) a + S1x128.size a ≤ S50000x128.size a)
instance k0_chk170.dec : ∀ (v2155 : BitVec 32), Decidable (k0_chk170 v2155) := fun v2155 => decidable_of_iff' _ (Iff.of_eq (k0_chk170.eq_1 v2155))
theorem k0_off170_inb : ∀ (v2155 : BitVec 32) (k0_hw170 : k0_chk170 v2155), ∀ a, (k0_off170 v2155) a + S1x128.size a ≤ S50000x128.size a := fun v2155 k0_hw170 => k0_hw170

def k0_off171 (v2168 : BitVec 32) : Fin 2 → Nat :=
  let c0_i32_1755 : BitVec 32 := 0#32
  ![v2168.toNat, 0]

def k0_chk171 (v2168 : BitVec 32) : Prop :=
  (∀ a, (k0_off171 v2168) a + S1x128.size a ≤ S50000x128.size a)
instance k0_chk171.dec : ∀ (v2168 : BitVec 32), Decidable (k0_chk171 v2168) := fun v2168 => decidable_of_iff' _ (Iff.of_eq (k0_chk171.eq_1 v2168))
theorem k0_off171_inb : ∀ (v2168 : BitVec 32) (k0_hw171 : k0_chk171 v2168), ∀ a, (k0_off171 v2168) a + S1x128.size a ≤ S50000x128.size a := fun v2168 k0_hw171 => k0_hw171

def k0_off172 (v2181 : BitVec 32) : Fin 2 → Nat :=
  let c0_i32_1767 : BitVec 32 := 0#32
  ![v2181.toNat, 0]

def k0_chk172 (v2181 : BitVec 32) : Prop :=
  (∀ a, (k0_off172 v2181) a + S1x128.size a ≤ S50000x128.size a)
instance k0_chk172.dec : ∀ (v2181 : BitVec 32), Decidable (k0_chk172 v2181) := fun v2181 => decidable_of_iff' _ (Iff.of_eq (k0_chk172.eq_1 v2181))
theorem k0_off172_inb : ∀ (v2181 : BitVec 32) (k0_hw172 : k0_chk172 v2181), ∀ a, (k0_off172 v2181) a + S1x128.size a ≤ S50000x128.size a := fun v2181 k0_hw172 => k0_hw172

def k0_off173 (v2194 : BitVec 32) : Fin 2 → Nat :=
  let c0_i32_1779 : BitVec 32 := 0#32
  ![v2194.toNat, 0]

def k0_chk173 (v2194 : BitVec 32) : Prop :=
  (∀ a, (k0_off173 v2194) a + S1x128.size a ≤ S50000x128.size a)
instance k0_chk173.dec : ∀ (v2194 : BitVec 32), Decidable (k0_chk173 v2194) := fun v2194 => decidable_of_iff' _ (Iff.of_eq (k0_chk173.eq_1 v2194))
theorem k0_off173_inb : ∀ (v2194 : BitVec 32) (k0_hw173 : k0_chk173 v2194), ∀ a, (k0_off173 v2194) a + S1x128.size a ≤ S50000x128.size a := fun v2194 k0_hw173 => k0_hw173

def k0_off174 (v2207 : BitVec 32) : Fin 2 → Nat :=
  let c0_i32_1791 : BitVec 32 := 0#32
  ![v2207.toNat, 0]

def k0_chk174 (v2207 : BitVec 32) : Prop :=
  (∀ a, (k0_off174 v2207) a + S1x128.size a ≤ S50000x128.size a)
instance k0_chk174.dec : ∀ (v2207 : BitVec 32), Decidable (k0_chk174 v2207) := fun v2207 => decidable_of_iff' _ (Iff.of_eq (k0_chk174.eq_1 v2207))
theorem k0_off174_inb : ∀ (v2207 : BitVec 32) (k0_hw174 : k0_chk174 v2207), ∀ a, (k0_off174 v2207) a + S1x128.size a ≤ S50000x128.size a := fun v2207 k0_hw174 => k0_hw174

def k0_off175 (v2220 : BitVec 32) : Fin 2 → Nat :=
  let c0_i32_1803 : BitVec 32 := 0#32
  ![v2220.toNat, 0]

def k0_chk175 (v2220 : BitVec 32) : Prop :=
  (∀ a, (k0_off175 v2220) a + S1x128.size a ≤ S50000x128.size a)
instance k0_chk175.dec : ∀ (v2220 : BitVec 32), Decidable (k0_chk175 v2220) := fun v2220 => decidable_of_iff' _ (Iff.of_eq (k0_chk175.eq_1 v2220))
theorem k0_off175_inb : ∀ (v2220 : BitVec 32) (k0_hw175 : k0_chk175 v2220), ∀ a, (k0_off175 v2220) a + S1x128.size a ≤ S50000x128.size a := fun v2220 k0_hw175 => k0_hw175

def k0_off176 (v2233 : BitVec 32) : Fin 2 → Nat :=
  let c0_i32_1815 : BitVec 32 := 0#32
  ![v2233.toNat, 0]

def k0_chk176 (v2233 : BitVec 32) : Prop :=
  (∀ a, (k0_off176 v2233) a + S1x128.size a ≤ S50000x128.size a)
instance k0_chk176.dec : ∀ (v2233 : BitVec 32), Decidable (k0_chk176 v2233) := fun v2233 => decidable_of_iff' _ (Iff.of_eq (k0_chk176.eq_1 v2233))
theorem k0_off176_inb : ∀ (v2233 : BitVec 32) (k0_hw176 : k0_chk176 v2233), ∀ a, (k0_off176 v2233) a + S1x128.size a ≤ S50000x128.size a := fun v2233 k0_hw176 => k0_hw176

def k0_off177 (v2246 : BitVec 32) : Fin 2 → Nat :=
  let c0_i32_1827 : BitVec 32 := 0#32
  ![v2246.toNat, 0]

def k0_chk177 (v2246 : BitVec 32) : Prop :=
  (∀ a, (k0_off177 v2246) a + S1x128.size a ≤ S50000x128.size a)
instance k0_chk177.dec : ∀ (v2246 : BitVec 32), Decidable (k0_chk177 v2246) := fun v2246 => decidable_of_iff' _ (Iff.of_eq (k0_chk177.eq_1 v2246))
theorem k0_off177_inb : ∀ (v2246 : BitVec 32) (k0_hw177 : k0_chk177 v2246), ∀ a, (k0_off177 v2246) a + S1x128.size a ≤ S50000x128.size a := fun v2246 k0_hw177 => k0_hw177

def k0_off178 (v2259 : BitVec 32) : Fin 2 → Nat :=
  let c0_i32_1839 : BitVec 32 := 0#32
  ![v2259.toNat, 0]

def k0_chk178 (v2259 : BitVec 32) : Prop :=
  (∀ a, (k0_off178 v2259) a + S1x128.size a ≤ S50000x128.size a)
instance k0_chk178.dec : ∀ (v2259 : BitVec 32), Decidable (k0_chk178 v2259) := fun v2259 => decidable_of_iff' _ (Iff.of_eq (k0_chk178.eq_1 v2259))
theorem k0_off178_inb : ∀ (v2259 : BitVec 32) (k0_hw178 : k0_chk178 v2259), ∀ a, (k0_off178 v2259) a + S1x128.size a ≤ S50000x128.size a := fun v2259 k0_hw178 => k0_hw178

def k0_off179 (v2272 : BitVec 32) : Fin 2 → Nat :=
  let c0_i32_1851 : BitVec 32 := 0#32
  ![v2272.toNat, 0]

def k0_chk179 (v2272 : BitVec 32) : Prop :=
  (∀ a, (k0_off179 v2272) a + S1x128.size a ≤ S50000x128.size a)
instance k0_chk179.dec : ∀ (v2272 : BitVec 32), Decidable (k0_chk179 v2272) := fun v2272 => decidable_of_iff' _ (Iff.of_eq (k0_chk179.eq_1 v2272))
theorem k0_off179_inb : ∀ (v2272 : BitVec 32) (k0_hw179 : k0_chk179 v2272), ∀ a, (k0_off179 v2272) a + S1x128.size a ≤ S50000x128.size a := fun v2272 k0_hw179 => k0_hw179

def k0_off180 (v2285 : BitVec 32) : Fin 2 → Nat :=
  let c0_i32_1863 : BitVec 32 := 0#32
  ![v2285.toNat, 0]

def k0_chk180 (v2285 : BitVec 32) : Prop :=
  (∀ a, (k0_off180 v2285) a + S1x128.size a ≤ S50000x128.size a)
instance k0_chk180.dec : ∀ (v2285 : BitVec 32), Decidable (k0_chk180 v2285) := fun v2285 => decidable_of_iff' _ (Iff.of_eq (k0_chk180.eq_1 v2285))
theorem k0_off180_inb : ∀ (v2285 : BitVec 32) (k0_hw180 : k0_chk180 v2285), ∀ a, (k0_off180 v2285) a + S1x128.size a ≤ S50000x128.size a := fun v2285 k0_hw180 => k0_hw180

def k0_off181 (v2298 : BitVec 32) : Fin 2 → Nat :=
  let c0_i32_1875 : BitVec 32 := 0#32
  ![v2298.toNat, 0]

def k0_chk181 (v2298 : BitVec 32) : Prop :=
  (∀ a, (k0_off181 v2298) a + S1x128.size a ≤ S50000x128.size a)
instance k0_chk181.dec : ∀ (v2298 : BitVec 32), Decidable (k0_chk181 v2298) := fun v2298 => decidable_of_iff' _ (Iff.of_eq (k0_chk181.eq_1 v2298))
theorem k0_off181_inb : ∀ (v2298 : BitVec 32) (k0_hw181 : k0_chk181 v2298), ∀ a, (k0_off181 v2298) a + S1x128.size a ≤ S50000x128.size a := fun v2298 k0_hw181 => k0_hw181

def k0_off182 (v2311 : BitVec 32) : Fin 2 → Nat :=
  let c0_i32_1887 : BitVec 32 := 0#32
  ![v2311.toNat, 0]

def k0_chk182 (v2311 : BitVec 32) : Prop :=
  (∀ a, (k0_off182 v2311) a + S1x128.size a ≤ S50000x128.size a)
instance k0_chk182.dec : ∀ (v2311 : BitVec 32), Decidable (k0_chk182 v2311) := fun v2311 => decidable_of_iff' _ (Iff.of_eq (k0_chk182.eq_1 v2311))
theorem k0_off182_inb : ∀ (v2311 : BitVec 32) (k0_hw182 : k0_chk182 v2311), ∀ a, (k0_off182 v2311) a + S1x128.size a ≤ S50000x128.size a := fun v2311 k0_hw182 => k0_hw182

def k0_off183 (v2324 : BitVec 32) : Fin 2 → Nat :=
  let c0_i32_1899 : BitVec 32 := 0#32
  ![v2324.toNat, 0]

def k0_chk183 (v2324 : BitVec 32) : Prop :=
  (∀ a, (k0_off183 v2324) a + S1x128.size a ≤ S50000x128.size a)
instance k0_chk183.dec : ∀ (v2324 : BitVec 32), Decidable (k0_chk183 v2324) := fun v2324 => decidable_of_iff' _ (Iff.of_eq (k0_chk183.eq_1 v2324))
theorem k0_off183_inb : ∀ (v2324 : BitVec 32) (k0_hw183 : k0_chk183 v2324), ∀ a, (k0_off183 v2324) a + S1x128.size a ≤ S50000x128.size a := fun v2324 k0_hw183 => k0_hw183

def k0_off184 (v2337 : BitVec 32) : Fin 2 → Nat :=
  let c0_i32_1911 : BitVec 32 := 0#32
  ![v2337.toNat, 0]

def k0_chk184 (v2337 : BitVec 32) : Prop :=
  (∀ a, (k0_off184 v2337) a + S1x128.size a ≤ S50000x128.size a)
instance k0_chk184.dec : ∀ (v2337 : BitVec 32), Decidable (k0_chk184 v2337) := fun v2337 => decidable_of_iff' _ (Iff.of_eq (k0_chk184.eq_1 v2337))
theorem k0_off184_inb : ∀ (v2337 : BitVec 32) (k0_hw184 : k0_chk184 v2337), ∀ a, (k0_off184 v2337) a + S1x128.size a ≤ S50000x128.size a := fun v2337 k0_hw184 => k0_hw184

def k0_off185 (v2350 : BitVec 32) : Fin 2 → Nat :=
  let c0_i32_1923 : BitVec 32 := 0#32
  ![v2350.toNat, 0]

def k0_chk185 (v2350 : BitVec 32) : Prop :=
  (∀ a, (k0_off185 v2350) a + S1x128.size a ≤ S50000x128.size a)
instance k0_chk185.dec : ∀ (v2350 : BitVec 32), Decidable (k0_chk185 v2350) := fun v2350 => decidable_of_iff' _ (Iff.of_eq (k0_chk185.eq_1 v2350))
theorem k0_off185_inb : ∀ (v2350 : BitVec 32) (k0_hw185 : k0_chk185 v2350), ∀ a, (k0_off185 v2350) a + S1x128.size a ≤ S50000x128.size a := fun v2350 k0_hw185 => k0_hw185

def k0_off186 (v2363 : BitVec 32) : Fin 2 → Nat :=
  let c0_i32_1935 : BitVec 32 := 0#32
  ![v2363.toNat, 0]

def k0_chk186 (v2363 : BitVec 32) : Prop :=
  (∀ a, (k0_off186 v2363) a + S1x128.size a ≤ S50000x128.size a)
instance k0_chk186.dec : ∀ (v2363 : BitVec 32), Decidable (k0_chk186 v2363) := fun v2363 => decidable_of_iff' _ (Iff.of_eq (k0_chk186.eq_1 v2363))
theorem k0_off186_inb : ∀ (v2363 : BitVec 32) (k0_hw186 : k0_chk186 v2363), ∀ a, (k0_off186 v2363) a + S1x128.size a ≤ S50000x128.size a := fun v2363 k0_hw186 => k0_hw186

def k0_off187 (v2376 : BitVec 32) : Fin 2 → Nat :=
  let c0_i32_1947 : BitVec 32 := 0#32
  ![v2376.toNat, 0]

def k0_chk187 (v2376 : BitVec 32) : Prop :=
  (∀ a, (k0_off187 v2376) a + S1x128.size a ≤ S50000x128.size a)
instance k0_chk187.dec : ∀ (v2376 : BitVec 32), Decidable (k0_chk187 v2376) := fun v2376 => decidable_of_iff' _ (Iff.of_eq (k0_chk187.eq_1 v2376))
theorem k0_off187_inb : ∀ (v2376 : BitVec 32) (k0_hw187 : k0_chk187 v2376), ∀ a, (k0_off187 v2376) a + S1x128.size a ≤ S50000x128.size a := fun v2376 k0_hw187 => k0_hw187

def k0_off188 (v2389 : BitVec 32) : Fin 2 → Nat :=
  let c0_i32_1959 : BitVec 32 := 0#32
  ![v2389.toNat, 0]

def k0_chk188 (v2389 : BitVec 32) : Prop :=
  (∀ a, (k0_off188 v2389) a + S1x128.size a ≤ S50000x128.size a)
instance k0_chk188.dec : ∀ (v2389 : BitVec 32), Decidable (k0_chk188 v2389) := fun v2389 => decidable_of_iff' _ (Iff.of_eq (k0_chk188.eq_1 v2389))
theorem k0_off188_inb : ∀ (v2389 : BitVec 32) (k0_hw188 : k0_chk188 v2389), ∀ a, (k0_off188 v2389) a + S1x128.size a ≤ S50000x128.size a := fun v2389 k0_hw188 => k0_hw188

def k0_off189 (v2402 : BitVec 32) : Fin 2 → Nat :=
  let c0_i32_1971 : BitVec 32 := 0#32
  ![v2402.toNat, 0]

def k0_chk189 (v2402 : BitVec 32) : Prop :=
  (∀ a, (k0_off189 v2402) a + S1x128.size a ≤ S50000x128.size a)
instance k0_chk189.dec : ∀ (v2402 : BitVec 32), Decidable (k0_chk189 v2402) := fun v2402 => decidable_of_iff' _ (Iff.of_eq (k0_chk189.eq_1 v2402))
theorem k0_off189_inb : ∀ (v2402 : BitVec 32) (k0_hw189 : k0_chk189 v2402), ∀ a, (k0_off189 v2402) a + S1x128.size a ≤ S50000x128.size a := fun v2402 k0_hw189 => k0_hw189

def k0_off190 (v2415 : BitVec 32) : Fin 2 → Nat :=
  let c0_i32_1983 : BitVec 32 := 0#32
  ![v2415.toNat, 0]

def k0_chk190 (v2415 : BitVec 32) : Prop :=
  (∀ a, (k0_off190 v2415) a + S1x128.size a ≤ S50000x128.size a)
instance k0_chk190.dec : ∀ (v2415 : BitVec 32), Decidable (k0_chk190 v2415) := fun v2415 => decidable_of_iff' _ (Iff.of_eq (k0_chk190.eq_1 v2415))
theorem k0_off190_inb : ∀ (v2415 : BitVec 32) (k0_hw190 : k0_chk190 v2415), ∀ a, (k0_off190 v2415) a + S1x128.size a ≤ S50000x128.size a := fun v2415 k0_hw190 => k0_hw190

def k0_off191 (v2428 : BitVec 32) : Fin 2 → Nat :=
  let c0_i32_1995 : BitVec 32 := 0#32
  ![v2428.toNat, 0]

def k0_chk191 (v2428 : BitVec 32) : Prop :=
  (∀ a, (k0_off191 v2428) a + S1x128.size a ≤ S50000x128.size a)
instance k0_chk191.dec : ∀ (v2428 : BitVec 32), Decidable (k0_chk191 v2428) := fun v2428 => decidable_of_iff' _ (Iff.of_eq (k0_chk191.eq_1 v2428))
theorem k0_off191_inb : ∀ (v2428 : BitVec 32) (k0_hw191 : k0_chk191 v2428), ∀ a, (k0_off191 v2428) a + S1x128.size a ≤ S50000x128.size a := fun v2428 k0_hw191 => k0_hw191

def k0_off192 (v2441 : BitVec 32) : Fin 2 → Nat :=
  let c0_i32_2007 : BitVec 32 := 0#32
  ![v2441.toNat, 0]

def k0_chk192 (v2441 : BitVec 32) : Prop :=
  (∀ a, (k0_off192 v2441) a + S1x128.size a ≤ S50000x128.size a)
instance k0_chk192.dec : ∀ (v2441 : BitVec 32), Decidable (k0_chk192 v2441) := fun v2441 => decidable_of_iff' _ (Iff.of_eq (k0_chk192.eq_1 v2441))
theorem k0_off192_inb : ∀ (v2441 : BitVec 32) (k0_hw192 : k0_chk192 v2441), ∀ a, (k0_off192 v2441) a + S1x128.size a ≤ S50000x128.size a := fun v2441 k0_hw192 => k0_hw192

def k0_off193 (v2454 : BitVec 32) : Fin 2 → Nat :=
  let c0_i32_2019 : BitVec 32 := 0#32
  ![v2454.toNat, 0]

def k0_chk193 (v2454 : BitVec 32) : Prop :=
  (∀ a, (k0_off193 v2454) a + S1x128.size a ≤ S50000x128.size a)
instance k0_chk193.dec : ∀ (v2454 : BitVec 32), Decidable (k0_chk193 v2454) := fun v2454 => decidable_of_iff' _ (Iff.of_eq (k0_chk193.eq_1 v2454))
theorem k0_off193_inb : ∀ (v2454 : BitVec 32) (k0_hw193 : k0_chk193 v2454), ∀ a, (k0_off193 v2454) a + S1x128.size a ≤ S50000x128.size a := fun v2454 k0_hw193 => k0_hw193

def k0_off194 (v2467 : BitVec 32) : Fin 2 → Nat :=
  let c0_i32_2031 : BitVec 32 := 0#32
  ![v2467.toNat, 0]

def k0_chk194 (v2467 : BitVec 32) : Prop :=
  (∀ a, (k0_off194 v2467) a + S1x128.size a ≤ S50000x128.size a)
instance k0_chk194.dec : ∀ (v2467 : BitVec 32), Decidable (k0_chk194 v2467) := fun v2467 => decidable_of_iff' _ (Iff.of_eq (k0_chk194.eq_1 v2467))
theorem k0_off194_inb : ∀ (v2467 : BitVec 32) (k0_hw194 : k0_chk194 v2467), ∀ a, (k0_off194 v2467) a + S1x128.size a ≤ S50000x128.size a := fun v2467 k0_hw194 => k0_hw194

def k0_off195 (v2480 : BitVec 32) : Fin 2 → Nat :=
  let c0_i32_2043 : BitVec 32 := 0#32
  ![v2480.toNat, 0]

def k0_chk195 (v2480 : BitVec 32) : Prop :=
  (∀ a, (k0_off195 v2480) a + S1x128.size a ≤ S50000x128.size a)
instance k0_chk195.dec : ∀ (v2480 : BitVec 32), Decidable (k0_chk195 v2480) := fun v2480 => decidable_of_iff' _ (Iff.of_eq (k0_chk195.eq_1 v2480))
theorem k0_off195_inb : ∀ (v2480 : BitVec 32) (k0_hw195 : k0_chk195 v2480), ∀ a, (k0_off195 v2480) a + S1x128.size a ≤ S50000x128.size a := fun v2480 k0_hw195 => k0_hw195

def k0_off196 (v2493 : BitVec 32) : Fin 2 → Nat :=
  let c0_i32_2055 : BitVec 32 := 0#32
  ![v2493.toNat, 0]

def k0_chk196 (v2493 : BitVec 32) : Prop :=
  (∀ a, (k0_off196 v2493) a + S1x128.size a ≤ S50000x128.size a)
instance k0_chk196.dec : ∀ (v2493 : BitVec 32), Decidable (k0_chk196 v2493) := fun v2493 => decidable_of_iff' _ (Iff.of_eq (k0_chk196.eq_1 v2493))
theorem k0_off196_inb : ∀ (v2493 : BitVec 32) (k0_hw196 : k0_chk196 v2493), ∀ a, (k0_off196 v2493) a + S1x128.size a ≤ S50000x128.size a := fun v2493 k0_hw196 => k0_hw196

def k0_off197 (v2506 : BitVec 32) : Fin 2 → Nat :=
  let c0_i32_2067 : BitVec 32 := 0#32
  ![v2506.toNat, 0]

def k0_chk197 (v2506 : BitVec 32) : Prop :=
  (∀ a, (k0_off197 v2506) a + S1x128.size a ≤ S50000x128.size a)
instance k0_chk197.dec : ∀ (v2506 : BitVec 32), Decidable (k0_chk197 v2506) := fun v2506 => decidable_of_iff' _ (Iff.of_eq (k0_chk197.eq_1 v2506))
theorem k0_off197_inb : ∀ (v2506 : BitVec 32) (k0_hw197 : k0_chk197 v2506), ∀ a, (k0_off197 v2506) a + S1x128.size a ≤ S50000x128.size a := fun v2506 k0_hw197 => k0_hw197

def k0_off198 (v2519 : BitVec 32) : Fin 2 → Nat :=
  let c0_i32_2079 : BitVec 32 := 0#32
  ![v2519.toNat, 0]

def k0_chk198 (v2519 : BitVec 32) : Prop :=
  (∀ a, (k0_off198 v2519) a + S1x128.size a ≤ S50000x128.size a)
instance k0_chk198.dec : ∀ (v2519 : BitVec 32), Decidable (k0_chk198 v2519) := fun v2519 => decidable_of_iff' _ (Iff.of_eq (k0_chk198.eq_1 v2519))
theorem k0_off198_inb : ∀ (v2519 : BitVec 32) (k0_hw198 : k0_chk198 v2519), ∀ a, (k0_off198 v2519) a + S1x128.size a ≤ S50000x128.size a := fun v2519 k0_hw198 => k0_hw198

def k0_off199 (v2532 : BitVec 32) : Fin 2 → Nat :=
  let c0_i32_2091 : BitVec 32 := 0#32
  ![v2532.toNat, 0]

def k0_chk199 (v2532 : BitVec 32) : Prop :=
  (∀ a, (k0_off199 v2532) a + S1x128.size a ≤ S50000x128.size a)
instance k0_chk199.dec : ∀ (v2532 : BitVec 32), Decidable (k0_chk199 v2532) := fun v2532 => decidable_of_iff' _ (Iff.of_eq (k0_chk199.eq_1 v2532))
theorem k0_off199_inb : ∀ (v2532 : BitVec 32) (k0_hw199 : k0_chk199 v2532), ∀ a, (k0_off199 v2532) a + S1x128.size a ≤ S50000x128.size a := fun v2532 k0_hw199 => k0_hw199

def k0_off200 (v2545 : BitVec 32) : Fin 2 → Nat :=
  let c0_i32_2103 : BitVec 32 := 0#32
  ![v2545.toNat, 0]

def k0_chk200 (v2545 : BitVec 32) : Prop :=
  (∀ a, (k0_off200 v2545) a + S1x128.size a ≤ S50000x128.size a)
instance k0_chk200.dec : ∀ (v2545 : BitVec 32), Decidable (k0_chk200 v2545) := fun v2545 => decidable_of_iff' _ (Iff.of_eq (k0_chk200.eq_1 v2545))
theorem k0_off200_inb : ∀ (v2545 : BitVec 32) (k0_hw200 : k0_chk200 v2545), ∀ a, (k0_off200 v2545) a + S1x128.size a ≤ S50000x128.size a := fun v2545 k0_hw200 => k0_hw200

def k0_off201 (v2558 : BitVec 32) : Fin 2 → Nat :=
  let c0_i32_2115 : BitVec 32 := 0#32
  ![v2558.toNat, 0]

def k0_chk201 (v2558 : BitVec 32) : Prop :=
  (∀ a, (k0_off201 v2558) a + S1x128.size a ≤ S50000x128.size a)
instance k0_chk201.dec : ∀ (v2558 : BitVec 32), Decidable (k0_chk201 v2558) := fun v2558 => decidable_of_iff' _ (Iff.of_eq (k0_chk201.eq_1 v2558))
theorem k0_off201_inb : ∀ (v2558 : BitVec 32) (k0_hw201 : k0_chk201 v2558), ∀ a, (k0_off201 v2558) a + S1x128.size a ≤ S50000x128.size a := fun v2558 k0_hw201 => k0_hw201

def k0_off202 (v2571 : BitVec 32) : Fin 2 → Nat :=
  let c0_i32_2127 : BitVec 32 := 0#32
  ![v2571.toNat, 0]

def k0_chk202 (v2571 : BitVec 32) : Prop :=
  (∀ a, (k0_off202 v2571) a + S1x128.size a ≤ S50000x128.size a)
instance k0_chk202.dec : ∀ (v2571 : BitVec 32), Decidable (k0_chk202 v2571) := fun v2571 => decidable_of_iff' _ (Iff.of_eq (k0_chk202.eq_1 v2571))
theorem k0_off202_inb : ∀ (v2571 : BitVec 32) (k0_hw202 : k0_chk202 v2571), ∀ a, (k0_off202 v2571) a + S1x128.size a ≤ S50000x128.size a := fun v2571 k0_hw202 => k0_hw202

def k0_off203 (v2584 : BitVec 32) : Fin 2 → Nat :=
  let c0_i32_2139 : BitVec 32 := 0#32
  ![v2584.toNat, 0]

def k0_chk203 (v2584 : BitVec 32) : Prop :=
  (∀ a, (k0_off203 v2584) a + S1x128.size a ≤ S50000x128.size a)
instance k0_chk203.dec : ∀ (v2584 : BitVec 32), Decidable (k0_chk203 v2584) := fun v2584 => decidable_of_iff' _ (Iff.of_eq (k0_chk203.eq_1 v2584))
theorem k0_off203_inb : ∀ (v2584 : BitVec 32) (k0_hw203 : k0_chk203 v2584), ∀ a, (k0_off203 v2584) a + S1x128.size a ≤ S50000x128.size a := fun v2584 k0_hw203 => k0_hw203

def k0_off204 (v2597 : BitVec 32) : Fin 2 → Nat :=
  let c0_i32_2151 : BitVec 32 := 0#32
  ![v2597.toNat, 0]

def k0_chk204 (v2597 : BitVec 32) : Prop :=
  (∀ a, (k0_off204 v2597) a + S1x128.size a ≤ S50000x128.size a)
instance k0_chk204.dec : ∀ (v2597 : BitVec 32), Decidable (k0_chk204 v2597) := fun v2597 => decidable_of_iff' _ (Iff.of_eq (k0_chk204.eq_1 v2597))
theorem k0_off204_inb : ∀ (v2597 : BitVec 32) (k0_hw204 : k0_chk204 v2597), ∀ a, (k0_off204 v2597) a + S1x128.size a ≤ S50000x128.size a := fun v2597 k0_hw204 => k0_hw204

def k0_off205 (v2610 : BitVec 32) : Fin 2 → Nat :=
  let c0_i32_2163 : BitVec 32 := 0#32
  ![v2610.toNat, 0]

def k0_chk205 (v2610 : BitVec 32) : Prop :=
  (∀ a, (k0_off205 v2610) a + S1x128.size a ≤ S50000x128.size a)
instance k0_chk205.dec : ∀ (v2610 : BitVec 32), Decidable (k0_chk205 v2610) := fun v2610 => decidable_of_iff' _ (Iff.of_eq (k0_chk205.eq_1 v2610))
theorem k0_off205_inb : ∀ (v2610 : BitVec 32) (k0_hw205 : k0_chk205 v2610), ∀ a, (k0_off205 v2610) a + S1x128.size a ≤ S50000x128.size a := fun v2610 k0_hw205 => k0_hw205

def k0_off206 (v2623 : BitVec 32) : Fin 2 → Nat :=
  let c0_i32_2175 : BitVec 32 := 0#32
  ![v2623.toNat, 0]

def k0_chk206 (v2623 : BitVec 32) : Prop :=
  (∀ a, (k0_off206 v2623) a + S1x128.size a ≤ S50000x128.size a)
instance k0_chk206.dec : ∀ (v2623 : BitVec 32), Decidable (k0_chk206 v2623) := fun v2623 => decidable_of_iff' _ (Iff.of_eq (k0_chk206.eq_1 v2623))
theorem k0_off206_inb : ∀ (v2623 : BitVec 32) (k0_hw206 : k0_chk206 v2623), ∀ a, (k0_off206 v2623) a + S1x128.size a ≤ S50000x128.size a := fun v2623 k0_hw206 => k0_hw206

def k0_off207 (v2636 : BitVec 32) : Fin 2 → Nat :=
  let c0_i32_2187 : BitVec 32 := 0#32
  ![v2636.toNat, 0]

def k0_chk207 (v2636 : BitVec 32) : Prop :=
  (∀ a, (k0_off207 v2636) a + S1x128.size a ≤ S50000x128.size a)
instance k0_chk207.dec : ∀ (v2636 : BitVec 32), Decidable (k0_chk207 v2636) := fun v2636 => decidable_of_iff' _ (Iff.of_eq (k0_chk207.eq_1 v2636))
theorem k0_off207_inb : ∀ (v2636 : BitVec 32) (k0_hw207 : k0_chk207 v2636), ∀ a, (k0_off207 v2636) a + S1x128.size a ≤ S50000x128.size a := fun v2636 k0_hw207 => k0_hw207

def k0_off208 (v2649 : BitVec 32) : Fin 2 → Nat :=
  let c0_i32_2199 : BitVec 32 := 0#32
  ![v2649.toNat, 0]

def k0_chk208 (v2649 : BitVec 32) : Prop :=
  (∀ a, (k0_off208 v2649) a + S1x128.size a ≤ S50000x128.size a)
instance k0_chk208.dec : ∀ (v2649 : BitVec 32), Decidable (k0_chk208 v2649) := fun v2649 => decidable_of_iff' _ (Iff.of_eq (k0_chk208.eq_1 v2649))
theorem k0_off208_inb : ∀ (v2649 : BitVec 32) (k0_hw208 : k0_chk208 v2649), ∀ a, (k0_off208 v2649) a + S1x128.size a ≤ S50000x128.size a := fun v2649 k0_hw208 => k0_hw208

def k0_off209 (v2662 : BitVec 32) : Fin 2 → Nat :=
  let c0_i32_2211 : BitVec 32 := 0#32
  ![v2662.toNat, 0]

def k0_chk209 (v2662 : BitVec 32) : Prop :=
  (∀ a, (k0_off209 v2662) a + S1x128.size a ≤ S50000x128.size a)
instance k0_chk209.dec : ∀ (v2662 : BitVec 32), Decidable (k0_chk209 v2662) := fun v2662 => decidable_of_iff' _ (Iff.of_eq (k0_chk209.eq_1 v2662))
theorem k0_off209_inb : ∀ (v2662 : BitVec 32) (k0_hw209 : k0_chk209 v2662), ∀ a, (k0_off209 v2662) a + S1x128.size a ≤ S50000x128.size a := fun v2662 k0_hw209 => k0_hw209

def k0_off210 (v2675 : BitVec 32) : Fin 2 → Nat :=
  let c0_i32_2223 : BitVec 32 := 0#32
  ![v2675.toNat, 0]

def k0_chk210 (v2675 : BitVec 32) : Prop :=
  (∀ a, (k0_off210 v2675) a + S1x128.size a ≤ S50000x128.size a)
instance k0_chk210.dec : ∀ (v2675 : BitVec 32), Decidable (k0_chk210 v2675) := fun v2675 => decidable_of_iff' _ (Iff.of_eq (k0_chk210.eq_1 v2675))
theorem k0_off210_inb : ∀ (v2675 : BitVec 32) (k0_hw210 : k0_chk210 v2675), ∀ a, (k0_off210 v2675) a + S1x128.size a ≤ S50000x128.size a := fun v2675 k0_hw210 => k0_hw210

def k0_off211 (v2688 : BitVec 32) : Fin 2 → Nat :=
  let c0_i32_2235 : BitVec 32 := 0#32
  ![v2688.toNat, 0]

def k0_chk211 (v2688 : BitVec 32) : Prop :=
  (∀ a, (k0_off211 v2688) a + S1x128.size a ≤ S50000x128.size a)
instance k0_chk211.dec : ∀ (v2688 : BitVec 32), Decidable (k0_chk211 v2688) := fun v2688 => decidable_of_iff' _ (Iff.of_eq (k0_chk211.eq_1 v2688))
theorem k0_off211_inb : ∀ (v2688 : BitVec 32) (k0_hw211 : k0_chk211 v2688), ∀ a, (k0_off211 v2688) a + S1x128.size a ≤ S50000x128.size a := fun v2688 k0_hw211 => k0_hw211

def k0_off212 (v2701 : BitVec 32) : Fin 2 → Nat :=
  let c0_i32_2247 : BitVec 32 := 0#32
  ![v2701.toNat, 0]

def k0_chk212 (v2701 : BitVec 32) : Prop :=
  (∀ a, (k0_off212 v2701) a + S1x128.size a ≤ S50000x128.size a)
instance k0_chk212.dec : ∀ (v2701 : BitVec 32), Decidable (k0_chk212 v2701) := fun v2701 => decidable_of_iff' _ (Iff.of_eq (k0_chk212.eq_1 v2701))
theorem k0_off212_inb : ∀ (v2701 : BitVec 32) (k0_hw212 : k0_chk212 v2701), ∀ a, (k0_off212 v2701) a + S1x128.size a ≤ S50000x128.size a := fun v2701 k0_hw212 => k0_hw212

def k0_off213 (v2714 : BitVec 32) : Fin 2 → Nat :=
  let c0_i32_2259 : BitVec 32 := 0#32
  ![v2714.toNat, 0]

def k0_chk213 (v2714 : BitVec 32) : Prop :=
  (∀ a, (k0_off213 v2714) a + S1x128.size a ≤ S50000x128.size a)
instance k0_chk213.dec : ∀ (v2714 : BitVec 32), Decidable (k0_chk213 v2714) := fun v2714 => decidable_of_iff' _ (Iff.of_eq (k0_chk213.eq_1 v2714))
theorem k0_off213_inb : ∀ (v2714 : BitVec 32) (k0_hw213 : k0_chk213 v2714), ∀ a, (k0_off213 v2714) a + S1x128.size a ≤ S50000x128.size a := fun v2714 k0_hw213 => k0_hw213

def k0_off214 (v2727 : BitVec 32) : Fin 2 → Nat :=
  let c0_i32_2271 : BitVec 32 := 0#32
  ![v2727.toNat, 0]

def k0_chk214 (v2727 : BitVec 32) : Prop :=
  (∀ a, (k0_off214 v2727) a + S1x128.size a ≤ S50000x128.size a)
instance k0_chk214.dec : ∀ (v2727 : BitVec 32), Decidable (k0_chk214 v2727) := fun v2727 => decidable_of_iff' _ (Iff.of_eq (k0_chk214.eq_1 v2727))
theorem k0_off214_inb : ∀ (v2727 : BitVec 32) (k0_hw214 : k0_chk214 v2727), ∀ a, (k0_off214 v2727) a + S1x128.size a ≤ S50000x128.size a := fun v2727 k0_hw214 => k0_hw214

def k0_off215 (v2740 : BitVec 32) : Fin 2 → Nat :=
  let c0_i32_2283 : BitVec 32 := 0#32
  ![v2740.toNat, 0]

def k0_chk215 (v2740 : BitVec 32) : Prop :=
  (∀ a, (k0_off215 v2740) a + S1x128.size a ≤ S50000x128.size a)
instance k0_chk215.dec : ∀ (v2740 : BitVec 32), Decidable (k0_chk215 v2740) := fun v2740 => decidable_of_iff' _ (Iff.of_eq (k0_chk215.eq_1 v2740))
theorem k0_off215_inb : ∀ (v2740 : BitVec 32) (k0_hw215 : k0_chk215 v2740), ∀ a, (k0_off215 v2740) a + S1x128.size a ≤ S50000x128.size a := fun v2740 k0_hw215 => k0_hw215

def k0_off216 (v2753 : BitVec 32) : Fin 2 → Nat :=
  let c0_i32_2295 : BitVec 32 := 0#32
  ![v2753.toNat, 0]

def k0_chk216 (v2753 : BitVec 32) : Prop :=
  (∀ a, (k0_off216 v2753) a + S1x128.size a ≤ S50000x128.size a)
instance k0_chk216.dec : ∀ (v2753 : BitVec 32), Decidable (k0_chk216 v2753) := fun v2753 => decidable_of_iff' _ (Iff.of_eq (k0_chk216.eq_1 v2753))
theorem k0_off216_inb : ∀ (v2753 : BitVec 32) (k0_hw216 : k0_chk216 v2753), ∀ a, (k0_off216 v2753) a + S1x128.size a ≤ S50000x128.size a := fun v2753 k0_hw216 => k0_hw216

def k0_off217 (v2766 : BitVec 32) : Fin 2 → Nat :=
  let c0_i32_2307 : BitVec 32 := 0#32
  ![v2766.toNat, 0]

def k0_chk217 (v2766 : BitVec 32) : Prop :=
  (∀ a, (k0_off217 v2766) a + S1x128.size a ≤ S50000x128.size a)
instance k0_chk217.dec : ∀ (v2766 : BitVec 32), Decidable (k0_chk217 v2766) := fun v2766 => decidable_of_iff' _ (Iff.of_eq (k0_chk217.eq_1 v2766))
theorem k0_off217_inb : ∀ (v2766 : BitVec 32) (k0_hw217 : k0_chk217 v2766), ∀ a, (k0_off217 v2766) a + S1x128.size a ≤ S50000x128.size a := fun v2766 k0_hw217 => k0_hw217

def k0_off218 (v2779 : BitVec 32) : Fin 2 → Nat :=
  let c0_i32_2319 : BitVec 32 := 0#32
  ![v2779.toNat, 0]

def k0_chk218 (v2779 : BitVec 32) : Prop :=
  (∀ a, (k0_off218 v2779) a + S1x128.size a ≤ S50000x128.size a)
instance k0_chk218.dec : ∀ (v2779 : BitVec 32), Decidable (k0_chk218 v2779) := fun v2779 => decidable_of_iff' _ (Iff.of_eq (k0_chk218.eq_1 v2779))
theorem k0_off218_inb : ∀ (v2779 : BitVec 32) (k0_hw218 : k0_chk218 v2779), ∀ a, (k0_off218 v2779) a + S1x128.size a ≤ S50000x128.size a := fun v2779 k0_hw218 => k0_hw218

def k0_off219 (v2792 : BitVec 32) : Fin 2 → Nat :=
  let c0_i32_2331 : BitVec 32 := 0#32
  ![v2792.toNat, 0]

def k0_chk219 (v2792 : BitVec 32) : Prop :=
  (∀ a, (k0_off219 v2792) a + S1x128.size a ≤ S50000x128.size a)
instance k0_chk219.dec : ∀ (v2792 : BitVec 32), Decidable (k0_chk219 v2792) := fun v2792 => decidable_of_iff' _ (Iff.of_eq (k0_chk219.eq_1 v2792))
theorem k0_off219_inb : ∀ (v2792 : BitVec 32) (k0_hw219 : k0_chk219 v2792), ∀ a, (k0_off219 v2792) a + S1x128.size a ≤ S50000x128.size a := fun v2792 k0_hw219 => k0_hw219

def k0_off220 (v2805 : BitVec 32) : Fin 2 → Nat :=
  let c0_i32_2343 : BitVec 32 := 0#32
  ![v2805.toNat, 0]

def k0_chk220 (v2805 : BitVec 32) : Prop :=
  (∀ a, (k0_off220 v2805) a + S1x128.size a ≤ S50000x128.size a)
instance k0_chk220.dec : ∀ (v2805 : BitVec 32), Decidable (k0_chk220 v2805) := fun v2805 => decidable_of_iff' _ (Iff.of_eq (k0_chk220.eq_1 v2805))
theorem k0_off220_inb : ∀ (v2805 : BitVec 32) (k0_hw220 : k0_chk220 v2805), ∀ a, (k0_off220 v2805) a + S1x128.size a ≤ S50000x128.size a := fun v2805 k0_hw220 => k0_hw220

def k0_off221 (v2818 : BitVec 32) : Fin 2 → Nat :=
  let c0_i32_2355 : BitVec 32 := 0#32
  ![v2818.toNat, 0]

def k0_chk221 (v2818 : BitVec 32) : Prop :=
  (∀ a, (k0_off221 v2818) a + S1x128.size a ≤ S50000x128.size a)
instance k0_chk221.dec : ∀ (v2818 : BitVec 32), Decidable (k0_chk221 v2818) := fun v2818 => decidable_of_iff' _ (Iff.of_eq (k0_chk221.eq_1 v2818))
theorem k0_off221_inb : ∀ (v2818 : BitVec 32) (k0_hw221 : k0_chk221 v2818), ∀ a, (k0_off221 v2818) a + S1x128.size a ≤ S50000x128.size a := fun v2818 k0_hw221 => k0_hw221

def k0_off222 (v2831 : BitVec 32) : Fin 2 → Nat :=
  let c0_i32_2367 : BitVec 32 := 0#32
  ![v2831.toNat, 0]

def k0_chk222 (v2831 : BitVec 32) : Prop :=
  (∀ a, (k0_off222 v2831) a + S1x128.size a ≤ S50000x128.size a)
instance k0_chk222.dec : ∀ (v2831 : BitVec 32), Decidable (k0_chk222 v2831) := fun v2831 => decidable_of_iff' _ (Iff.of_eq (k0_chk222.eq_1 v2831))
theorem k0_off222_inb : ∀ (v2831 : BitVec 32) (k0_hw222 : k0_chk222 v2831), ∀ a, (k0_off222 v2831) a + S1x128.size a ≤ S50000x128.size a := fun v2831 k0_hw222 => k0_hw222

def k0_off223 (v2844 : BitVec 32) : Fin 2 → Nat :=
  let c0_i32_2379 : BitVec 32 := 0#32
  ![v2844.toNat, 0]

def k0_chk223 (v2844 : BitVec 32) : Prop :=
  (∀ a, (k0_off223 v2844) a + S1x128.size a ≤ S50000x128.size a)
instance k0_chk223.dec : ∀ (v2844 : BitVec 32), Decidable (k0_chk223 v2844) := fun v2844 => decidable_of_iff' _ (Iff.of_eq (k0_chk223.eq_1 v2844))
theorem k0_off223_inb : ∀ (v2844 : BitVec 32) (k0_hw223 : k0_chk223 v2844), ∀ a, (k0_off223 v2844) a + S1x128.size a ≤ S50000x128.size a := fun v2844 k0_hw223 => k0_hw223

def k0_off224 (v2857 : BitVec 32) : Fin 2 → Nat :=
  let c0_i32_2391 : BitVec 32 := 0#32
  ![v2857.toNat, 0]

def k0_chk224 (v2857 : BitVec 32) : Prop :=
  (∀ a, (k0_off224 v2857) a + S1x128.size a ≤ S50000x128.size a)
instance k0_chk224.dec : ∀ (v2857 : BitVec 32), Decidable (k0_chk224 v2857) := fun v2857 => decidable_of_iff' _ (Iff.of_eq (k0_chk224.eq_1 v2857))
theorem k0_off224_inb : ∀ (v2857 : BitVec 32) (k0_hw224 : k0_chk224 v2857), ∀ a, (k0_off224 v2857) a + S1x128.size a ≤ S50000x128.size a := fun v2857 k0_hw224 => k0_hw224

def k0_off225 (v2870 : BitVec 32) : Fin 2 → Nat :=
  let c0_i32_2403 : BitVec 32 := 0#32
  ![v2870.toNat, 0]

def k0_chk225 (v2870 : BitVec 32) : Prop :=
  (∀ a, (k0_off225 v2870) a + S1x128.size a ≤ S50000x128.size a)
instance k0_chk225.dec : ∀ (v2870 : BitVec 32), Decidable (k0_chk225 v2870) := fun v2870 => decidable_of_iff' _ (Iff.of_eq (k0_chk225.eq_1 v2870))
theorem k0_off225_inb : ∀ (v2870 : BitVec 32) (k0_hw225 : k0_chk225 v2870), ∀ a, (k0_off225 v2870) a + S1x128.size a ≤ S50000x128.size a := fun v2870 k0_hw225 => k0_hw225

def k0_off226 (v2883 : BitVec 32) : Fin 2 → Nat :=
  let c0_i32_2415 : BitVec 32 := 0#32
  ![v2883.toNat, 0]

def k0_chk226 (v2883 : BitVec 32) : Prop :=
  (∀ a, (k0_off226 v2883) a + S1x128.size a ≤ S50000x128.size a)
instance k0_chk226.dec : ∀ (v2883 : BitVec 32), Decidable (k0_chk226 v2883) := fun v2883 => decidable_of_iff' _ (Iff.of_eq (k0_chk226.eq_1 v2883))
theorem k0_off226_inb : ∀ (v2883 : BitVec 32) (k0_hw226 : k0_chk226 v2883), ∀ a, (k0_off226 v2883) a + S1x128.size a ≤ S50000x128.size a := fun v2883 k0_hw226 => k0_hw226

def k0_off227 (v2896 : BitVec 32) : Fin 2 → Nat :=
  let c0_i32_2427 : BitVec 32 := 0#32
  ![v2896.toNat, 0]

def k0_chk227 (v2896 : BitVec 32) : Prop :=
  (∀ a, (k0_off227 v2896) a + S1x128.size a ≤ S50000x128.size a)
instance k0_chk227.dec : ∀ (v2896 : BitVec 32), Decidable (k0_chk227 v2896) := fun v2896 => decidable_of_iff' _ (Iff.of_eq (k0_chk227.eq_1 v2896))
theorem k0_off227_inb : ∀ (v2896 : BitVec 32) (k0_hw227 : k0_chk227 v2896), ∀ a, (k0_off227 v2896) a + S1x128.size a ≤ S50000x128.size a := fun v2896 k0_hw227 => k0_hw227

def k0_off228 (v2909 : BitVec 32) : Fin 2 → Nat :=
  let c0_i32_2439 : BitVec 32 := 0#32
  ![v2909.toNat, 0]

def k0_chk228 (v2909 : BitVec 32) : Prop :=
  (∀ a, (k0_off228 v2909) a + S1x128.size a ≤ S50000x128.size a)
instance k0_chk228.dec : ∀ (v2909 : BitVec 32), Decidable (k0_chk228 v2909) := fun v2909 => decidable_of_iff' _ (Iff.of_eq (k0_chk228.eq_1 v2909))
theorem k0_off228_inb : ∀ (v2909 : BitVec 32) (k0_hw228 : k0_chk228 v2909), ∀ a, (k0_off228 v2909) a + S1x128.size a ≤ S50000x128.size a := fun v2909 k0_hw228 => k0_hw228

def k0_off229 (v2922 : BitVec 32) : Fin 2 → Nat :=
  let c0_i32_2451 : BitVec 32 := 0#32
  ![v2922.toNat, 0]

def k0_chk229 (v2922 : BitVec 32) : Prop :=
  (∀ a, (k0_off229 v2922) a + S1x128.size a ≤ S50000x128.size a)
instance k0_chk229.dec : ∀ (v2922 : BitVec 32), Decidable (k0_chk229 v2922) := fun v2922 => decidable_of_iff' _ (Iff.of_eq (k0_chk229.eq_1 v2922))
theorem k0_off229_inb : ∀ (v2922 : BitVec 32) (k0_hw229 : k0_chk229 v2922), ∀ a, (k0_off229 v2922) a + S1x128.size a ≤ S50000x128.size a := fun v2922 k0_hw229 => k0_hw229

def k0_off230 (v2935 : BitVec 32) : Fin 2 → Nat :=
  let c0_i32_2463 : BitVec 32 := 0#32
  ![v2935.toNat, 0]

def k0_chk230 (v2935 : BitVec 32) : Prop :=
  (∀ a, (k0_off230 v2935) a + S1x128.size a ≤ S50000x128.size a)
instance k0_chk230.dec : ∀ (v2935 : BitVec 32), Decidable (k0_chk230 v2935) := fun v2935 => decidable_of_iff' _ (Iff.of_eq (k0_chk230.eq_1 v2935))
theorem k0_off230_inb : ∀ (v2935 : BitVec 32) (k0_hw230 : k0_chk230 v2935), ∀ a, (k0_off230 v2935) a + S1x128.size a ≤ S50000x128.size a := fun v2935 k0_hw230 => k0_hw230

def k0_off231 (v2948 : BitVec 32) : Fin 2 → Nat :=
  let c0_i32_2475 : BitVec 32 := 0#32
  ![v2948.toNat, 0]

def k0_chk231 (v2948 : BitVec 32) : Prop :=
  (∀ a, (k0_off231 v2948) a + S1x128.size a ≤ S50000x128.size a)
instance k0_chk231.dec : ∀ (v2948 : BitVec 32), Decidable (k0_chk231 v2948) := fun v2948 => decidable_of_iff' _ (Iff.of_eq (k0_chk231.eq_1 v2948))
theorem k0_off231_inb : ∀ (v2948 : BitVec 32) (k0_hw231 : k0_chk231 v2948), ∀ a, (k0_off231 v2948) a + S1x128.size a ≤ S50000x128.size a := fun v2948 k0_hw231 => k0_hw231

def k0_off232 (v2961 : BitVec 32) : Fin 2 → Nat :=
  let c0_i32_2487 : BitVec 32 := 0#32
  ![v2961.toNat, 0]

def k0_chk232 (v2961 : BitVec 32) : Prop :=
  (∀ a, (k0_off232 v2961) a + S1x128.size a ≤ S50000x128.size a)
instance k0_chk232.dec : ∀ (v2961 : BitVec 32), Decidable (k0_chk232 v2961) := fun v2961 => decidable_of_iff' _ (Iff.of_eq (k0_chk232.eq_1 v2961))
theorem k0_off232_inb : ∀ (v2961 : BitVec 32) (k0_hw232 : k0_chk232 v2961), ∀ a, (k0_off232 v2961) a + S1x128.size a ≤ S50000x128.size a := fun v2961 k0_hw232 => k0_hw232

def k0_off233 (v2974 : BitVec 32) : Fin 2 → Nat :=
  let c0_i32_2499 : BitVec 32 := 0#32
  ![v2974.toNat, 0]

def k0_chk233 (v2974 : BitVec 32) : Prop :=
  (∀ a, (k0_off233 v2974) a + S1x128.size a ≤ S50000x128.size a)
instance k0_chk233.dec : ∀ (v2974 : BitVec 32), Decidable (k0_chk233 v2974) := fun v2974 => decidable_of_iff' _ (Iff.of_eq (k0_chk233.eq_1 v2974))
theorem k0_off233_inb : ∀ (v2974 : BitVec 32) (k0_hw233 : k0_chk233 v2974), ∀ a, (k0_off233 v2974) a + S1x128.size a ≤ S50000x128.size a := fun v2974 k0_hw233 => k0_hw233

def k0_off234 (v2987 : BitVec 32) : Fin 2 → Nat :=
  let c0_i32_2511 : BitVec 32 := 0#32
  ![v2987.toNat, 0]

def k0_chk234 (v2987 : BitVec 32) : Prop :=
  (∀ a, (k0_off234 v2987) a + S1x128.size a ≤ S50000x128.size a)
instance k0_chk234.dec : ∀ (v2987 : BitVec 32), Decidable (k0_chk234 v2987) := fun v2987 => decidable_of_iff' _ (Iff.of_eq (k0_chk234.eq_1 v2987))
theorem k0_off234_inb : ∀ (v2987 : BitVec 32) (k0_hw234 : k0_chk234 v2987), ∀ a, (k0_off234 v2987) a + S1x128.size a ≤ S50000x128.size a := fun v2987 k0_hw234 => k0_hw234

def k0_off235 (v3000 : BitVec 32) : Fin 2 → Nat :=
  let c0_i32_2523 : BitVec 32 := 0#32
  ![v3000.toNat, 0]

def k0_chk235 (v3000 : BitVec 32) : Prop :=
  (∀ a, (k0_off235 v3000) a + S1x128.size a ≤ S50000x128.size a)
instance k0_chk235.dec : ∀ (v3000 : BitVec 32), Decidable (k0_chk235 v3000) := fun v3000 => decidable_of_iff' _ (Iff.of_eq (k0_chk235.eq_1 v3000))
theorem k0_off235_inb : ∀ (v3000 : BitVec 32) (k0_hw235 : k0_chk235 v3000), ∀ a, (k0_off235 v3000) a + S1x128.size a ≤ S50000x128.size a := fun v3000 k0_hw235 => k0_hw235

def k0_off236 (v3013 : BitVec 32) : Fin 2 → Nat :=
  let c0_i32_2535 : BitVec 32 := 0#32
  ![v3013.toNat, 0]

def k0_chk236 (v3013 : BitVec 32) : Prop :=
  (∀ a, (k0_off236 v3013) a + S1x128.size a ≤ S50000x128.size a)
instance k0_chk236.dec : ∀ (v3013 : BitVec 32), Decidable (k0_chk236 v3013) := fun v3013 => decidable_of_iff' _ (Iff.of_eq (k0_chk236.eq_1 v3013))
theorem k0_off236_inb : ∀ (v3013 : BitVec 32) (k0_hw236 : k0_chk236 v3013), ∀ a, (k0_off236 v3013) a + S1x128.size a ≤ S50000x128.size a := fun v3013 k0_hw236 => k0_hw236

def k0_off237 (v3026 : BitVec 32) : Fin 2 → Nat :=
  let c0_i32_2547 : BitVec 32 := 0#32
  ![v3026.toNat, 0]

def k0_chk237 (v3026 : BitVec 32) : Prop :=
  (∀ a, (k0_off237 v3026) a + S1x128.size a ≤ S50000x128.size a)
instance k0_chk237.dec : ∀ (v3026 : BitVec 32), Decidable (k0_chk237 v3026) := fun v3026 => decidable_of_iff' _ (Iff.of_eq (k0_chk237.eq_1 v3026))
theorem k0_off237_inb : ∀ (v3026 : BitVec 32) (k0_hw237 : k0_chk237 v3026), ∀ a, (k0_off237 v3026) a + S1x128.size a ≤ S50000x128.size a := fun v3026 k0_hw237 => k0_hw237

def k0_off238 (v3039 : BitVec 32) : Fin 2 → Nat :=
  let c0_i32_2559 : BitVec 32 := 0#32
  ![v3039.toNat, 0]

def k0_chk238 (v3039 : BitVec 32) : Prop :=
  (∀ a, (k0_off238 v3039) a + S1x128.size a ≤ S50000x128.size a)
instance k0_chk238.dec : ∀ (v3039 : BitVec 32), Decidable (k0_chk238 v3039) := fun v3039 => decidable_of_iff' _ (Iff.of_eq (k0_chk238.eq_1 v3039))
theorem k0_off238_inb : ∀ (v3039 : BitVec 32) (k0_hw238 : k0_chk238 v3039), ∀ a, (k0_off238 v3039) a + S1x128.size a ≤ S50000x128.size a := fun v3039 k0_hw238 => k0_hw238

def k0_off239 (v3052 : BitVec 32) : Fin 2 → Nat :=
  let c0_i32_2571 : BitVec 32 := 0#32
  ![v3052.toNat, 0]

def k0_chk239 (v3052 : BitVec 32) : Prop :=
  (∀ a, (k0_off239 v3052) a + S1x128.size a ≤ S50000x128.size a)
instance k0_chk239.dec : ∀ (v3052 : BitVec 32), Decidable (k0_chk239 v3052) := fun v3052 => decidable_of_iff' _ (Iff.of_eq (k0_chk239.eq_1 v3052))
theorem k0_off239_inb : ∀ (v3052 : BitVec 32) (k0_hw239 : k0_chk239 v3052), ∀ a, (k0_off239 v3052) a + S1x128.size a ≤ S50000x128.size a := fun v3052 k0_hw239 => k0_hw239

def k0_off240 (v3065 : BitVec 32) : Fin 2 → Nat :=
  let c0_i32_2583 : BitVec 32 := 0#32
  ![v3065.toNat, 0]

def k0_chk240 (v3065 : BitVec 32) : Prop :=
  (∀ a, (k0_off240 v3065) a + S1x128.size a ≤ S50000x128.size a)
instance k0_chk240.dec : ∀ (v3065 : BitVec 32), Decidable (k0_chk240 v3065) := fun v3065 => decidable_of_iff' _ (Iff.of_eq (k0_chk240.eq_1 v3065))
theorem k0_off240_inb : ∀ (v3065 : BitVec 32) (k0_hw240 : k0_chk240 v3065), ∀ a, (k0_off240 v3065) a + S1x128.size a ≤ S50000x128.size a := fun v3065 k0_hw240 => k0_hw240

def k0_off241 (v3078 : BitVec 32) : Fin 2 → Nat :=
  let c0_i32_2595 : BitVec 32 := 0#32
  ![v3078.toNat, 0]

def k0_chk241 (v3078 : BitVec 32) : Prop :=
  (∀ a, (k0_off241 v3078) a + S1x128.size a ≤ S50000x128.size a)
instance k0_chk241.dec : ∀ (v3078 : BitVec 32), Decidable (k0_chk241 v3078) := fun v3078 => decidable_of_iff' _ (Iff.of_eq (k0_chk241.eq_1 v3078))
theorem k0_off241_inb : ∀ (v3078 : BitVec 32) (k0_hw241 : k0_chk241 v3078), ∀ a, (k0_off241 v3078) a + S1x128.size a ≤ S50000x128.size a := fun v3078 k0_hw241 => k0_hw241

def k0_off242 (v3091 : BitVec 32) : Fin 2 → Nat :=
  let c0_i32_2607 : BitVec 32 := 0#32
  ![v3091.toNat, 0]

def k0_chk242 (v3091 : BitVec 32) : Prop :=
  (∀ a, (k0_off242 v3091) a + S1x128.size a ≤ S50000x128.size a)
instance k0_chk242.dec : ∀ (v3091 : BitVec 32), Decidable (k0_chk242 v3091) := fun v3091 => decidable_of_iff' _ (Iff.of_eq (k0_chk242.eq_1 v3091))
theorem k0_off242_inb : ∀ (v3091 : BitVec 32) (k0_hw242 : k0_chk242 v3091), ∀ a, (k0_off242 v3091) a + S1x128.size a ≤ S50000x128.size a := fun v3091 k0_hw242 => k0_hw242

def k0_off243 (v3104 : BitVec 32) : Fin 2 → Nat :=
  let c0_i32_2619 : BitVec 32 := 0#32
  ![v3104.toNat, 0]

def k0_chk243 (v3104 : BitVec 32) : Prop :=
  (∀ a, (k0_off243 v3104) a + S1x128.size a ≤ S50000x128.size a)
instance k0_chk243.dec : ∀ (v3104 : BitVec 32), Decidable (k0_chk243 v3104) := fun v3104 => decidable_of_iff' _ (Iff.of_eq (k0_chk243.eq_1 v3104))
theorem k0_off243_inb : ∀ (v3104 : BitVec 32) (k0_hw243 : k0_chk243 v3104), ∀ a, (k0_off243 v3104) a + S1x128.size a ≤ S50000x128.size a := fun v3104 k0_hw243 => k0_hw243

def k0_off244 (v3117 : BitVec 32) : Fin 2 → Nat :=
  let c0_i32_2631 : BitVec 32 := 0#32
  ![v3117.toNat, 0]

def k0_chk244 (v3117 : BitVec 32) : Prop :=
  (∀ a, (k0_off244 v3117) a + S1x128.size a ≤ S50000x128.size a)
instance k0_chk244.dec : ∀ (v3117 : BitVec 32), Decidable (k0_chk244 v3117) := fun v3117 => decidable_of_iff' _ (Iff.of_eq (k0_chk244.eq_1 v3117))
theorem k0_off244_inb : ∀ (v3117 : BitVec 32) (k0_hw244 : k0_chk244 v3117), ∀ a, (k0_off244 v3117) a + S1x128.size a ≤ S50000x128.size a := fun v3117 k0_hw244 => k0_hw244

def k0_off245 (v3130 : BitVec 32) : Fin 2 → Nat :=
  let c0_i32_2643 : BitVec 32 := 0#32
  ![v3130.toNat, 0]

def k0_chk245 (v3130 : BitVec 32) : Prop :=
  (∀ a, (k0_off245 v3130) a + S1x128.size a ≤ S50000x128.size a)
instance k0_chk245.dec : ∀ (v3130 : BitVec 32), Decidable (k0_chk245 v3130) := fun v3130 => decidable_of_iff' _ (Iff.of_eq (k0_chk245.eq_1 v3130))
theorem k0_off245_inb : ∀ (v3130 : BitVec 32) (k0_hw245 : k0_chk245 v3130), ∀ a, (k0_off245 v3130) a + S1x128.size a ≤ S50000x128.size a := fun v3130 k0_hw245 => k0_hw245

def k0_off246 (v3143 : BitVec 32) : Fin 2 → Nat :=
  let c0_i32_2655 : BitVec 32 := 0#32
  ![v3143.toNat, 0]

def k0_chk246 (v3143 : BitVec 32) : Prop :=
  (∀ a, (k0_off246 v3143) a + S1x128.size a ≤ S50000x128.size a)
instance k0_chk246.dec : ∀ (v3143 : BitVec 32), Decidable (k0_chk246 v3143) := fun v3143 => decidable_of_iff' _ (Iff.of_eq (k0_chk246.eq_1 v3143))
theorem k0_off246_inb : ∀ (v3143 : BitVec 32) (k0_hw246 : k0_chk246 v3143), ∀ a, (k0_off246 v3143) a + S1x128.size a ≤ S50000x128.size a := fun v3143 k0_hw246 => k0_hw246

def k0_off247 (v3156 : BitVec 32) : Fin 2 → Nat :=
  let c0_i32_2667 : BitVec 32 := 0#32
  ![v3156.toNat, 0]

def k0_chk247 (v3156 : BitVec 32) : Prop :=
  (∀ a, (k0_off247 v3156) a + S1x128.size a ≤ S50000x128.size a)
instance k0_chk247.dec : ∀ (v3156 : BitVec 32), Decidable (k0_chk247 v3156) := fun v3156 => decidable_of_iff' _ (Iff.of_eq (k0_chk247.eq_1 v3156))
theorem k0_off247_inb : ∀ (v3156 : BitVec 32) (k0_hw247 : k0_chk247 v3156), ∀ a, (k0_off247 v3156) a + S1x128.size a ≤ S50000x128.size a := fun v3156 k0_hw247 => k0_hw247

def k0_off248 (v3169 : BitVec 32) : Fin 2 → Nat :=
  let c0_i32_2679 : BitVec 32 := 0#32
  ![v3169.toNat, 0]

def k0_chk248 (v3169 : BitVec 32) : Prop :=
  (∀ a, (k0_off248 v3169) a + S1x128.size a ≤ S50000x128.size a)
instance k0_chk248.dec : ∀ (v3169 : BitVec 32), Decidable (k0_chk248 v3169) := fun v3169 => decidable_of_iff' _ (Iff.of_eq (k0_chk248.eq_1 v3169))
theorem k0_off248_inb : ∀ (v3169 : BitVec 32) (k0_hw248 : k0_chk248 v3169), ∀ a, (k0_off248 v3169) a + S1x128.size a ≤ S50000x128.size a := fun v3169 k0_hw248 => k0_hw248

def k0_off249 (v3182 : BitVec 32) : Fin 2 → Nat :=
  let c0_i32_2691 : BitVec 32 := 0#32
  ![v3182.toNat, 0]

def k0_chk249 (v3182 : BitVec 32) : Prop :=
  (∀ a, (k0_off249 v3182) a + S1x128.size a ≤ S50000x128.size a)
instance k0_chk249.dec : ∀ (v3182 : BitVec 32), Decidable (k0_chk249 v3182) := fun v3182 => decidable_of_iff' _ (Iff.of_eq (k0_chk249.eq_1 v3182))
theorem k0_off249_inb : ∀ (v3182 : BitVec 32) (k0_hw249 : k0_chk249 v3182), ∀ a, (k0_off249 v3182) a + S1x128.size a ≤ S50000x128.size a := fun v3182 k0_hw249 => k0_hw249

def k0_off250 (v3195 : BitVec 32) : Fin 2 → Nat :=
  let c0_i32_2703 : BitVec 32 := 0#32
  ![v3195.toNat, 0]

def k0_chk250 (v3195 : BitVec 32) : Prop :=
  (∀ a, (k0_off250 v3195) a + S1x128.size a ≤ S50000x128.size a)
instance k0_chk250.dec : ∀ (v3195 : BitVec 32), Decidable (k0_chk250 v3195) := fun v3195 => decidable_of_iff' _ (Iff.of_eq (k0_chk250.eq_1 v3195))
theorem k0_off250_inb : ∀ (v3195 : BitVec 32) (k0_hw250 : k0_chk250 v3195), ∀ a, (k0_off250 v3195) a + S1x128.size a ≤ S50000x128.size a := fun v3195 k0_hw250 => k0_hw250

def k0_off251 (v3208 : BitVec 32) : Fin 2 → Nat :=
  let c0_i32_2715 : BitVec 32 := 0#32
  ![v3208.toNat, 0]

def k0_chk251 (v3208 : BitVec 32) : Prop :=
  (∀ a, (k0_off251 v3208) a + S1x128.size a ≤ S50000x128.size a)
instance k0_chk251.dec : ∀ (v3208 : BitVec 32), Decidable (k0_chk251 v3208) := fun v3208 => decidable_of_iff' _ (Iff.of_eq (k0_chk251.eq_1 v3208))
theorem k0_off251_inb : ∀ (v3208 : BitVec 32) (k0_hw251 : k0_chk251 v3208), ∀ a, (k0_off251 v3208) a + S1x128.size a ≤ S50000x128.size a := fun v3208 k0_hw251 => k0_hw251

def k0_off252 (v3221 : BitVec 32) : Fin 2 → Nat :=
  let c0_i32_2727 : BitVec 32 := 0#32
  ![v3221.toNat, 0]

def k0_chk252 (v3221 : BitVec 32) : Prop :=
  (∀ a, (k0_off252 v3221) a + S1x128.size a ≤ S50000x128.size a)
instance k0_chk252.dec : ∀ (v3221 : BitVec 32), Decidable (k0_chk252 v3221) := fun v3221 => decidable_of_iff' _ (Iff.of_eq (k0_chk252.eq_1 v3221))
theorem k0_off252_inb : ∀ (v3221 : BitVec 32) (k0_hw252 : k0_chk252 v3221), ∀ a, (k0_off252 v3221) a + S1x128.size a ≤ S50000x128.size a := fun v3221 k0_hw252 => k0_hw252

def k0_off253 (v3234 : BitVec 32) : Fin 2 → Nat :=
  let c0_i32_2739 : BitVec 32 := 0#32
  ![v3234.toNat, 0]

def k0_chk253 (v3234 : BitVec 32) : Prop :=
  (∀ a, (k0_off253 v3234) a + S1x128.size a ≤ S50000x128.size a)
instance k0_chk253.dec : ∀ (v3234 : BitVec 32), Decidable (k0_chk253 v3234) := fun v3234 => decidable_of_iff' _ (Iff.of_eq (k0_chk253.eq_1 v3234))
theorem k0_off253_inb : ∀ (v3234 : BitVec 32) (k0_hw253 : k0_chk253 v3234), ∀ a, (k0_off253 v3234) a + S1x128.size a ≤ S50000x128.size a := fun v3234 k0_hw253 => k0_hw253

def k0_off254 (v3247 : BitVec 32) : Fin 2 → Nat :=
  let c0_i32_2751 : BitVec 32 := 0#32
  ![v3247.toNat, 0]

def k0_chk254 (v3247 : BitVec 32) : Prop :=
  (∀ a, (k0_off254 v3247) a + S1x128.size a ≤ S50000x128.size a)
instance k0_chk254.dec : ∀ (v3247 : BitVec 32), Decidable (k0_chk254 v3247) := fun v3247 => decidable_of_iff' _ (Iff.of_eq (k0_chk254.eq_1 v3247))
theorem k0_off254_inb : ∀ (v3247 : BitVec 32) (k0_hw254 : k0_chk254 v3247), ∀ a, (k0_off254 v3247) a + S1x128.size a ≤ S50000x128.size a := fun v3247 k0_hw254 => k0_hw254

def k0_off255 (v3260 : BitVec 32) : Fin 2 → Nat :=
  let c0_i32_2763 : BitVec 32 := 0#32
  ![v3260.toNat, 0]

def k0_chk255 (v3260 : BitVec 32) : Prop :=
  (∀ a, (k0_off255 v3260) a + S1x128.size a ≤ S50000x128.size a)
instance k0_chk255.dec : ∀ (v3260 : BitVec 32), Decidable (k0_chk255 v3260) := fun v3260 => decidable_of_iff' _ (Iff.of_eq (k0_chk255.eq_1 v3260))
theorem k0_off255_inb : ∀ (v3260 : BitVec 32) (k0_hw255 : k0_chk255 v3260), ∀ a, (k0_off255 v3260) a + S1x128.size a ≤ S50000x128.size a := fun v3260 k0_hw255 => k0_hw255

def k0_off256 (v3273 : BitVec 32) : Fin 2 → Nat :=
  let c0_i32_2775 : BitVec 32 := 0#32
  ![v3273.toNat, 0]

def k0_chk256 (v3273 : BitVec 32) : Prop :=
  (∀ a, (k0_off256 v3273) a + S1x128.size a ≤ S50000x128.size a)
instance k0_chk256.dec : ∀ (v3273 : BitVec 32), Decidable (k0_chk256 v3273) := fun v3273 => decidable_of_iff' _ (Iff.of_eq (k0_chk256.eq_1 v3273))
theorem k0_off256_inb : ∀ (v3273 : BitVec 32) (k0_hw256 : k0_chk256 v3273), ∀ a, (k0_off256 v3273) a + S1x128.size a ≤ S50000x128.size a := fun v3273 k0_hw256 => k0_hw256

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64 : S_.BroadcastsInDim S64 (![] : Fin 0 → Fin S64.rank)
  concatenates_S600000_S64_S600064_d0 : Shape.Concatenates [S600000, S64] S600064 0
  shapeCasts_S600064_S4688x1x128 : S600064.ShapeCasts S4688x1x128
  shapeCasts_S2_S1x2 : S2.ShapeCasts S1x2
  inb_S1x1x128_S1x1x1_0_0_0 : ∀ a, (![0, 0, 0] : Fin 3 → Nat) a + S1x1x1.size a ≤ S1x1x128.size a
  numel1_S1x1x1 : S1x1x1.numel = 1
  inb_S8_S1_0 : ∀ a, (![0] : Fin 1 → Nat) a + S1.size a ≤ S8.size a
  squeezes_S1_S_ : S1.Squeezes S_
  inb_S128x128_S1x128_0_0 : ∀ a, (![0, 0] : Fin 2 → Nat) a + S1x128.size a ≤ S128x128.size a
  squeezes_S1x128_S128 : S1x128.Squeezes S128
  inb_S1x1x128_S1x1x1_0_0_1 : ∀ a, (![0, 0, 1] : Fin 3 → Nat) a + S1x1x1.size a ≤ S1x1x128.size a
  inb_S8_S1_1 : ∀ a, (![1] : Fin 1 → Nat) a + S1.size a ≤ S8.size a
  inb_S128x128_S1x128_1_0 : ∀ a, (![1, 0] : Fin 2 → Nat) a + S1x128.size a ≤ S128x128.size a
  inb_S1x1x128_S1x1x1_0_0_2 : ∀ a, (![0, 0, 2] : Fin 3 → Nat) a + S1x1x1.size a ≤ S1x1x128.size a
  inb_S8_S1_2 : ∀ a, (![2] : Fin 1 → Nat) a + S1.size a ≤ S8.size a
  inb_S128x128_S1x128_2_0 : ∀ a, (![2, 0] : Fin 2 → Nat) a + S1x128.size a ≤ S128x128.size a
  inb_S1x1x128_S1x1x1_0_0_3 : ∀ a, (![0, 0, 3] : Fin 3 → Nat) a + S1x1x1.size a ≤ S1x1x128.size a
  inb_S8_S1_3 : ∀ a, (![3] : Fin 1 → Nat) a + S1.size a ≤ S8.size a
  inb_S128x128_S1x128_3_0 : ∀ a, (![3, 0] : Fin 2 → Nat) a + S1x128.size a ≤ S128x128.size a
  inb_S1x1x128_S1x1x1_0_0_4 : ∀ a, (![0, 0, 4] : Fin 3 → Nat) a + S1x1x1.size a ≤ S1x1x128.size a
  inb_S8_S1_4 : ∀ a, (![4] : Fin 1 → Nat) a + S1.size a ≤ S8.size a
  inb_S128x128_S1x128_4_0 : ∀ a, (![4, 0] : Fin 2 → Nat) a + S1x128.size a ≤ S128x128.size a
  inb_S1x1x128_S1x1x1_0_0_5 : ∀ a, (![0, 0, 5] : Fin 3 → Nat) a + S1x1x1.size a ≤ S1x1x128.size a
  inb_S8_S1_5 : ∀ a, (![5] : Fin 1 → Nat) a + S1.size a ≤ S8.size a
  inb_S128x128_S1x128_5_0 : ∀ a, (![5, 0] : Fin 2 → Nat) a + S1x128.size a ≤ S128x128.size a
  inb_S1x1x128_S1x1x1_0_0_6 : ∀ a, (![0, 0, 6] : Fin 3 → Nat) a + S1x1x1.size a ≤ S1x1x128.size a
  inb_S8_S1_6 : ∀ a, (![6] : Fin 1 → Nat) a + S1.size a ≤ S8.size a
  inb_S128x128_S1x128_6_0 : ∀ a, (![6, 0] : Fin 2 → Nat) a + S1x128.size a ≤ S128x128.size a
  inb_S1x1x128_S1x1x1_0_0_7 : ∀ a, (![0, 0, 7] : Fin 3 → Nat) a + S1x1x1.size a ≤ S1x1x128.size a
  inb_S8_S1_7 : ∀ a, (![7] : Fin 1 → Nat) a + S1.size a ≤ S8.size a
  inb_S128x128_S1x128_7_0 : ∀ a, (![7, 0] : Fin 2 → Nat) a + S1x128.size a ≤ S128x128.size a
  inb_S50000x128_S1x128_0_0 : ∀ a, (![0, 0] : Fin 2 → Nat) a + S1x128.size a ≤ S50000x128.size a
  inb_S1x1x128_S1x1x1_0_0_8 : ∀ a, (![0, 0, 8] : Fin 3 → Nat) a + S1x1x1.size a ≤ S1x1x128.size a
  inb_S128x128_S1x128_8_0 : ∀ a, (![8, 0] : Fin 2 → Nat) a + S1x128.size a ≤ S128x128.size a
  inb_S1x1x128_S1x1x1_0_0_9 : ∀ a, (![0, 0, 9] : Fin 3 → Nat) a + S1x1x1.size a ≤ S1x1x128.size a
  inb_S128x128_S1x128_9_0 : ∀ a, (![9, 0] : Fin 2 → Nat) a + S1x128.size a ≤ S128x128.size a
  inb_S1x1x128_S1x1x1_0_0_10 : ∀ a, (![0, 0, 10] : Fin 3 → Nat) a + S1x1x1.size a ≤ S1x1x128.size a
  inb_S128x128_S1x128_10_0 : ∀ a, (![10, 0] : Fin 2 → Nat) a + S1x128.size a ≤ S128x128.size a
  inb_S1x1x128_S1x1x1_0_0_11 : ∀ a, (![0, 0, 11] : Fin 3 → Nat) a + S1x1x1.size a ≤ S1x1x128.size a
  inb_S128x128_S1x128_11_0 : ∀ a, (![11, 0] : Fin 2 → Nat) a + S1x128.size a ≤ S128x128.size a
  inb_S1x1x128_S1x1x1_0_0_12 : ∀ a, (![0, 0, 12] : Fin 3 → Nat) a + S1x1x1.size a ≤ S1x1x128.size a
  inb_S128x128_S1x128_12_0 : ∀ a, (![12, 0] : Fin 2 → Nat) a + S1x128.size a ≤ S128x128.size a
  inb_S1x1x128_S1x1x1_0_0_13 : ∀ a, (![0, 0, 13] : Fin 3 → Nat) a + S1x1x1.size a ≤ S1x1x128.size a
  inb_S128x128_S1x128_13_0 : ∀ a, (![13, 0] : Fin 2 → Nat) a + S1x128.size a ≤ S128x128.size a
  inb_S1x1x128_S1x1x1_0_0_14 : ∀ a, (![0, 0, 14] : Fin 3 → Nat) a + S1x1x1.size a ≤ S1x1x128.size a
  inb_S128x128_S1x128_14_0 : ∀ a, (![14, 0] : Fin 2 → Nat) a + S1x128.size a ≤ S128x128.size a
  inb_S1x1x128_S1x1x1_0_0_15 : ∀ a, (![0, 0, 15] : Fin 3 → Nat) a + S1x1x1.size a ≤ S1x1x128.size a
  inb_S128x128_S1x128_15_0 : ∀ a, (![15, 0] : Fin 2 → Nat) a + S1x128.size a ≤ S128x128.size a
  inb_S1x1x128_S1x1x1_0_0_16 : ∀ a, (![0, 0, 16] : Fin 3 → Nat) a + S1x1x1.size a ≤ S1x1x128.size a
  inb_S128x128_S1x128_16_0 : ∀ a, (![16, 0] : Fin 2 → Nat) a + S1x128.size a ≤ S128x128.size a
  inb_S1x1x128_S1x1x1_0_0_17 : ∀ a, (![0, 0, 17] : Fin 3 → Nat) a + S1x1x1.size a ≤ S1x1x128.size a
  inb_S128x128_S1x128_17_0 : ∀ a, (![17, 0] : Fin 2 → Nat) a + S1x128.size a ≤ S128x128.size a
  inb_S1x1x128_S1x1x1_0_0_18 : ∀ a, (![0, 0, 18] : Fin 3 → Nat) a + S1x1x1.size a ≤ S1x1x128.size a
  inb_S128x128_S1x128_18_0 : ∀ a, (![18, 0] : Fin 2 → Nat) a + S1x128.size a ≤ S128x128.size a
  inb_S1x1x128_S1x1x1_0_0_19 : ∀ a, (![0, 0, 19] : Fin 3 → Nat) a + S1x1x1.size a ≤ S1x1x128.size a
  inb_S128x128_S1x128_19_0 : ∀ a, (![19, 0] : Fin 2 → Nat) a + S1x128.size a ≤ S128x128.size a
  inb_S1x1x128_S1x1x1_0_0_20 : ∀ a, (![0, 0, 20] : Fin 3 → Nat) a + S1x1x1.size a ≤ S1x1x128.size a
  inb_S128x128_S1x128_20_0 : ∀ a, (![20, 0] : Fin 2 → Nat) a + S1x128.size a ≤ S128x128.size a
  inb_S1x1x128_S1x1x1_0_0_21 : ∀ a, (![0, 0, 21] : Fin 3 → Nat) a + S1x1x1.size a ≤ S1x1x128.size a
  inb_S128x128_S1x128_21_0 : ∀ a, (![21, 0] : Fin 2 → Nat) a + S1x128.size a ≤ S128x128.size a
  inb_S1x1x128_S1x1x1_0_0_22 : ∀ a, (![0, 0, 22] : Fin 3 → Nat) a + S1x1x1.size a ≤ S1x1x128.size a
  inb_S128x128_S1x128_22_0 : ∀ a, (![22, 0] : Fin 2 → Nat) a + S1x128.size a ≤ S128x128.size a
  inb_S1x1x128_S1x1x1_0_0_23 : ∀ a, (![0, 0, 23] : Fin 3 → Nat) a + S1x1x1.size a ≤ S1x1x128.size a
  inb_S128x128_S1x128_23_0 : ∀ a, (![23, 0] : Fin 2 → Nat) a + S1x128.size a ≤ S128x128.size a
  inb_S1x1x128_S1x1x1_0_0_24 : ∀ a, (![0, 0, 24] : Fin 3 → Nat) a + S1x1x1.size a ≤ S1x1x128.size a
  inb_S128x128_S1x128_24_0 : ∀ a, (![24, 0] : Fin 2 → Nat) a + S1x128.size a ≤ S128x128.size a
  inb_S1x1x128_S1x1x1_0_0_25 : ∀ a, (![0, 0, 25] : Fin 3 → Nat) a + S1x1x1.size a ≤ S1x1x128.size a
  inb_S128x128_S1x128_25_0 : ∀ a, (![25, 0] : Fin 2 → Nat) a + S1x128.size a ≤ S128x128.size a
  inb_S1x1x128_S1x1x1_0_0_26 : ∀ a, (![0, 0, 26] : Fin 3 → Nat) a + S1x1x1.size a ≤ S1x1x128.size a
  inb_S128x128_S1x128_26_0 : ∀ a, (![26, 0] : Fin 2 → Nat) a + S1x128.size a ≤ S128x128.size a
  inb_S1x1x128_S1x1x1_0_0_27 : ∀ a, (![0, 0, 27] : Fin 3 → Nat) a + S1x1x1.size a ≤ S1x1x128.size a
  inb_S128x128_S1x128_27_0 : ∀ a, (![27, 0] : Fin 2 → Nat) a + S1x128.size a ≤ S128x128.size a
  inb_S1x1x128_S1x1x1_0_0_28 : ∀ a, (![0, 0, 28] : Fin 3 → Nat) a + S1x1x1.size a ≤ S1x1x128.size a
  inb_S128x128_S1x128_28_0 : ∀ a, (![28, 0] : Fin 2 → Nat) a + S1x128.size a ≤ S128x128.size a
  inb_S1x1x128_S1x1x1_0_0_29 : ∀ a, (![0, 0, 29] : Fin 3 → Nat) a + S1x1x1.size a ≤ S1x1x128.size a
  inb_S128x128_S1x128_29_0 : ∀ a, (![29, 0] : Fin 2 → Nat) a + S1x128.size a ≤ S128x128.size a
  inb_S1x1x128_S1x1x1_0_0_30 : ∀ a, (![0, 0, 30] : Fin 3 → Nat) a + S1x1x1.size a ≤ S1x1x128.size a
  inb_S128x128_S1x128_30_0 : ∀ a, (![30, 0] : Fin 2 → Nat) a + S1x128.size a ≤ S128x128.size a
  inb_S1x1x128_S1x1x1_0_0_31 : ∀ a, (![0, 0, 31] : Fin 3 → Nat) a + S1x1x1.size a ≤ S1x1x128.size a
  inb_S128x128_S1x128_31_0 : ∀ a, (![31, 0] : Fin 2 → Nat) a + S1x128.size a ≤ S128x128.size a
  inb_S1x1x128_S1x1x1_0_0_32 : ∀ a, (![0, 0, 32] : Fin 3 → Nat) a + S1x1x1.size a ≤ S1x1x128.size a
  inb_S128x128_S1x128_32_0 : ∀ a, (![32, 0] : Fin 2 → Nat) a + S1x128.size a ≤ S128x128.size a
  inb_S1x1x128_S1x1x1_0_0_33 : ∀ a, (![0, 0, 33] : Fin 3 → Nat) a + S1x1x1.size a ≤ S1x1x128.size a
  inb_S128x128_S1x128_33_0 : ∀ a, (![33, 0] : Fin 2 → Nat) a + S1x128.size a ≤ S128x128.size a
  inb_S1x1x128_S1x1x1_0_0_34 : ∀ a, (![0, 0, 34] : Fin 3 → Nat) a + S1x1x1.size a ≤ S1x1x128.size a
  inb_S128x128_S1x128_34_0 : ∀ a, (![34, 0] : Fin 2 → Nat) a + S1x128.size a ≤ S128x128.size a
  inb_S1x1x128_S1x1x1_0_0_35 : ∀ a, (![0, 0, 35] : Fin 3 → Nat) a + S1x1x1.size a ≤ S1x1x128.size a
  inb_S128x128_S1x128_35_0 : ∀ a, (![35, 0] : Fin 2 → Nat) a + S1x128.size a ≤ S128x128.size a
  inb_S1x1x128_S1x1x1_0_0_36 : ∀ a, (![0, 0, 36] : Fin 3 → Nat) a + S1x1x1.size a ≤ S1x1x128.size a
  inb_S128x128_S1x128_36_0 : ∀ a, (![36, 0] : Fin 2 → Nat) a + S1x128.size a ≤ S128x128.size a
  inb_S1x1x128_S1x1x1_0_0_37 : ∀ a, (![0, 0, 37] : Fin 3 → Nat) a + S1x1x1.size a ≤ S1x1x128.size a
  inb_S128x128_S1x128_37_0 : ∀ a, (![37, 0] : Fin 2 → Nat) a + S1x128.size a ≤ S128x128.size a
  inb_S1x1x128_S1x1x1_0_0_38 : ∀ a, (![0, 0, 38] : Fin 3 → Nat) a + S1x1x1.size a ≤ S1x1x128.size a
  inb_S128x128_S1x128_38_0 : ∀ a, (![38, 0] : Fin 2 → Nat) a + S1x128.size a ≤ S128x128.size a
  inb_S1x1x128_S1x1x1_0_0_39 : ∀ a, (![0, 0, 39] : Fin 3 → Nat) a + S1x1x1.size a ≤ S1x1x128.size a
  inb_S128x128_S1x128_39_0 : ∀ a, (![39, 0] : Fin 2 → Nat) a + S1x128.size a ≤ S128x128.size a
  inb_S1x1x128_S1x1x1_0_0_40 : ∀ a, (![0, 0, 40] : Fin 3 → Nat) a + S1x1x1.size a ≤ S1x1x128.size a
  inb_S128x128_S1x128_40_0 : ∀ a, (![40, 0] : Fin 2 → Nat) a + S1x128.size a ≤ S128x128.size a
  inb_S1x1x128_S1x1x1_0_0_41 : ∀ a, (![0, 0, 41] : Fin 3 → Nat) a + S1x1x1.size a ≤ S1x1x128.size a
  inb_S128x128_S1x128_41_0 : ∀ a, (![41, 0] : Fin 2 → Nat) a + S1x128.size a ≤ S128x128.size a
  inb_S1x1x128_S1x1x1_0_0_42 : ∀ a, (![0, 0, 42] : Fin 3 → Nat) a + S1x1x1.size a ≤ S1x1x128.size a
  inb_S128x128_S1x128_42_0 : ∀ a, (![42, 0] : Fin 2 → Nat) a + S1x128.size a ≤ S128x128.size a
  inb_S1x1x128_S1x1x1_0_0_43 : ∀ a, (![0, 0, 43] : Fin 3 → Nat) a + S1x1x1.size a ≤ S1x1x128.size a
  inb_S128x128_S1x128_43_0 : ∀ a, (![43, 0] : Fin 2 → Nat) a + S1x128.size a ≤ S128x128.size a
  inb_S1x1x128_S1x1x1_0_0_44 : ∀ a, (![0, 0, 44] : Fin 3 → Nat) a + S1x1x1.size a ≤ S1x1x128.size a
  inb_S128x128_S1x128_44_0 : ∀ a, (![44, 0] : Fin 2 → Nat) a + S1x128.size a ≤ S128x128.size a
  inb_S1x1x128_S1x1x1_0_0_45 : ∀ a, (![0, 0, 45] : Fin 3 → Nat) a + S1x1x1.size a ≤ S1x1x128.size a
  inb_S128x128_S1x128_45_0 : ∀ a, (![45, 0] : Fin 2 → Nat) a + S1x128.size a ≤ S128x128.size a
  inb_S1x1x128_S1x1x1_0_0_46 : ∀ a, (![0, 0, 46] : Fin 3 → Nat) a + S1x1x1.size a ≤ S1x1x128.size a
  inb_S128x128_S1x128_46_0 : ∀ a, (![46, 0] : Fin 2 → Nat) a + S1x128.size a ≤ S128x128.size a
  inb_S1x1x128_S1x1x1_0_0_47 : ∀ a, (![0, 0, 47] : Fin 3 → Nat) a + S1x1x1.size a ≤ S1x1x128.size a
  inb_S128x128_S1x128_47_0 : ∀ a, (![47, 0] : Fin 2 → Nat) a + S1x128.size a ≤ S128x128.size a
  inb_S1x1x128_S1x1x1_0_0_48 : ∀ a, (![0, 0, 48] : Fin 3 → Nat) a + S1x1x1.size a ≤ S1x1x128.size a
  inb_S128x128_S1x128_48_0 : ∀ a, (![48, 0] : Fin 2 → Nat) a + S1x128.size a ≤ S128x128.size a
  inb_S1x1x128_S1x1x1_0_0_49 : ∀ a, (![0, 0, 49] : Fin 3 → Nat) a + S1x1x1.size a ≤ S1x1x128.size a
  inb_S128x128_S1x128_49_0 : ∀ a, (![49, 0] : Fin 2 → Nat) a + S1x128.size a ≤ S128x128.size a
  inb_S1x1x128_S1x1x1_0_0_50 : ∀ a, (![0, 0, 50] : Fin 3 → Nat) a + S1x1x1.size a ≤ S1x1x128.size a
  inb_S128x128_S1x128_50_0 : ∀ a, (![50, 0] : Fin 2 → Nat) a + S1x128.size a ≤ S128x128.size a
  inb_S1x1x128_S1x1x1_0_0_51 : ∀ a, (![0, 0, 51] : Fin 3 → Nat) a + S1x1x1.size a ≤ S1x1x128.size a
  inb_S128x128_S1x128_51_0 : ∀ a, (![51, 0] : Fin 2 → Nat) a + S1x128.size a ≤ S128x128.size a
  inb_S1x1x128_S1x1x1_0_0_52 : ∀ a, (![0, 0, 52] : Fin 3 → Nat) a + S1x1x1.size a ≤ S1x1x128.size a
  inb_S128x128_S1x128_52_0 : ∀ a, (![52, 0] : Fin 2 → Nat) a + S1x128.size a ≤ S128x128.size a
  inb_S1x1x128_S1x1x1_0_0_53 : ∀ a, (![0, 0, 53] : Fin 3 → Nat) a + S1x1x1.size a ≤ S1x1x128.size a
  inb_S128x128_S1x128_53_0 : ∀ a, (![53, 0] : Fin 2 → Nat) a + S1x128.size a ≤ S128x128.size a
  inb_S1x1x128_S1x1x1_0_0_54 : ∀ a, (![0, 0, 54] : Fin 3 → Nat) a + S1x1x1.size a ≤ S1x1x128.size a
  inb_S128x128_S1x128_54_0 : ∀ a, (![54, 0] : Fin 2 → Nat) a + S1x128.size a ≤ S128x128.size a
  inb_S1x1x128_S1x1x1_0_0_55 : ∀ a, (![0, 0, 55] : Fin 3 → Nat) a + S1x1x1.size a ≤ S1x1x128.size a
  inb_S128x128_S1x128_55_0 : ∀ a, (![55, 0] : Fin 2 → Nat) a + S1x128.size a ≤ S128x128.size a
  inb_S1x1x128_S1x1x1_0_0_56 : ∀ a, (![0, 0, 56] : Fin 3 → Nat) a + S1x1x1.size a ≤ S1x1x128.size a
  inb_S128x128_S1x128_56_0 : ∀ a, (![56, 0] : Fin 2 → Nat) a + S1x128.size a ≤ S128x128.size a
  inb_S1x1x128_S1x1x1_0_0_57 : ∀ a, (![0, 0, 57] : Fin 3 → Nat) a + S1x1x1.size a ≤ S1x1x128.size a
  inb_S128x128_S1x128_57_0 : ∀ a, (![57, 0] : Fin 2 → Nat) a + S1x128.size a ≤ S128x128.size a
  inb_S1x1x128_S1x1x1_0_0_58 : ∀ a, (![0, 0, 58] : Fin 3 → Nat) a + S1x1x1.size a ≤ S1x1x128.size a
  inb_S128x128_S1x128_58_0 : ∀ a, (![58, 0] : Fin 2 → Nat) a + S1x128.size a ≤ S128x128.size a
  inb_S1x1x128_S1x1x1_0_0_59 : ∀ a, (![0, 0, 59] : Fin 3 → Nat) a + S1x1x1.size a ≤ S1x1x128.size a
  inb_S128x128_S1x128_59_0 : ∀ a, (![59, 0] : Fin 2 → Nat) a + S1x128.size a ≤ S128x128.size a
  inb_S1x1x128_S1x1x1_0_0_60 : ∀ a, (![0, 0, 60] : Fin 3 → Nat) a + S1x1x1.size a ≤ S1x1x128.size a
  inb_S128x128_S1x128_60_0 : ∀ a, (![60, 0] : Fin 2 → Nat) a + S1x128.size a ≤ S128x128.size a
  inb_S1x1x128_S1x1x1_0_0_61 : ∀ a, (![0, 0, 61] : Fin 3 → Nat) a + S1x1x1.size a ≤ S1x1x128.size a
  inb_S128x128_S1x128_61_0 : ∀ a, (![61, 0] : Fin 2 → Nat) a + S1x128.size a ≤ S128x128.size a
  inb_S1x1x128_S1x1x1_0_0_62 : ∀ a, (![0, 0, 62] : Fin 3 → Nat) a + S1x1x1.size a ≤ S1x1x128.size a
  inb_S128x128_S1x128_62_0 : ∀ a, (![62, 0] : Fin 2 → Nat) a + S1x128.size a ≤ S128x128.size a
  inb_S1x1x128_S1x1x1_0_0_63 : ∀ a, (![0, 0, 63] : Fin 3 → Nat) a + S1x1x1.size a ≤ S1x1x128.size a
  inb_S128x128_S1x128_63_0 : ∀ a, (![63, 0] : Fin 2 → Nat) a + S1x128.size a ≤ S128x128.size a
  inb_S1x1x128_S1x1x1_0_0_64 : ∀ a, (![0, 0, 64] : Fin 3 → Nat) a + S1x1x1.size a ≤ S1x1x128.size a
  inb_S128x128_S1x128_64_0 : ∀ a, (![64, 0] : Fin 2 → Nat) a + S1x128.size a ≤ S128x128.size a
  inb_S1x1x128_S1x1x1_0_0_65 : ∀ a, (![0, 0, 65] : Fin 3 → Nat) a + S1x1x1.size a ≤ S1x1x128.size a
  inb_S128x128_S1x128_65_0 : ∀ a, (![65, 0] : Fin 2 → Nat) a + S1x128.size a ≤ S128x128.size a
  inb_S1x1x128_S1x1x1_0_0_66 : ∀ a, (![0, 0, 66] : Fin 3 → Nat) a + S1x1x1.size a ≤ S1x1x128.size a
  inb_S128x128_S1x128_66_0 : ∀ a, (![66, 0] : Fin 2 → Nat) a + S1x128.size a ≤ S128x128.size a
  inb_S1x1x128_S1x1x1_0_0_67 : ∀ a, (![0, 0, 67] : Fin 3 → Nat) a + S1x1x1.size a ≤ S1x1x128.size a
  inb_S128x128_S1x128_67_0 : ∀ a, (![67, 0] : Fin 2 → Nat) a + S1x128.size a ≤ S128x128.size a
  inb_S1x1x128_S1x1x1_0_0_68 : ∀ a, (![0, 0, 68] : Fin 3 → Nat) a + S1x1x1.size a ≤ S1x1x128.size a
  inb_S128x128_S1x128_68_0 : ∀ a, (![68, 0] : Fin 2 → Nat) a + S1x128.size a ≤ S128x128.size a
  inb_S1x1x128_S1x1x1_0_0_69 : ∀ a, (![0, 0, 69] : Fin 3 → Nat) a + S1x1x1.size a ≤ S1x1x128.size a
  inb_S128x128_S1x128_69_0 : ∀ a, (![69, 0] : Fin 2 → Nat) a + S1x128.size a ≤ S128x128.size a
  inb_S1x1x128_S1x1x1_0_0_70 : ∀ a, (![0, 0, 70] : Fin 3 → Nat) a + S1x1x1.size a ≤ S1x1x128.size a
  inb_S128x128_S1x128_70_0 : ∀ a, (![70, 0] : Fin 2 → Nat) a + S1x128.size a ≤ S128x128.size a
  inb_S1x1x128_S1x1x1_0_0_71 : ∀ a, (![0, 0, 71] : Fin 3 → Nat) a + S1x1x1.size a ≤ S1x1x128.size a
  inb_S128x128_S1x128_71_0 : ∀ a, (![71, 0] : Fin 2 → Nat) a + S1x128.size a ≤ S128x128.size a
  inb_S1x1x128_S1x1x1_0_0_72 : ∀ a, (![0, 0, 72] : Fin 3 → Nat) a + S1x1x1.size a ≤ S1x1x128.size a
  inb_S128x128_S1x128_72_0 : ∀ a, (![72, 0] : Fin 2 → Nat) a + S1x128.size a ≤ S128x128.size a
  inb_S1x1x128_S1x1x1_0_0_73 : ∀ a, (![0, 0, 73] : Fin 3 → Nat) a + S1x1x1.size a ≤ S1x1x128.size a
  inb_S128x128_S1x128_73_0 : ∀ a, (![73, 0] : Fin 2 → Nat) a + S1x128.size a ≤ S128x128.size a
  inb_S1x1x128_S1x1x1_0_0_74 : ∀ a, (![0, 0, 74] : Fin 3 → Nat) a + S1x1x1.size a ≤ S1x1x128.size a
  inb_S128x128_S1x128_74_0 : ∀ a, (![74, 0] : Fin 2 → Nat) a + S1x128.size a ≤ S128x128.size a
  inb_S1x1x128_S1x1x1_0_0_75 : ∀ a, (![0, 0, 75] : Fin 3 → Nat) a + S1x1x1.size a ≤ S1x1x128.size a
  inb_S128x128_S1x128_75_0 : ∀ a, (![75, 0] : Fin 2 → Nat) a + S1x128.size a ≤ S128x128.size a
  inb_S1x1x128_S1x1x1_0_0_76 : ∀ a, (![0, 0, 76] : Fin 3 → Nat) a + S1x1x1.size a ≤ S1x1x128.size a
  inb_S128x128_S1x128_76_0 : ∀ a, (![76, 0] : Fin 2 → Nat) a + S1x128.size a ≤ S128x128.size a
  inb_S1x1x128_S1x1x1_0_0_77 : ∀ a, (![0, 0, 77] : Fin 3 → Nat) a + S1x1x1.size a ≤ S1x1x128.size a
  inb_S128x128_S1x128_77_0 : ∀ a, (![77, 0] : Fin 2 → Nat) a + S1x128.size a ≤ S128x128.size a
  inb_S1x1x128_S1x1x1_0_0_78 : ∀ a, (![0, 0, 78] : Fin 3 → Nat) a + S1x1x1.size a ≤ S1x1x128.size a
  inb_S128x128_S1x128_78_0 : ∀ a, (![78, 0] : Fin 2 → Nat) a + S1x128.size a ≤ S128x128.size a
  inb_S1x1x128_S1x1x1_0_0_79 : ∀ a, (![0, 0, 79] : Fin 3 → Nat) a + S1x1x1.size a ≤ S1x1x128.size a
  inb_S128x128_S1x128_79_0 : ∀ a, (![79, 0] : Fin 2 → Nat) a + S1x128.size a ≤ S128x128.size a
  inb_S1x1x128_S1x1x1_0_0_80 : ∀ a, (![0, 0, 80] : Fin 3 → Nat) a + S1x1x1.size a ≤ S1x1x128.size a
  inb_S128x128_S1x128_80_0 : ∀ a, (![80, 0] : Fin 2 → Nat) a + S1x128.size a ≤ S128x128.size a
  inb_S1x1x128_S1x1x1_0_0_81 : ∀ a, (![0, 0, 81] : Fin 3 → Nat) a + S1x1x1.size a ≤ S1x1x128.size a
  inb_S128x128_S1x128_81_0 : ∀ a, (![81, 0] : Fin 2 → Nat) a + S1x128.size a ≤ S128x128.size a
  inb_S1x1x128_S1x1x1_0_0_82 : ∀ a, (![0, 0, 82] : Fin 3 → Nat) a + S1x1x1.size a ≤ S1x1x128.size a
  inb_S128x128_S1x128_82_0 : ∀ a, (![82, 0] : Fin 2 → Nat) a + S1x128.size a ≤ S128x128.size a
  inb_S1x1x128_S1x1x1_0_0_83 : ∀ a, (![0, 0, 83] : Fin 3 → Nat) a + S1x1x1.size a ≤ S1x1x128.size a
  inb_S128x128_S1x128_83_0 : ∀ a, (![83, 0] : Fin 2 → Nat) a + S1x128.size a ≤ S128x128.size a
  inb_S1x1x128_S1x1x1_0_0_84 : ∀ a, (![0, 0, 84] : Fin 3 → Nat) a + S1x1x1.size a ≤ S1x1x128.size a
  inb_S128x128_S1x128_84_0 : ∀ a, (![84, 0] : Fin 2 → Nat) a + S1x128.size a ≤ S128x128.size a
  inb_S1x1x128_S1x1x1_0_0_85 : ∀ a, (![0, 0, 85] : Fin 3 → Nat) a + S1x1x1.size a ≤ S1x1x128.size a
  inb_S128x128_S1x128_85_0 : ∀ a, (![85, 0] : Fin 2 → Nat) a + S1x128.size a ≤ S128x128.size a
  inb_S1x1x128_S1x1x1_0_0_86 : ∀ a, (![0, 0, 86] : Fin 3 → Nat) a + S1x1x1.size a ≤ S1x1x128.size a
  inb_S128x128_S1x128_86_0 : ∀ a, (![86, 0] : Fin 2 → Nat) a + S1x128.size a ≤ S128x128.size a
  inb_S1x1x128_S1x1x1_0_0_87 : ∀ a, (![0, 0, 87] : Fin 3 → Nat) a + S1x1x1.size a ≤ S1x1x128.size a
  inb_S128x128_S1x128_87_0 : ∀ a, (![87, 0] : Fin 2 → Nat) a + S1x128.size a ≤ S128x128.size a
  inb_S1x1x128_S1x1x1_0_0_88 : ∀ a, (![0, 0, 88] : Fin 3 → Nat) a + S1x1x1.size a ≤ S1x1x128.size a
  inb_S128x128_S1x128_88_0 : ∀ a, (![88, 0] : Fin 2 → Nat) a + S1x128.size a ≤ S128x128.size a
  inb_S1x1x128_S1x1x1_0_0_89 : ∀ a, (![0, 0, 89] : Fin 3 → Nat) a + S1x1x1.size a ≤ S1x1x128.size a
  inb_S128x128_S1x128_89_0 : ∀ a, (![89, 0] : Fin 2 → Nat) a + S1x128.size a ≤ S128x128.size a
  inb_S1x1x128_S1x1x1_0_0_90 : ∀ a, (![0, 0, 90] : Fin 3 → Nat) a + S1x1x1.size a ≤ S1x1x128.size a
  inb_S128x128_S1x128_90_0 : ∀ a, (![90, 0] : Fin 2 → Nat) a + S1x128.size a ≤ S128x128.size a
  inb_S1x1x128_S1x1x1_0_0_91 : ∀ a, (![0, 0, 91] : Fin 3 → Nat) a + S1x1x1.size a ≤ S1x1x128.size a
  inb_S128x128_S1x128_91_0 : ∀ a, (![91, 0] : Fin 2 → Nat) a + S1x128.size a ≤ S128x128.size a
  inb_S1x1x128_S1x1x1_0_0_92 : ∀ a, (![0, 0, 92] : Fin 3 → Nat) a + S1x1x1.size a ≤ S1x1x128.size a
  inb_S128x128_S1x128_92_0 : ∀ a, (![92, 0] : Fin 2 → Nat) a + S1x128.size a ≤ S128x128.size a
  inb_S1x1x128_S1x1x1_0_0_93 : ∀ a, (![0, 0, 93] : Fin 3 → Nat) a + S1x1x1.size a ≤ S1x1x128.size a
  inb_S128x128_S1x128_93_0 : ∀ a, (![93, 0] : Fin 2 → Nat) a + S1x128.size a ≤ S128x128.size a
  inb_S1x1x128_S1x1x1_0_0_94 : ∀ a, (![0, 0, 94] : Fin 3 → Nat) a + S1x1x1.size a ≤ S1x1x128.size a
  inb_S128x128_S1x128_94_0 : ∀ a, (![94, 0] : Fin 2 → Nat) a + S1x128.size a ≤ S128x128.size a
  inb_S1x1x128_S1x1x1_0_0_95 : ∀ a, (![0, 0, 95] : Fin 3 → Nat) a + S1x1x1.size a ≤ S1x1x128.size a
  inb_S128x128_S1x128_95_0 : ∀ a, (![95, 0] : Fin 2 → Nat) a + S1x128.size a ≤ S128x128.size a
  inb_S1x1x128_S1x1x1_0_0_96 : ∀ a, (![0, 0, 96] : Fin 3 → Nat) a + S1x1x1.size a ≤ S1x1x128.size a
  inb_S128x128_S1x128_96_0 : ∀ a, (![96, 0] : Fin 2 → Nat) a + S1x128.size a ≤ S128x128.size a
  inb_S1x1x128_S1x1x1_0_0_97 : ∀ a, (![0, 0, 97] : Fin 3 → Nat) a + S1x1x1.size a ≤ S1x1x128.size a
  inb_S128x128_S1x128_97_0 : ∀ a, (![97, 0] : Fin 2 → Nat) a + S1x128.size a ≤ S128x128.size a
  inb_S1x1x128_S1x1x1_0_0_98 : ∀ a, (![0, 0, 98] : Fin 3 → Nat) a + S1x1x1.size a ≤ S1x1x128.size a
  inb_S128x128_S1x128_98_0 : ∀ a, (![98, 0] : Fin 2 → Nat) a + S1x128.size a ≤ S128x128.size a
  inb_S1x1x128_S1x1x1_0_0_99 : ∀ a, (![0, 0, 99] : Fin 3 → Nat) a + S1x1x1.size a ≤ S1x1x128.size a
  inb_S128x128_S1x128_99_0 : ∀ a, (![99, 0] : Fin 2 → Nat) a + S1x128.size a ≤ S128x128.size a
  inb_S1x1x128_S1x1x1_0_0_100 : ∀ a, (![0, 0, 100] : Fin 3 → Nat) a + S1x1x1.size a ≤ S1x1x128.size a
  inb_S128x128_S1x128_100_0 : ∀ a, (![100, 0] : Fin 2 → Nat) a + S1x128.size a ≤ S128x128.size a
  inb_S1x1x128_S1x1x1_0_0_101 : ∀ a, (![0, 0, 101] : Fin 3 → Nat) a + S1x1x1.size a ≤ S1x1x128.size a
  inb_S128x128_S1x128_101_0 : ∀ a, (![101, 0] : Fin 2 → Nat) a + S1x128.size a ≤ S128x128.size a
  inb_S1x1x128_S1x1x1_0_0_102 : ∀ a, (![0, 0, 102] : Fin 3 → Nat) a + S1x1x1.size a ≤ S1x1x128.size a
  inb_S128x128_S1x128_102_0 : ∀ a, (![102, 0] : Fin 2 → Nat) a + S1x128.size a ≤ S128x128.size a
  inb_S1x1x128_S1x1x1_0_0_103 : ∀ a, (![0, 0, 103] : Fin 3 → Nat) a + S1x1x1.size a ≤ S1x1x128.size a
  inb_S128x128_S1x128_103_0 : ∀ a, (![103, 0] : Fin 2 → Nat) a + S1x128.size a ≤ S128x128.size a
  inb_S1x1x128_S1x1x1_0_0_104 : ∀ a, (![0, 0, 104] : Fin 3 → Nat) a + S1x1x1.size a ≤ S1x1x128.size a
  inb_S128x128_S1x128_104_0 : ∀ a, (![104, 0] : Fin 2 → Nat) a + S1x128.size a ≤ S128x128.size a
  inb_S1x1x128_S1x1x1_0_0_105 : ∀ a, (![0, 0, 105] : Fin 3 → Nat) a + S1x1x1.size a ≤ S1x1x128.size a
  inb_S128x128_S1x128_105_0 : ∀ a, (![105, 0] : Fin 2 → Nat) a + S1x128.size a ≤ S128x128.size a
  inb_S1x1x128_S1x1x1_0_0_106 : ∀ a, (![0, 0, 106] : Fin 3 → Nat) a + S1x1x1.size a ≤ S1x1x128.size a
  inb_S128x128_S1x128_106_0 : ∀ a, (![106, 0] : Fin 2 → Nat) a + S1x128.size a ≤ S128x128.size a
  inb_S1x1x128_S1x1x1_0_0_107 : ∀ a, (![0, 0, 107] : Fin 3 → Nat) a + S1x1x1.size a ≤ S1x1x128.size a
  inb_S128x128_S1x128_107_0 : ∀ a, (![107, 0] : Fin 2 → Nat) a + S1x128.size a ≤ S128x128.size a
  inb_S1x1x128_S1x1x1_0_0_108 : ∀ a, (![0, 0, 108] : Fin 3 → Nat) a + S1x1x1.size a ≤ S1x1x128.size a
  inb_S128x128_S1x128_108_0 : ∀ a, (![108, 0] : Fin 2 → Nat) a + S1x128.size a ≤ S128x128.size a
  inb_S1x1x128_S1x1x1_0_0_109 : ∀ a, (![0, 0, 109] : Fin 3 → Nat) a + S1x1x1.size a ≤ S1x1x128.size a
  inb_S128x128_S1x128_109_0 : ∀ a, (![109, 0] : Fin 2 → Nat) a + S1x128.size a ≤ S128x128.size a
  inb_S1x1x128_S1x1x1_0_0_110 : ∀ a, (![0, 0, 110] : Fin 3 → Nat) a + S1x1x1.size a ≤ S1x1x128.size a
  inb_S128x128_S1x128_110_0 : ∀ a, (![110, 0] : Fin 2 → Nat) a + S1x128.size a ≤ S128x128.size a
  inb_S1x1x128_S1x1x1_0_0_111 : ∀ a, (![0, 0, 111] : Fin 3 → Nat) a + S1x1x1.size a ≤ S1x1x128.size a
  inb_S128x128_S1x128_111_0 : ∀ a, (![111, 0] : Fin 2 → Nat) a + S1x128.size a ≤ S128x128.size a
  inb_S1x1x128_S1x1x1_0_0_112 : ∀ a, (![0, 0, 112] : Fin 3 → Nat) a + S1x1x1.size a ≤ S1x1x128.size a
  inb_S128x128_S1x128_112_0 : ∀ a, (![112, 0] : Fin 2 → Nat) a + S1x128.size a ≤ S128x128.size a
  inb_S1x1x128_S1x1x1_0_0_113 : ∀ a, (![0, 0, 113] : Fin 3 → Nat) a + S1x1x1.size a ≤ S1x1x128.size a
  inb_S128x128_S1x128_113_0 : ∀ a, (![113, 0] : Fin 2 → Nat) a + S1x128.size a ≤ S128x128.size a
  inb_S1x1x128_S1x1x1_0_0_114 : ∀ a, (![0, 0, 114] : Fin 3 → Nat) a + S1x1x1.size a ≤ S1x1x128.size a
  inb_S128x128_S1x128_114_0 : ∀ a, (![114, 0] : Fin 2 → Nat) a + S1x128.size a ≤ S128x128.size a
  inb_S1x1x128_S1x1x1_0_0_115 : ∀ a, (![0, 0, 115] : Fin 3 → Nat) a + S1x1x1.size a ≤ S1x1x128.size a
  inb_S128x128_S1x128_115_0 : ∀ a, (![115, 0] : Fin 2 → Nat) a + S1x128.size a ≤ S128x128.size a
  inb_S1x1x128_S1x1x1_0_0_116 : ∀ a, (![0, 0, 116] : Fin 3 → Nat) a + S1x1x1.size a ≤ S1x1x128.size a
  inb_S128x128_S1x128_116_0 : ∀ a, (![116, 0] : Fin 2 → Nat) a + S1x128.size a ≤ S128x128.size a
  inb_S1x1x128_S1x1x1_0_0_117 : ∀ a, (![0, 0, 117] : Fin 3 → Nat) a + S1x1x1.size a ≤ S1x1x128.size a
  inb_S128x128_S1x128_117_0 : ∀ a, (![117, 0] : Fin 2 → Nat) a + S1x128.size a ≤ S128x128.size a
  inb_S1x1x128_S1x1x1_0_0_118 : ∀ a, (![0, 0, 118] : Fin 3 → Nat) a + S1x1x1.size a ≤ S1x1x128.size a
  inb_S128x128_S1x128_118_0 : ∀ a, (![118, 0] : Fin 2 → Nat) a + S1x128.size a ≤ S128x128.size a
  inb_S1x1x128_S1x1x1_0_0_119 : ∀ a, (![0, 0, 119] : Fin 3 → Nat) a + S1x1x1.size a ≤ S1x1x128.size a
  inb_S128x128_S1x128_119_0 : ∀ a, (![119, 0] : Fin 2 → Nat) a + S1x128.size a ≤ S128x128.size a
  inb_S1x1x128_S1x1x1_0_0_120 : ∀ a, (![0, 0, 120] : Fin 3 → Nat) a + S1x1x1.size a ≤ S1x1x128.size a
  inb_S128x128_S1x128_120_0 : ∀ a, (![120, 0] : Fin 2 → Nat) a + S1x128.size a ≤ S128x128.size a
  inb_S1x1x128_S1x1x1_0_0_121 : ∀ a, (![0, 0, 121] : Fin 3 → Nat) a + S1x1x1.size a ≤ S1x1x128.size a
  inb_S128x128_S1x128_121_0 : ∀ a, (![121, 0] : Fin 2 → Nat) a + S1x128.size a ≤ S128x128.size a
  inb_S1x1x128_S1x1x1_0_0_122 : ∀ a, (![0, 0, 122] : Fin 3 → Nat) a + S1x1x1.size a ≤ S1x1x128.size a
  inb_S128x128_S1x128_122_0 : ∀ a, (![122, 0] : Fin 2 → Nat) a + S1x128.size a ≤ S128x128.size a
  inb_S1x1x128_S1x1x1_0_0_123 : ∀ a, (![0, 0, 123] : Fin 3 → Nat) a + S1x1x1.size a ≤ S1x1x128.size a
  inb_S128x128_S1x128_123_0 : ∀ a, (![123, 0] : Fin 2 → Nat) a + S1x128.size a ≤ S128x128.size a
  inb_S1x1x128_S1x1x1_0_0_124 : ∀ a, (![0, 0, 124] : Fin 3 → Nat) a + S1x1x1.size a ≤ S1x1x128.size a
  inb_S128x128_S1x128_124_0 : ∀ a, (![124, 0] : Fin 2 → Nat) a + S1x128.size a ≤ S128x128.size a
  inb_S1x1x128_S1x1x1_0_0_125 : ∀ a, (![0, 0, 125] : Fin 3 → Nat) a + S1x1x1.size a ≤ S1x1x128.size a
  inb_S128x128_S1x128_125_0 : ∀ a, (![125, 0] : Fin 2 → Nat) a + S1x128.size a ≤ S128x128.size a
  inb_S1x1x128_S1x1x1_0_0_126 : ∀ a, (![0, 0, 126] : Fin 3 → Nat) a + S1x1x1.size a ≤ S1x1x128.size a
  inb_S128x128_S1x128_126_0 : ∀ a, (![126, 0] : Fin 2 → Nat) a + S1x128.size a ≤ S128x128.size a
  inb_S1x1x128_S1x1x1_0_0_127 : ∀ a, (![0, 0, 127] : Fin 3 → Nat) a + S1x1x1.size a ≤ S1x1x128.size a
  inb_S128x128_S1x128_127_0 : ∀ a, (![127, 0] : Fin 2 → Nat) a + S1x128.size a ≤ S128x128.size a
  inb_S2x256_S2x256_0_0 : ∀ a, (![0, 0] : Fin 2 → Nat) a + S2x256.size a ≤ S2x256.size a
  h_S2x256 : 0 < S2x256.numel
  slices_S2x256_o0_0_S2x128 : S2x256.Slices ![0, 0] S2x128
  bitsLt_bf16_f32 : FTy.bits .bf16 < FTy.bits .f32
  slices_S2x256_o0_128_S2x128 : S2x256.Slices ![0, 128] S2x128
  inb_S128x128_S128x128_0_0 : ∀ a, (![0, 0] : Fin 2 → Nat) a + S128x128.size a ≤ S128x128.size a
  h_S128x128 : 0 < S128x128.numel
  transposes_S2x128_p1_0_S128x2 : S2x128.Transposes [1, 0] S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  inb_S128x2_S128x2_0_0 : ∀ a, (![0, 0] : Fin 2 → Nat) a + S128x2.size a ≤ S128x2.size a
  h_S128x2 : 0 < S128x2.numel
  slices_S600064x2_S600000x2_0_0 : S600064x2.Slices ![0, 0] S600000x2
  dot_S128x128_S128x2_S128x2_1_0_0_1_n_n_wf : DotDims.WF S128x128 S128x2 S128x2 [1] [0] [0] [1] [] []
  hcc0_scratch2 : 8 + S8.numel ≤ 16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128.size a ≤ S4688x1x128.size a
  hwx0_0 : ∀ i : grid0.Coords, EltTy.bits .i32 = 32 ∨ (Rect.block (s := S4688x1x128) S1x1x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S4688x1x128.size a
  hwx0_1 : ∀ i : grid0.Coords, EltTy.bits .i32 = 32 ∨ (Rect.block (s := S4688x1x128) S1x1x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S2x256.size a ≤ S2x256.size a
  hwx0_2 : ∀ i : grid0.Coords, EltTy.bits .f32 = 32 ∨ (Rect.block (s := S2x256) S2x256.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S1x2.size a ≤ S1x2.size a
  hwx0_3 : ∀ i : grid0.Coords, EltTy.bits .f32 = 32 ∨ (Rect.block (s := S1x2) S1x2.size (cc0_transform_4 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_5 i = cc0_transform_5 i'
  hinb0_4 : ∀ (i : grid0.Coords) a, (cc0_transform_5 i a + 1) * S128x2.size a ≤ S600064x2.size a
  hwx0_4 : ∀ i : grid0.Coords, EltTy.bits .f32 = 32 ∨ (Rect.block (s := S600064x2) S128x2.size (cc0_transform_5 i) (hinb0_4 i)).WholeWords (EltTy.packing .f32)

variable [Facts₀]

abbrev cc0_scratch2 : DmaSems sig S8 := SemArray.consecutive 8 S8 hcc0_scratch2
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_v2) S1x1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2x256.size cc0_transform_3 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2.size cc0_transform_4 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x2.size cc0_transform_5 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x256 : Shape := ⟨2, ![2, 256]⟩
abbrev S2 : Shape := ⟨1, ![2]⟩
abbrev S600000 : Shape := ⟨1, ![600000]⟩
abbrev S2x128 : Shape := ⟨2, ![2, 128]⟩
abbrev S_ : Shape := ⟨0, ![]⟩
abbrev S600000x1 : Shape := ⟨2, ![600000, 1]⟩
abbrev S600000x128 : Shape := ⟨2, ![600000, 128]⟩
abbrev S600000x2 : Shape := ⟨2, ![600000, 2]⟩
abbrev S1x2 : Shape := ⟨2, ![1, 2]⟩

abbrev nBuf : Space → Nat
  | .hbm => 31
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x256, .f32⟩
  | .hbm, ⟨2, _⟩ => ⟨S2, .f32⟩
  | .hbm, ⟨3, _⟩ => ⟨S600000, .i32⟩
  | .hbm, ⟨4, _⟩ => ⟨S600000, .i32⟩
  | .hbm, ⟨5, _⟩ => ⟨S2x128, .f32⟩
  | .hbm, ⟨6, _⟩ => ⟨S2x128, .f32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S600000x2, .f32⟩
  | .hbm, ⟨26, _⟩ => ⟨S600000x2, .f32⟩
  | .hbm, ⟨27, _⟩ => ⟨S600000x2, .f32⟩
  | .hbm, ⟨28, _⟩ => ⟨S1x2, .f32⟩
  | .hbm, ⟨29, _⟩ => ⟨S600000x2, .f32⟩
  | .hbm, ⟨30, _⟩ => ⟨S600000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  slices_S2x256_S2x128_0_0 : S2x256.Slices ![0, 0] S2x128
  slices_S2x256_S2x128_0_128 : S2x256.Slices ![0, 128] S2x128
  bcast_S_S600000 : S_.BroadcastsInDim S600000 (![] : Fin 0 → Fin S600000.rank)
  bcast_S600000_S600000x1_0 : S600000.BroadcastsInDim S600000x1 (![0] : Fin 1 → Fin S600000x1.rank)
  bcast_S2_S1x2_1 : S2.BroadcastsInDim S1x2 (![1] : Fin 1 → Fin S1x2.rank)
  bcast_S1x2_S600000x2_0_1 : S1x2.BroadcastsInDim S600000x2 (![0, 1] : Fin 2 → Fin S600000x2.rank)
  gather_S50000x128_S600000x1_S600000x128_1_0_n_n_0_1_1128_wf : GatherDims.WF S50000x128 S600000x1 S600000x128 [1] [0] [] [0] [] 1 ![1, 128]
  dot_S600000x128_S2x128_S600000x2_1_1_0_0_n_n_wf : DotDims.WF S600000x128 S2x128 S600000x2 [1] [1] [0] [0] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S2x128_S600000x2_1_1_0_0_n_n : DotDims S600000x128 S2x128 S600000x2 where
  lhsContracting := [1]
  rhsContracting := [1]
  lhsNonContracting := [0]
  rhsNonContracting := [0]
  lhsBatch := []
  rhsBatch := []
  wf := dot_S600000x128_S2x128_S600000x2_1_1_0_0_n_n_wf

class Facts : Prop extends Facts₀ where

variable [Facts]
-- ==== Proof.KernelRows.lean ====
/-
  The contents of a [128, 128] scratch buffer after its rows were written one at a time.  Row `n` of the buffer, seen as a
  vector of 128 entries, is the rectangle of one row at offsets `(n, 0)` with its unit axis dropped; writing the vector
  `pay n` through it changes the buffer's entries `(n, 0) … (n, 127)` and no others.  `rows A base pay n` is what the buffer
  holds after rows `0 … n − 1` were written in turn, starting from `base`; once all 128 rows are written, entry `(r, k)` of
  the buffer is entry `k` of `pay r`, whatever `base` was: the write of row `r` puts it there and the later rows' writes
  leave it alone.
-/
import proofs.«120289_j75213467287860_1_alg».proof.Proof.Gen.Kernel
import Idealize.ShloMosaic.Lib.ValueIdx
import Idealize.ShloMosaic.Lib.Pipeline.Value

noncomputable section

namespace Cert.Kernel.Rows

open Cert.Kernel
open Idealize.ShloMosaic Idealize.SL.Sem Idealize.ShloMosaic.ValueIdx
open Facts₀

variable {F : FTy → Type} [FloatOps F]

/-- The one-row rectangle at row `min n 127` is inside the [128, 128] shape (the clamp makes it so for every `n`; at
    `n ≤ 127` the row is `n`). -/
theorem rowInb (n : Nat) : ∀ a, (![min n 127, 0] : Fin 2 → Nat) a + S1x128.size a ≤ S128x128.size a :=
  Rect.inb₂ (show min n 127 + 1 ≤ 128 by omega) (show 0 + 128 ≤ 128 by omega)

/-- Row `n` of the buffer as a vector of 128 entries: the one-row rectangle at `(n, 0)`, its unit axis dropped. -/
abbrev rowRef (A : Memref sig .tc .vmem S128x128 .f32) (n : Nat) : Memref sig .tc .vmem S128 .f32 :=
  (A.slice (Rect.unit (s := S128x128) ![min n 127, 0] S1x128.size (rowInb n)) (fun _ => rfl)).squeeze S128 squeezes_S1x128_S128

/-- The buffer's contents after rows `0 … n − 1` were written, `pay i` into row `i`, starting from `base`. -/
def rows (A : Memref sig .tc .vmem S128x128 .f32) (base : A.view.ty.Contents (Elt F)) (pay : Nat → Vec F S128 .f32) :
    Nat → A.view.ty.Contents (Elt F)
  | 0 => base
  | n + 1 => View.write (Elt F) (rowRef A n).view (rows A base pay n) (pay n) Finset.univ

theorem rows_zero (A : Memref sig .tc .vmem S128x128 .f32) (base : A.view.ty.Contents (Elt F)) (pay : Nat → Vec F S128 .f32) :
    rows A base pay 0 = base := rfl

/-- One more row: the write of `pay n` through row `n` over what the first `n` rows left. -/
theorem rows_succ (A : Memref sig .tc .vmem S128x128 .f32) (base : A.view.ty.Contents (Elt F)) (pay : Nat → Vec F S128 .f32) (n : Nat) :
    rows A base pay (n + 1) = View.write (Elt F) (rowRef A n).view (rows A base pay n) (pay n) Finset.univ := rfl

/-- Entry `k` of row `n`'s vector sits in the buffer where entry `(n, k)` of the whole array sits. -/
theorem rowRef_emb (A : Memref sig .tc .vmem S128x128 .f32) (n : Nat) (hn : n < 128) (k : Fin 128) :
    (rowRef A n).view.emb (ix1 k) = A.view.emb (ix2 ⟨n, hn⟩ k) := by
  show A.view.emb ((Rect.unit (s := S128x128) ![min n 127, 0] S1x128.size (rowInb n)).emb
      (Shape.reshapeEquiv (Shape.Squeezes.numel_eq squeezes_S1x128_S128) (ix1 k))) = _
  refine congrArg A.view.emb ?_
  have hq : Shape.reshapeEquiv (Shape.Squeezes.numel_eq squeezes_S1x128_S128) (ix1 k) = (ix2 ⟨0, Nat.one_pos⟩ k : S1x128.Idx) :=
    Shape.reshapeEquiv_eq_of_rowMajor _ (by
      rw [Shape.rowMajor_val_two, Shape.rowMajor_val_one]
      show 0 * 128 + k.val = k.val
      omega)
  rw [hq]
  funext a
  apply Fin.ext
  match a with
  | ⟨0, _⟩ =>
    show min n 127 + 1 * 0 = n
    omega
  | ⟨1, _⟩ =>
    show 0 + 1 * k.val = k.val
    omega

/-- An entry of another row is not under row `n`'s vector. -/
theorem rowRef_not_mem (A : Memref sig .tc .vmem S128x128 .f32) (n : Nat) (hn : n < 128) (r k : Fin 128) (hr : r.val ≠ n) :
    A.view.emb (ix2 r k) ∉ (rowRef A n).view.setOn Finset.univ := by
  intro h
  obtain ⟨j, -, hj⟩ := Finset.mem_map.mp h
  have h2 : A.view.emb ((Rect.unit (s := S128x128) ![min n 127, 0] S1x128.size (rowInb n)).emb
      (Shape.reshapeEquiv (Shape.Squeezes.numel_eq squeezes_S1x128_S128) j)) = A.view.emb (ix2 r k) := hj
  have h3 := congrArg (fun i : S128x128.Idx => (i 0).val) (A.view.emb.injective h2)
  have h4 : min n 127 + 1 * ((Shape.reshapeEquiv (Shape.Squeezes.numel_eq squeezes_S1x128_S128) j : S1x128.Idx) 0).val = r.val := h3
  have h5 : ((Shape.reshapeEquiv (Shape.Squeezes.numel_eq squeezes_S1x128_S128) j : S1x128.Idx) 0).val < 1 :=
    ((Shape.reshapeEquiv (Shape.Squeezes.numel_eq squeezes_S1x128_S128) j : S1x128.Idx) 0).isLt
  omega

/-- Reading the whole array at `(n, k)` is reading row `n`'s vector at `k`. -/
theorem read_row (A : Memref sig .tc .vmem S128x128 .f32) (n : Nat) (hn : n < 128) (g : A.view.ty.Contents (Elt F)) (k : Fin 128) :
    A.view.read (Elt F) g (ix2 ⟨n, hn⟩ k) = (rowRef A n).view.read (Elt F) g (ix1 k) :=
  congrArg (fun i => _root_.cast (congrArg (Elt F) A.view.elt_eq) (g i)) (rowRef_emb A n hn k).symm

/-- After the first `n` rows were written, a row below `n` reads its payload. -/
theorem rows_read_of_lt (A : Memref sig .tc .vmem S128x128 .f32) (base : A.view.ty.Contents (Elt F)) (pay : Nat → Vec F S128 .f32)
    (r k : Fin 128) : ∀ n : Nat, n ≤ 128 → r.val < n → A.view.read (Elt F) (rows A base pay n) (ix2 r k) = pay r.val (ix1 k)
  | 0, _, h => absurd h (Nat.not_lt_zero _)
  | n + 1, hn, h => by
    by_cases hr : r.val = n
    · obtain ⟨rv, hrv⟩ := r
      have hr' : rv = n := hr
      subst hr'
      exact (read_row A rv hrv _ k).trans (View.read_write_of_mem _ _ (Finset.mem_univ _))
    · have hm := rowRef_not_mem A n (by omega) r k hr
      refine (congrArg (_root_.cast (congrArg (Elt F) A.view.elt_eq)) (View.write_of_not_mem (v := (rowRef A n).view) (rows A base pay n) (pay n) Finset.univ hm)).trans ?_
      exact rows_read_of_lt A base pay r k n (by omega) (by omega)

/-- Once all 128 rows are written, entry `(r, k)` of the buffer is entry `k` of row `r`'s payload. -/
theorem rows_read (A : Memref sig .tc .vmem S128x128 .f32) (hA : A.IsWhole) (base : A.view.ty.Contents (Elt F)) (pay : Nat → Vec F S128 .f32)
    (r k : Fin 128) : A.view.read (Elt F) (rows A base pay 128) (ix2 r k) = pay r.val (ix1 k) :=
  rows_read_of_lt A base pay r k 128 (Nat.le_refl _) r.isLt

section Test
variable [Facts]
open Facts

/-- At a numeral the recursion unfolds to the program's own nest of writes, innermost first. -/
example (A : Memref sig .tc .vmem S128x128 .f32) (base : A.view.ty.Contents (Elt F)) (pay : Nat → Vec F S128 .f32) :
    rows A base pay 3
      = View.write (Elt F) ((A.slice (Rect.unit (s := S128x128) ![2, 0] S1x128.size inb_S128x128_S1x128_2_0) (fun _ => rfl)).squeeze S128 squeezes_S1x128_S128).view
          (View.write (Elt F) ((A.slice (Rect.unit (s := S128x128) ![1, 0] S1x128.size inb_S128x128_S1x128_1_0) (fun _ => rfl)).squeeze S128 squeezes_S1x128_S128).view
            (View.write (Elt F) ((A.slice (Rect.unit (s := S128x128) ![0, 0] S1x128.size inb_S128x128_S1x128_0_0) (fun _ => rfl)).squeeze S128 squeezes_S1x128_S128).view
              base (pay 0) Finset.univ)
            (pay 1) Finset.univ)
          (pay 2) Finset.univ := rfl

end Test

end Cert.Kernel.Rows

end
-- ==== Proof.Spec.lean ====
/-
  The edge score as one function of the argument arrays.  For edge `e` and class `c`,

      score[e, c] = (∑ₖ h[src[e], k] · W[c, k]  +  ∑ₖ h[dst[e], k] · W[c, 128 + k])  +  b[c],

  the sums over the 128 feature columns: the source node's features against the first half of `W`'s row `c`, the
  destination node's against the second half, then the bias.  A node index is a 32-bit word; `row` reads it as a row of
  `h`, clamped to the last row so that the function is total (under the precondition every index is below 50000 and the
  clamp is the identity).
-/
import Idealize.ShloMosaic.PureOps.Ideal
import Idealize.ShloMosaic.Lib.ValueIdx

noncomputable section

namespace Cert.Spec

open Idealize.ShloMosaic Idealize.ShloMosaic.ValueIdx

/-- The row of `h` an index word names. -/
def row (w : BitVec 32) : Fin 50000 := ⟨min w.toNat 49999, by omega⟩

theorem row_val_of_lt {w : BitVec 32} (hw : w.toNat < 50000) : (row w).val = w.toNat := by
  show min w.toNat 49999 = w.toNat
  omega

/-- Column `k` of the first half of `W`'s 256 columns, and of the second. -/
def colL (k : Fin 128) : Fin 256 := ⟨k.val, by omega⟩
def colR (k : Fin 128) : Fin 256 := ⟨128 + k.val, by omega⟩

/-- The score of edge `e` for class `c`. -/
def scoreAt (h : (⟨2, ![50000, 128]⟩ : Shape).Idx → EReal) (W : (⟨2, ![2, 256]⟩ : Shape).Idx → EReal)
    (b : (⟨1, ![2]⟩ : Shape).Idx → EReal) (src dst : (⟨1, ![600000]⟩ : Shape).Idx → BitVec 32)
    (e : Fin 600000) (c : Fin 2) : EReal :=
  (∑ k : Fin 128, h (ix2 (row (src (ix1 e))) k) * W (ix2 c (colL k))
    + ∑ k : Fin 128, h (ix2 (row (dst (ix1 e))) k) * W (ix2 c (colR k)))
  + b (ix1 c)

/-- All scores, as the contents of a `[600000, 2]` array. -/
def score (h : (⟨2, ![50000, 128]⟩ : Shape).Idx → EReal) (W : (⟨2, ![2, 256]⟩ : Shape).Idx → EReal)
    (b : (⟨1, ![2]⟩ : Shape).Idx → EReal) (src dst : (⟨1, ![600000]⟩ : Shape).Idx → BitVec 32) :
    (⟨2, ![600000, 2]⟩ : Shape).Idx → EReal :=
  fun i => scoreAt h W b src dst (i 0) (i 1)

theorem score_apply (h : (⟨2, ![50000, 128]⟩ : Shape).Idx → EReal) (W : (⟨2, ![2, 256]⟩ : Shape).Idx → EReal)
    (b : (⟨1, ![2]⟩ : Shape).Idx → EReal) (src dst : (⟨1, ![600000]⟩ : Shape).Idx → BitVec 32) (e : Fin 600000) (c : Fin 2) :
    score h W b src dst (ix2 e c) = scoreAt h W b src dst e c := rfl

end Cert.Spec

end
-- ==== Proof.KernelGather.lean ====
/-
  The source side of the row copies.  For lane `n` of its tile the body reads the index word `w` at `(0, 0, n)` of the
  tile's block of 128 index words, and copies row `w` of the feature array `h` [50000, 128], seen as a vector of 128
  entries (the one-row rectangle at `(w, 0)` with its unit axis dropped), into a scratch row.  The word read at lane `r`
  is entry `(0, 0, r)` of the block; entry `k` of the vector copied is `h[w, k]`.
-/
import proofs.«120289_j75213467287860_1_alg».proof.Proof.Gen.Kernel.Frame.Runs
import proofs.«120289_j75213467287860_1_alg».proof.Proof.Spec
import Idealize.ShloMosaic.Lib.ValueIdx
import Idealize.ShloMosaic.Lib.Pipeline.Value

noncomputable section

namespace Cert.Kernel.Gather

open Cert.Kernel Cert.Kernel.Gen
open Idealize.ShloMosaic Idealize.ShloMosaic.TcCoe Idealize.SL.Sem Idealize.ShloMosaic.ValueIdx

variable {F : FTy → Type} [FloatOps F]

/-! ## The index word at a lane -/

/-- The one-word rectangle at lane `min n 127` is inside the [1, 1, 128] block (the clamp makes it so for every `n`; at
    `n ≤ 127` the lane is `n`). -/
theorem wordInb (n : Nat) : ∀ a, (![0, 0, min n 127] : Fin 3 → Nat) a + S1x1x1.size a ≤ S1x1x128.size a := by
  intro a
  fin_cases a
  · show 0 + 1 ≤ 1
    omega
  · show 0 + 1 ≤ 1
    omega
  · show min n 127 + 1 ≤ 128
    omega

/-- The word a load of one element at `(0, 0, n)` reads from the block held at the contents that read `x`. -/
def word (A1 : Memref sig .tc .smem S1x1x128 .i32) (h1 : A1.IsWhole) (x : Vec F S1x1x128 .i32) (n : Nat) : BitVec 32 :=
  A1.view.readAt (Elt F) (Rect.unit (s := S1x1x128) ![0, 0, min n 127] S1x1x1.size (wordInb n)).toLoadRect (h1.unread x)
    (Shape.Idx.first (numel1_S1x1x1.symm ▸ Nat.one_pos))

/-- Every coordinate of an index of the one-element block is zero. -/
theorem unit_idx_val (j : S1x1x1.Idx) (a : Fin 3) : (j a).val = 0 := by
  have := (j a).isLt
  have e : S1x1x1.size a = 1 := by fin_cases a <;> rfl
  omega

/-- At a lane `r` the word is entry `(0, 0, r)` of the block. -/
theorem word_eq (A1 : Memref sig .tc .smem S1x1x128 .i32) (h1 : A1.IsWhole) (x : Vec F S1x1x128 .i32) (r : Fin 128) :
    word A1 h1 x r.val = x (ix3 ⟨0, Nat.one_pos⟩ ⟨0, Nat.one_pos⟩ r) := by
  unfold word
  rw [View.readAt_apply, Memref.IsWhole.read_unread]
  refine congrArg x (funext fun a => Fin.ext ?_)
  match a with
  | ⟨0, _⟩ =>
    show 0 + 1 * (Shape.Idx.first (s := S1x1x1) _ 0).val = 0
    rw [unit_idx_val]
  | ⟨1, _⟩ =>
    show 0 + 1 * (Shape.Idx.first (s := S1x1x1) _ 1).val = 0
    rw [unit_idx_val]
  | ⟨2, _⟩ =>
    show min r.val 127 + 1 * (Shape.Idx.first (s := S1x1x1) _ 2).val = r.val
    rw [unit_idx_val]
    have := r.isLt
    omega

/-! ## The row copied -/

/-- What the copy of row `w` of `h` moves: the 128 entries the row's vector reads from the array's contents. -/
def srcPay (c : Dev nD) (fh : HbBuf0 (F := F) c hbM0_0) (w : BitVec 32)
    (hw : ∀ a, (![w.toNat, 0] : Fin 2 → Nat) a + S1x128.size a ≤ S50000x128.size a) : Vec F S128 .f32 :=
  ReadAs.same.apply (View.read (Elt F)
    (((Memref.whole main_arg0).slice (Rect.unit (s := S50000x128) ![w.toNat, 0] S1x128.size hw) (fun _ => rfl)).squeeze S128 squeezes_S1x128_S128).view fh)

/-- Entry `k` of the vector copied is `h[w, k]` (`w` a row of `h`, by the in-bounds fact). -/
theorem srcPay_apply (c : Dev nD) (fh : HbBuf0 (F := F) c hbM0_0) (w : BitVec 32)
    (hw : ∀ a, (![w.toNat, 0] : Fin 2 → Nat) a + S1x128.size a ≤ S50000x128.size a) (k : Fin 128) :
    srcPay c fh w hw (ix1 k) = (fh : S50000x128.Idx → Elt F .f32) (ix2 (Cert.Spec.row w) k) := by
  have hlt : w.toNat < 50000 := by
    have := hw 0
    change w.toNat + 1 ≤ 50000 at this
    omega
  have hq : Shape.reshapeEquiv (Shape.Squeezes.numel_eq squeezes_S1x128_S128) (ix1 k) = (ix2 ⟨0, Nat.one_pos⟩ k : S1x128.Idx) :=
    Shape.reshapeEquiv_eq_of_rowMajor _ (by
      rw [Shape.rowMajor_val_two, Shape.rowMajor_val_one]
      show 0 * 128 + k.val = k.val
      omega)
  show (fh : S50000x128.Idx → Elt F .f32) ((Rect.unit (s := S50000x128) ![w.toNat, 0] S1x128.size hw).emb
      (Shape.reshapeEquiv (Shape.Squeezes.numel_eq squeezes_S1x128_S128) (ix1 k))) = _
  rw [hq]
  refine congrArg (fh : S50000x128.Idx → Elt F .f32) (funext fun a => Fin.ext ?_)
  match a with
  | ⟨0, _⟩ =>
    show w.toNat + 1 * 0 = (Cert.Spec.row w).val
    rw [Cert.Spec.row_val_of_lt hlt]
    omega
  | ⟨1, _⟩ =>
    show 0 + 1 * k.val = k.val
    omega

section Test
variable [Facts]

/-- At a numeral the word is the program's own load. -/
example (arg1 : Memref sig .tc .smem S1x1x128 .i32) (harg1 : arg1.IsWhole) (x0 : Vec F S1x1x128 .i32) :
    word arg1 harg1 x0 5
      = arg1.view.readAt (Elt F) (Rect.unit (s := S1x1x128) ![0, 0, 5] S1x1x1.size Facts₀.inb_S1x1x128_S1x1x1_0_0_5).toLoadRect (harg1.unread x0)
          (Shape.Idx.first (Facts₀.numel1_S1x1x1.symm ▸ Nat.one_pos)) := rfl

/-- And the payload is the program's own read of the row the word names. -/
example (c : Dev nD) (fh : HbBuf0 (F := F) c hbM0_0) (arg1 : Memref sig .tc .smem S1x1x128 .i32) (harg1 : arg1.IsWhole) (x0 : Vec F S1x1x128 .i32)
    (hw6 : k0_chk6 (word arg1 harg1 x0 5)) :
    srcPay c fh (word arg1 harg1 x0 5) (k0_off6_inb _ hw6)
      = ReadAs.same.apply (View.read (Elt F)
          (((Memref.whole main_arg0).slice (Rect.unit (s := S50000x128) (k0_off6 (word arg1 harg1 x0 5)) S1x128.size (k0_off6_inb (word arg1 harg1 x0 5) hw6)) (fun _ => rfl)).squeeze S128 Facts₀.squeezes_S1x128_S128).view fh) := rfl

end Test

end Cert.Kernel.Gather

end
-- ==== Proof.KernelPrefix.lean ====
/-
  What the region finds in the three arrays @main prepares before the call: the two index arrays, each the input's
  600000 words followed by 64 zero words and re-laid as 4688 tiles of 128, and the bias re-laid as one row.  Tile `t`,
  lane `k` of a re-laid index array is word `128 t + k` of the input when that is below 600000, and zero in the padding.
-/
import proofs.«120289_j75213467287860_1_alg».proof.Proof.Gen.Kernel.Frame.Runs
import Idealize.ShloMosaic.Lib.ValueIdx
import Idealize.ShloMosaic.Lib.Pipeline.Value
import Idealize.ShloMosaic.Lib.StableHlo.Run

noncomputable section

namespace Cert.Kernel.Prefix

open Cert.Kernel Cert.Kernel.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- A padded and re-laid index array read at tile `t`, lane `k`, below the input's length: the input's word. -/
theorem relaid_left (x : S600000.Idx → BitVec 32) (z : S64.Idx → BitVec 32) (t : Fin 4688) (k : Fin 128)
    (h : t.val * 128 + k.val < 600000) :
    shapeCast S4688x1x128 (concatenate S600064 0 [⟨S600000, x⟩, ⟨S64, z⟩] concatenates_S600000_S64_S600064_d0)
        shapeCasts_S600064_S4688x1x128 (ix3 t ⟨0, Nat.one_pos⟩ k) = x (ix1 ⟨t.val * 128 + k.val, h⟩) := by
  have hp : t.val * 128 + k.val < 600064 := by omega
  refine (shapeCast_apply _ shapeCasts_S600064_S4688x1x128 (ix3 t ⟨0, Nat.one_pos⟩ k) (ix1 ⟨t.val * 128 + k.val, hp⟩) ?_).trans ?_
  · rw [Shape.rowMajor_val_one, Shape.rowMajor_val_three]
    show t.val * 128 + k.val = (t.val * 1 + 0) * 128 + k.val
    omega
  · exact concatenate_pair_apply_left (0 : Fin 1) x z concatenates_S600000_S64_S600064_d0 (ix1 ⟨t.val * 128 + k.val, hp⟩) rfl
      (ix1 ⟨t.val * 128 + k.val, h⟩) (fun b => by fin_cases b; rfl)

/-- The same past the input's length: the padding's word. -/
theorem relaid_right (x : S600000.Idx → BitVec 32) (z : S64.Idx → BitVec 32) (t : Fin 4688) (k : Fin 128)
    (h : 600000 ≤ t.val * 128 + k.val) :
    shapeCast S4688x1x128 (concatenate S600064 0 [⟨S600000, x⟩, ⟨S64, z⟩] concatenates_S600000_S64_S600064_d0)
        shapeCasts_S600064_S4688x1x128 (ix3 t ⟨0, Nat.one_pos⟩ k)
      = z (ix1 ⟨t.val * 128 + k.val - 600000, by have := t.isLt; have := k.isLt; omega⟩) := by
  have hp : t.val * 128 + k.val < 600064 := by have := t.isLt; have := k.isLt; omega
  refine (shapeCast_apply _ shapeCasts_S600064_S4688x1x128 (ix3 t ⟨0, Nat.one_pos⟩ k) (ix1 ⟨t.val * 128 + k.val, hp⟩) ?_).trans ?_
  · rw [Shape.rowMajor_val_one, Shape.rowMajor_val_three]
    show t.val * 128 + k.val = (t.val * 1 + 0) * 128 + k.val
    omega
  · refine concatenate_pair_apply_right (0 : Fin 1) x z concatenates_S600000_S64_S600064_d0 (ix1 ⟨t.val * 128 + k.val, hp⟩) rfl rfl
      (ix1 ⟨t.val * 128 + k.val - 600000, by omega⟩) (fun b hb => by fin_cases b; exact absurd rfl hb) ?_
    show t.val * 128 + k.val - 600000 + 600000 = t.val * 128 + k.val
    omega

/-- What the region finds in the re-laid source indices, as the host operations' term. -/
theorem src3_eq (c : Dev nD) :
    (V m c main_v2 : S4688x1x128.Idx → BitVec 32)
      = shapeCast S4688x1x128 (concatenate S600064 0 [⟨S600000, m ((c.tc : Thread nD τ).loc main_arg3)⟩,
          ⟨S64, broadcastInDim S64 ![] bcast_S_S64 (constantI S_ 32 0#32)⟩] concatenates_S600000_S64_S600064_d0) shapeCasts_S600064_S4688x1x128 := by
  show StableHlo.after hostOps0 (fun b => m (c, b)) (Proc.devRef .tc main_v2) = _
  after_results
  rfl

/-- The same for the destination indices. -/
theorem dst3_eq (c : Dev nD) :
    (V m c main_v5 : S4688x1x128.Idx → BitVec 32)
      = shapeCast S4688x1x128 (concatenate S600064 0 [⟨S600000, m ((c.tc : Thread nD τ).loc main_arg4)⟩,
          ⟨S64, broadcastInDim S64 ![] bcast_S_S64 (constantI S_ 32 0#32)⟩] concatenates_S600000_S64_S600064_d0) shapeCasts_S600064_S4688x1x128 := by
  show StableHlo.after hostOps0 (fun b => m (c, b)) (Proc.devRef .tc main_v5) = _
  after_results
  rfl

/-- The bias re-laid as one row. -/
theorem bias_eq (c : Dev nD) :
    (V m c main_v6 : S1x2.Idx → Elt F .f32) = shapeCast S1x2 (m ((c.tc : Thread nD τ).loc main_arg2)) shapeCasts_S2_S1x2 := by
  show StableHlo.after hostOps0 (fun b => m (c, b)) (Proc.devRef .tc main_v6) = _
  after_results
  rfl

/-- Tile `t`, lane `k` of the re-laid source indices is source word `128 t + k`, -/
theorem src3_apply (c : Dev nD) (t : Fin 4688) (k : Fin 128) (h : t.val * 128 + k.val < 600000) :
    V m c main_v2 (ix3 t ⟨0, Nat.one_pos⟩ k) = m ((c.tc : Thread nD τ).loc main_arg3) (ix1 ⟨t.val * 128 + k.val, h⟩) :=
  (congrFun (src3_eq m c) (ix3 t ⟨0, Nat.one_pos⟩ k)).trans (relaid_left _ _ t k h)

/-- and zero in the padding of the last tile. -/
theorem src3_pad (c : Dev nD) (t : Fin 4688) (k : Fin 128) (h : 600000 ≤ t.val * 128 + k.val) :
    V m c main_v2 (ix3 t ⟨0, Nat.one_pos⟩ k) = 0#32 :=
  (congrFun (src3_eq m c) (ix3 t ⟨0, Nat.one_pos⟩ k)).trans (relaid_right _ _ t k h)

/-- The same for the destination indices. -/
theorem dst3_apply (c : Dev nD) (t : Fin 4688) (k : Fin 128) (h : t.val * 128 + k.val < 600000) :
    V m c main_v5 (ix3 t ⟨0, Nat.one_pos⟩ k) = m ((c.tc : Thread nD τ).loc main_arg4) (ix1 ⟨t.val * 128 + k.val, h⟩) :=
  (congrFun (dst3_eq m c) (ix3 t ⟨0, Nat.one_pos⟩ k)).trans (relaid_left _ _ t k h)

theorem dst3_pad (c : Dev nD) (t : Fin 4688) (k : Fin 128) (h : 600000 ≤ t.val * 128 + k.val) :
    V m c main_v5 (ix3 t ⟨0, Nat.one_pos⟩ k) = 0#32 :=
  (congrFun (dst3_eq m c) (ix3 t ⟨0, Nat.one_pos⟩ k)).trans (relaid_right _ _ t k h)

/-- The bias as one row: entry `(0, j)` is `b[j]`. -/
theorem bias_apply (c : Dev nD) (j : Fin 2) :
    V m c main_v6 (ix2 ⟨0, Nat.one_pos⟩ j) = m ((c.tc : Thread nD τ).loc main_arg2) (ix1 j) := by
  refine (congrFun (bias_eq m c) (ix2 ⟨0, Nat.one_pos⟩ j)).trans ?_
  refine shapeCast_apply _ shapeCasts_S2_S1x2 (ix2 ⟨0, Nat.one_pos⟩ j) (ix1 j) ?_
  rw [Shape.rowMajor_val_one, Shape.rowMajor_val_two]
  show j.val = 0 * 2 + j.val
  omega

end Cert.Kernel.Prefix

end
-- ==== Proof.KernelHyps.lean ====
/-
  The side conditions the kernel body assumes hold when every node index is a row of `h`.  At grid point `t` the body
  reads lane `k` of the point's tile of source (and destination) indices from SMEM and copies row `index` of `h`; it
  assumes the row inside `h`: `index + 1 ≤ 50000` (and `0 + 128 ≤ 128` on the column axis).  The word it reads is word
  `128 t + k` of the input, or a padding zero, and both are below 50000.
-/
import proofs.«120289_j75213467287860_1_alg».proof.Proof.KernelPrefix

set_option maxRecDepth 16384

noncomputable section

namespace Cert.Kernel.HypsOfIdx

open Cert.Kernel Cert.Kernel.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The index maps of the two index windows at point `t`: tile `t`, from its start. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Lane `k` of window 0's block at point `t` is tile `t`, lane `k` of the re-laid source indices. -/
theorem iblk0_apply (c : Dev nD) (t : Fin cfg0.N) (x : S1x1x128.Idx) (k : Fin 128) (hx : (x 2).val = k.val) :
    (iblk m c 0 t : S1x1x128.Idx → BitVec 32) x = V m c main_v2 (ix3 (Fin.cast N_0 t) ⟨0, Nat.one_pos⟩ k) := by
  obtain ⟨h0, h1, h2⟩ := index0 t
  have hx0 : (x 0).val = 0 := by have := (x 0).isLt; have e : S1x1x128.size 0 = 1 := rfl; omega
  have hx1 : (x 1).val = 0 := by have := (x 1).isLt; have e : S1x1x128.size 1 = 1 := rfl; omega
  unfold iblk
  rw [View.read_apply]
  show V m c main_v2 _ = V m c main_v2 _
  congr 1
  funext a
  apply Fin.ext
  match a with
  | ⟨0, _⟩ => show win0_0.index t 0 * 1 + 1 * (x 0).val = t.val; rw [h0, hx0]; omega
  | ⟨1, _⟩ => show win0_0.index t 1 * 1 + 1 * (x 1).val = 0; rw [h1, hx1]
  | ⟨2, _⟩ => show win0_0.index t 2 * 128 + 1 * (x 2).val = k.val; rw [h2, hx]; omega

/-- Row `w` of `h`, one row high from column 0, lies inside `h` when `w` is below 50000. -/
theorem chk (w : BitVec 32) (hw : w.toNat < 50000) :
    ∀ a, (![w.toNat, 0] : Fin 2 → Nat) a + S1x128.size a ≤ S50000x128.size a := by
  intro a
  fin_cases a
  · show w.toNat + 1 ≤ 50000
    omega
  · show 0 + 128 ≤ 128
    omega

/-- Every word of the re-laid source indices is below 50000: an input word, or a padding zero. -/
theorem src_lt (hsrc : ∀ (c : Dev nD) (e : Fin 600000), (m ((c.tc : Thread nD τ).loc main_arg3) (ix1 e)).toNat < 50000)
    (c : Dev nD) (t : Fin 4688) (k : Fin 128) : (V m c main_v2 (ix3 t ⟨0, Nat.one_pos⟩ k)).toNat < 50000 := by
  by_cases h : t.val * 128 + k.val < 600000
  · exact (congrArg BitVec.toNat (Prefix.src3_apply m c t k h)).trans_lt (hsrc c _)
  · exact (congrArg BitVec.toNat (Prefix.src3_pad m c t k (by omega))).trans_lt (by decide)

/-- The one index of a one-element block is all zeros. -/
theorem first_val (h1 : 0 < S1x1x1.numel) (a : Fin 3) : (Shape.Idx.first h1 a).val = 0 := by
  have := (Shape.Idx.first h1 a).isLt
  have e : S1x1x1.size a = 1 := by fin_cases a <;> rfl
  omega

/-- The word the body reads at lane `k` of its source-index block is tile `t`, lane `k` of the re-laid source indices. -/
theorem word0 (c : Dev nD) (t : Fin cfg0.N) (k : Fin 128) (off : Fin 3 → Nat) (hoff : off = ![0, 0, k.val])
    (inb : ∀ a, off a + S1x1x1.size a ≤ S1x1x128.size a) (h1 : 0 < S1x1x1.numel) :
    (ms0_0 t).view.readAt (Elt F) (Rect.unit (s := S1x1x128) off S1x1x1.size inb).toLoadRect ((hs0_0 t).unread (iblk m c 0 t)) (Shape.Idx.first h1)
      = V m c main_v2 (ix3 (Fin.cast N_0 t) ⟨0, Nat.one_pos⟩ k) := by
  subst hoff
  rw [View.readAt_apply, Memref.IsWhole.read_unread]
  refine iblk0_apply m c t _ k ?_
  show k.val + 1 * (Shape.Idx.first h1 2).val = k.val
  rw [first_val h1 2]
  omega

/-- Lane `k` of window 1's block at point `t` is tile `t`, lane `k` of the re-laid destination indices. -/
theorem iblk1_apply (c : Dev nD) (t : Fin cfg0.N) (x : S1x1x128.Idx) (k : Fin 128) (hx : (x 2).val = k.val) :
    (iblk m c 1 t : S1x1x128.Idx → BitVec 32) x = V m c main_v5 (ix3 (Fin.cast N_0 t) ⟨0, Nat.one_pos⟩ k) := by
  obtain ⟨h0, h1, h2⟩ := index1 t
  have hx0 : (x 0).val = 0 := by have := (x 0).isLt; have e : S1x1x128.size 0 = 1 := rfl; omega
  have hx1 : (x 1).val = 0 := by have := (x 1).isLt; have e : S1x1x128.size 1 = 1 := rfl; omega
  unfold iblk
  rw [View.read_apply]
  show V m c main_v5 _ = V m c main_v5 _
  congr 1
  funext a
  apply Fin.ext
  match a with
  | ⟨0, _⟩ => show win0_1.index t 0 * 1 + 1 * (x 0).val = t.val; rw [h0, hx0]; omega
  | ⟨1, _⟩ => show win0_1.index t 1 * 1 + 1 * (x 1).val = 0; rw [h1, hx1]
  | ⟨2, _⟩ => show win0_1.index t 2 * 128 + 1 * (x 2).val = k.val; rw [h2, hx]; omega

/-- The word the body reads at lane `k` of its destination-index block. -/
theorem word1 (c : Dev nD) (t : Fin cfg0.N) (k : Fin 128) (off : Fin 3 → Nat) (hoff : off = ![0, 0, k.val])
    (inb : ∀ a, off a + S1x1x1.size a ≤ S1x1x128.size a) (h1 : 0 < S1x1x1.numel) :
    (ms0_1 t).view.readAt (Elt F) (Rect.unit (s := S1x1x128) off S1x1x1.size inb).toLoadRect ((hs0_1 t).unread (iblk m c 1 t)) (Shape.Idx.first h1)
      = V m c main_v5 (ix3 (Fin.cast N_0 t) ⟨0, Nat.one_pos⟩ k) := by
  subst hoff
  rw [View.readAt_apply, Memref.IsWhole.read_unread]
  refine iblk1_apply m c t _ k ?_
  show k.val + 1 * (Shape.Idx.first h1 2).val = k.val
  rw [first_val h1 2]
  omega

/-- Every word of the re-laid destination indices is below 50000. -/
theorem dst_lt (hdst : ∀ (c : Dev nD) (e : Fin 600000), (m ((c.tc : Thread nD τ).loc main_arg4) (ix1 e)).toNat < 50000)
    (c : Dev nD) (t : Fin 4688) (k : Fin 128) : (V m c main_v5 (ix3 t ⟨0, Nat.one_pos⟩ k)).toNat < 50000 := by
  by_cases h : t.val * 128 + k.val < 600000
  · exact (congrArg BitVec.toNat (Prefix.dst3_apply m c t k h)).trans_lt (hdst c _)
  · exact (congrArg BitVec.toNat (Prefix.dst3_pad m c t k (by omega))).trans_lt (by decide)

/-- The side condition at lane `k` of the source block: the row it names is inside `h`. -/
theorem chk_src (hsrc : ∀ (c : Dev nD) (e : Fin 600000), (m ((c.tc : Thread nD τ).loc main_arg3) (ix1 e)).toNat < 50000)
    (c : Dev nD) (t : Fin cfg0.N) (k : Nat) (off : Fin 3 → Nat) (hoff : off = ![0, 0, k])
    (inb : ∀ a, off a + S1x1x1.size a ≤ S1x1x128.size a) (h1 : 0 < S1x1x1.numel) :
    ∀ a, (![((ms0_0 t).view.readAt (Elt F) (Rect.unit (s := S1x1x128) off S1x1x1.size inb).toLoadRect
        ((hs0_0 t).unread (iblk m c 0 t)) (Shape.Idx.first h1)).toNat, 0] : Fin 2 → Nat) a + S1x128.size a ≤ S50000x128.size a := by
  have hk : k < 128 := by
    have := inb 2
    rw [hoff] at this
    change k + 1 ≤ 128 at this
    omega
  rw [word0 m c t ⟨k, hk⟩ off hoff inb h1]
  exact chk _ (src_lt m hsrc c _ _)

/-- The same at lane `k` of the destination block. -/
theorem chk_dst (hdst : ∀ (c : Dev nD) (e : Fin 600000), (m ((c.tc : Thread nD τ).loc main_arg4) (ix1 e)).toNat < 50000)
    (c : Dev nD) (t : Fin cfg0.N) (k : Nat) (off : Fin 3 → Nat) (hoff : off = ![0, 0, k])
    (inb : ∀ a, off a + S1x1x1.size a ≤ S1x1x128.size a) (h1 : 0 < S1x1x1.numel) :
    ∀ a, (![((ms0_1 t).view.readAt (Elt F) (Rect.unit (s := S1x1x128) off S1x1x1.size inb).toLoadRect
        ((hs0_1 t).unread (iblk m c 1 t)) (Shape.Idx.first h1)).toNat, 0] : Fin 2 → Nat) a + S1x128.size a ≤ S50000x128.size a := by
  have hk : k < 128 := by
    have := inb 2
    rw [hoff] at this
    change k + 1 ≤ 128 at this
    omega
  rw [word1 m c t ⟨k, hk⟩ off hoff inb h1]
  exact chk _ (dst_lt m hdst c _ _)

/-- Every assumed side condition, at every grid point, from the two index ranges. -/
theorem hyps_of_idx
    (hsrc : ∀ (c : Dev nD) (e : Fin 600000), (m ((c.tc : Thread nD τ).loc main_arg3) (ix1 e)).toNat < 50000)
    (hdst : ∀ (c : Dev nD) (e : Fin 600000), (m ((c.tc : Thread nD τ).loc main_arg4) (ix1 e)).toNat < 50000) :
    Hyps m := by
  intro c t
  and_intros
  iterate 128 exact chk_src m hsrc c t _ _ rfl _ _
  all_goals exact chk_dst m hdst c t _ _ rfl _ _

end Cert.Kernel.HypsOfIdx

end
-- ==== Proof.KernelIdealPrefix.lean ====
/-
  What the region finds in the three arrays @main prepares before the call: the two index arrays, each the input's
  600000 words followed by 64 zero words and re-laid as 4688 tiles of 128, and the bias re-laid as one row.  Tile `t`,
  lane `k` of a re-laid index array is word `128 t + k` of the input when that is below 600000, and zero in the padding.
-/
import proofs.«120289_j75213467287860_1_alg».proof.Proof.Gen.KernelIdeal.Frame.Runs
import Idealize.ShloMosaic.Lib.ValueIdx
import Idealize.ShloMosaic.Lib.Pipeline.Value
import Idealize.ShloMosaic.Lib.StableHlo.Run

noncomputable section

namespace Cert.KernelIdeal.Prefix

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- A padded and re-laid index array read at tile `t`, lane `k`, below the input's length: the input's word. -/
theorem relaid_left (x : S600000.Idx → BitVec 32) (z : S64.Idx → BitVec 32) (t : Fin 4688) (k : Fin 128)
    (h : t.val * 128 + k.val < 600000) :
    shapeCast S4688x1x128 (concatenate S600064 0 [⟨S600000, x⟩, ⟨S64, z⟩] concatenates_S600000_S64_S600064_d0)
        shapeCasts_S600064_S4688x1x128 (ix3 t ⟨0, Nat.one_pos⟩ k) = x (ix1 ⟨t.val * 128 + k.val, h⟩) := by
  have hp : t.val * 128 + k.val < 600064 := by omega
  refine (shapeCast_apply _ shapeCasts_S600064_S4688x1x128 (ix3 t ⟨0, Nat.one_pos⟩ k) (ix1 ⟨t.val * 128 + k.val, hp⟩) ?_).trans ?_
  · rw [Shape.rowMajor_val_one, Shape.rowMajor_val_three]
    show t.val * 128 + k.val = (t.val * 1 + 0) * 128 + k.val
    omega
  · exact concatenate_pair_apply_left (0 : Fin 1) x z concatenates_S600000_S64_S600064_d0 (ix1 ⟨t.val * 128 + k.val, hp⟩) rfl
      (ix1 ⟨t.val * 128 + k.val, h⟩) (fun b => by fin_cases b; rfl)

/-- The same past the input's length: the padding's word. -/
theorem relaid_right (x : S600000.Idx → BitVec 32) (z : S64.Idx → BitVec 32) (t : Fin 4688) (k : Fin 128)
    (h : 600000 ≤ t.val * 128 + k.val) :
    shapeCast S4688x1x128 (concatenate S600064 0 [⟨S600000, x⟩, ⟨S64, z⟩] concatenates_S600000_S64_S600064_d0)
        shapeCasts_S600064_S4688x1x128 (ix3 t ⟨0, Nat.one_pos⟩ k)
      = z (ix1 ⟨t.val * 128 + k.val - 600000, by have := t.isLt; have := k.isLt; omega⟩) := by
  have hp : t.val * 128 + k.val < 600064 := by have := t.isLt; have := k.isLt; omega
  refine (shapeCast_apply _ shapeCasts_S600064_S4688x1x128 (ix3 t ⟨0, Nat.one_pos⟩ k) (ix1 ⟨t.val * 128 + k.val, hp⟩) ?_).trans ?_
  · rw [Shape.rowMajor_val_one, Shape.rowMajor_val_three]
    show t.val * 128 + k.val = (t.val * 1 + 0) * 128 + k.val
    omega
  · refine concatenate_pair_apply_right (0 : Fin 1) x z concatenates_S600000_S64_S600064_d0 (ix1 ⟨t.val * 128 + k.val, hp⟩) rfl rfl
      (ix1 ⟨t.val * 128 + k.val - 600000, by omega⟩) (fun b hb => by fin_cases b; exact absurd rfl hb) ?_
    show t.val * 128 + k.val - 600000 + 600000 = t.val * 128 + k.val
    omega

/-- What the region finds in the re-laid source indices, as the host operations' term. -/
theorem src3_eq (c : Dev nD) :
    (V m c main_v2 : S4688x1x128.Idx → BitVec 32)
      = shapeCast S4688x1x128 (concatenate S600064 0 [⟨S600000, m ((c.tc : Thread nD τ).loc main_arg3)⟩,
          ⟨S64, broadcastInDim S64 ![] bcast_S_S64 (constantI S_ 32 0#32)⟩] concatenates_S600000_S64_S600064_d0) shapeCasts_S600064_S4688x1x128 := by
  show StableHlo.after hostOps0 (fun b => m (c, b)) (Proc.devRef .tc main_v2) = _
  after_results
  rfl

/-- The same for the destination indices. -/
theorem dst3_eq (c : Dev nD) :
    (V m c main_v5 : S4688x1x128.Idx → BitVec 32)
      = shapeCast S4688x1x128 (concatenate S600064 0 [⟨S600000, m ((c.tc : Thread nD τ).loc main_arg4)⟩,
          ⟨S64, broadcastInDim S64 ![] bcast_S_S64 (constantI S_ 32 0#32)⟩] concatenates_S600000_S64_S600064_d0) shapeCasts_S600064_S4688x1x128 := by
  show StableHlo.after hostOps0 (fun b => m (c, b)) (Proc.devRef .tc main_v5) = _
  after_results
  rfl

/-- The bias re-laid as one row. -/
theorem bias_eq (c : Dev nD) :
    (V m c main_v6 : S1x2.Idx → Elt F .f32) = shapeCast S1x2 (m ((c.tc : Thread nD τ).loc main_arg2)) shapeCasts_S2_S1x2 := by
  show StableHlo.after hostOps0 (fun b => m (c, b)) (Proc.devRef .tc main_v6) = _
  after_results
  rfl

/-- Tile `t`, lane `k` of the re-laid source indices is source word `128 t + k`, -/
theorem src3_apply (c : Dev nD) (t : Fin 4688) (k : Fin 128) (h : t.val * 128 + k.val < 600000) :
    V m c main_v2 (ix3 t ⟨0, Nat.one_pos⟩ k) = m ((c.tc : Thread nD τ).loc main_arg3) (ix1 ⟨t.val * 128 + k.val, h⟩) :=
  (congrFun (src3_eq m c) (ix3 t ⟨0, Nat.one_pos⟩ k)).trans (relaid_left _ _ t k h)

/-- and zero in the padding of the last tile. -/
theorem src3_pad (c : Dev nD) (t : Fin 4688) (k : Fin 128) (h : 600000 ≤ t.val * 128 + k.val) :
    V m c main_v2 (ix3 t ⟨0, Nat.one_pos⟩ k) = 0#32 :=
  (congrFun (src3_eq m c) (ix3 t ⟨0, Nat.one_pos⟩ k)).trans (relaid_right _ _ t k h)

/-- The same for the destination indices. -/
theorem dst3_apply (c : Dev nD) (t : Fin 4688) (k : Fin 128) (h : t.val * 128 + k.val < 600000) :
    V m c main_v5 (ix3 t ⟨0, Nat.one_pos⟩ k) = m ((c.tc : Thread nD τ).loc main_arg4) (ix1 ⟨t.val * 128 + k.val, h⟩) :=
  (congrFun (dst3_eq m c) (ix3 t ⟨0, Nat.one_pos⟩ k)).trans (relaid_left _ _ t k h)

theorem dst3_pad (c : Dev nD) (t : Fin 4688) (k : Fin 128) (h : 600000 ≤ t.val * 128 + k.val) :
    V m c main_v5 (ix3 t ⟨0, Nat.one_pos⟩ k) = 0#32 :=
  (congrFun (dst3_eq m c) (ix3 t ⟨0, Nat.one_pos⟩ k)).trans (relaid_right _ _ t k h)

/-- The bias as one row: entry `(0, j)` is `b[j]`. -/
theorem bias_apply (c : Dev nD) (j : Fin 2) :
    V m c main_v6 (ix2 ⟨0, Nat.one_pos⟩ j) = m ((c.tc : Thread nD τ).loc main_arg2) (ix1 j) := by
  refine (congrFun (bias_eq m c) (ix2 ⟨0, Nat.one_pos⟩ j)).trans ?_
  refine shapeCast_apply _ shapeCasts_S2_S1x2 (ix2 ⟨0, Nat.one_pos⟩ j) (ix1 j) ?_
  rw [Shape.rowMajor_val_one, Shape.rowMajor_val_two]
  show j.val = 0 * 2 + j.val
  omega

end Cert.KernelIdeal.Prefix

end
-- ==== Proof.KernelIdealHyps.lean ====
/-
  The side conditions the kernel body assumes hold when every node index is a row of `h`.  At grid point `t` the body
  reads lane `k` of the point's tile of source (and destination) indices from SMEM and copies row `index` of `h`; it
  assumes the row inside `h`: `index + 1 ≤ 50000` (and `0 + 128 ≤ 128` on the column axis).  The word it reads is word
  `128 t + k` of the input, or a padding zero, and both are below 50000.
-/
import proofs.«120289_j75213467287860_1_alg».proof.Proof.KernelIdealPrefix

set_option maxRecDepth 16384

noncomputable section

namespace Cert.KernelIdeal.HypsOfIdx

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The index maps of the two index windows at point `t`: tile `t`, from its start. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Lane `k` of window 0's block at point `t` is tile `t`, lane `k` of the re-laid source indices. -/
theorem iblk0_apply (c : Dev nD) (t : Fin cfg0.N) (x : S1x1x128.Idx) (k : Fin 128) (hx : (x 2).val = k.val) :
    (iblk m c 0 t : S1x1x128.Idx → BitVec 32) x = V m c main_v2 (ix3 (Fin.cast N_0 t) ⟨0, Nat.one_pos⟩ k) := by
  obtain ⟨h0, h1, h2⟩ := index0 t
  have hx0 : (x 0).val = 0 := by have := (x 0).isLt; have e : S1x1x128.size 0 = 1 := rfl; omega
  have hx1 : (x 1).val = 0 := by have := (x 1).isLt; have e : S1x1x128.size 1 = 1 := rfl; omega
  unfold iblk
  rw [View.read_apply]
  show V m c main_v2 _ = V m c main_v2 _
  congr 1
  funext a
  apply Fin.ext
  match a with
  | ⟨0, _⟩ => show win0_0.index t 0 * 1 + 1 * (x 0).val = t.val; rw [h0, hx0]; omega
  | ⟨1, _⟩ => show win0_0.index t 1 * 1 + 1 * (x 1).val = 0; rw [h1, hx1]
  | ⟨2, _⟩ => show win0_0.index t 2 * 128 + 1 * (x 2).val = k.val; rw [h2, hx]; omega

/-- Row `w` of `h`, one row high from column 0, lies inside `h` when `w` is below 50000. -/
theorem chk (w : BitVec 32) (hw : w.toNat < 50000) :
    ∀ a, (![w.toNat, 0] : Fin 2 → Nat) a + S1x128.size a ≤ S50000x128.size a := by
  intro a
  fin_cases a
  · show w.toNat + 1 ≤ 50000
    omega
  · show 0 + 128 ≤ 128
    omega

/-- Every word of the re-laid source indices is below 50000: an input word, or a padding zero. -/
theorem src_lt (hsrc : ∀ (c : Dev nD) (e : Fin 600000), (m ((c.tc : Thread nD τ).loc main_arg3) (ix1 e)).toNat < 50000)
    (c : Dev nD) (t : Fin 4688) (k : Fin 128) : (V m c main_v2 (ix3 t ⟨0, Nat.one_pos⟩ k)).toNat < 50000 := by
  by_cases h : t.val * 128 + k.val < 600000
  · exact (congrArg BitVec.toNat (Prefix.src3_apply m c t k h)).trans_lt (hsrc c _)
  · exact (congrArg BitVec.toNat (Prefix.src3_pad m c t k (by omega))).trans_lt (by decide)

/-- The one index of a one-element block is all zeros. -/
theorem first_val (h1 : 0 < S1x1x1.numel) (a : Fin 3) : (Shape.Idx.first h1 a).val = 0 := by
  have := (Shape.Idx.first h1 a).isLt
  have e : S1x1x1.size a = 1 := by fin_cases a <;> rfl
  omega

/-- The word the body reads at lane `k` of its source-index block is tile `t`, lane `k` of the re-laid source indices. -/
theorem word0 (c : Dev nD) (t : Fin cfg0.N) (k : Fin 128) (off : Fin 3 → Nat) (hoff : off = ![0, 0, k.val])
    (inb : ∀ a, off a + S1x1x1.size a ≤ S1x1x128.size a) (h1 : 0 < S1x1x1.numel) :
    (ms0_0 t).view.readAt (Elt F) (Rect.unit (s := S1x1x128) off S1x1x1.size inb).toLoadRect ((hs0_0 t).unread (iblk m c 0 t)) (Shape.Idx.first h1)
      = V m c main_v2 (ix3 (Fin.cast N_0 t) ⟨0, Nat.one_pos⟩ k) := by
  subst hoff
  rw [View.readAt_apply, Memref.IsWhole.read_unread]
  refine iblk0_apply m c t _ k ?_
  show k.val + 1 * (Shape.Idx.first h1 2).val = k.val
  rw [first_val h1 2]
  omega

/-- Lane `k` of window 1's block at point `t` is tile `t`, lane `k` of the re-laid destination indices. -/
theorem iblk1_apply (c : Dev nD) (t : Fin cfg0.N) (x : S1x1x128.Idx) (k : Fin 128) (hx : (x 2).val = k.val) :
    (iblk m c 1 t : S1x1x128.Idx → BitVec 32) x = V m c main_v5 (ix3 (Fin.cast N_0 t) ⟨0, Nat.one_pos⟩ k) := by
  obtain ⟨h0, h1, h2⟩ := index1 t
  have hx0 : (x 0).val = 0 := by have := (x 0).isLt; have e : S1x1x128.size 0 = 1 := rfl; omega
  have hx1 : (x 1).val = 0 := by have := (x 1).isLt; have e : S1x1x128.size 1 = 1 := rfl; omega
  unfold iblk
  rw [View.read_apply]
  show V m c main_v5 _ = V m c main_v5 _
  congr 1
  funext a
  apply Fin.ext
  match a with
  | ⟨0, _⟩ => show win0_1.index t 0 * 1 + 1 * (x 0).val = t.val; rw [h0, hx0]; omega
  | ⟨1, _⟩ => show win0_1.index t 1 * 1 + 1 * (x 1).val = 0; rw [h1, hx1]
  | ⟨2, _⟩ => show win0_1.index t 2 * 128 + 1 * (x 2).val = k.val; rw [h2, hx]; omega

/-- The word the body reads at lane `k` of its destination-index block. -/
theorem word1 (c : Dev nD) (t : Fin cfg0.N) (k : Fin 128) (off : Fin 3 → Nat) (hoff : off = ![0, 0, k.val])
    (inb : ∀ a, off a + S1x1x1.size a ≤ S1x1x128.size a) (h1 : 0 < S1x1x1.numel) :
    (ms0_1 t).view.readAt (Elt F) (Rect.unit (s := S1x1x128) off S1x1x1.size inb).toLoadRect ((hs0_1 t).unread (iblk m c 1 t)) (Shape.Idx.first h1)
      = V m c main_v5 (ix3 (Fin.cast N_0 t) ⟨0, Nat.one_pos⟩ k) := by
  subst hoff
  rw [View.readAt_apply, Memref.IsWhole.read_unread]
  refine iblk1_apply m c t _ k ?_
  show k.val + 1 * (Shape.Idx.first h1 2).val = k.val
  rw [first_val h1 2]
  omega

/-- Every word of the re-laid destination indices is below 50000. -/
theorem dst_lt (hdst : ∀ (c : Dev nD) (e : Fin 600000), (m ((c.tc : Thread nD τ).loc main_arg4) (ix1 e)).toNat < 50000)
    (c : Dev nD) (t : Fin 4688) (k : Fin 128) : (V m c main_v5 (ix3 t ⟨0, Nat.one_pos⟩ k)).toNat < 50000 := by
  by_cases h : t.val * 128 + k.val < 600000
  · exact (congrArg BitVec.toNat (Prefix.dst3_apply m c t k h)).trans_lt (hdst c _)
  · exact (congrArg BitVec.toNat (Prefix.dst3_pad m c t k (by omega))).trans_lt (by decide)

/-- The side condition at lane `k` of the source block: the row it names is inside `h`. -/
theorem chk_src (hsrc : ∀ (c : Dev nD) (e : Fin 600000), (m ((c.tc : Thread nD τ).loc main_arg3) (ix1 e)).toNat < 50000)
    (c : Dev nD) (t : Fin cfg0.N) (k : Nat) (off : Fin 3 → Nat) (hoff : off = ![0, 0, k])
    (inb : ∀ a, off a + S1x1x1.size a ≤ S1x1x128.size a) (h1 : 0 < S1x1x1.numel) :
    ∀ a, (![((ms0_0 t).view.readAt (Elt F) (Rect.unit (s := S1x1x128) off S1x1x1.size inb).toLoadRect
        ((hs0_0 t).unread (iblk m c 0 t)) (Shape.Idx.first h1)).toNat, 0] : Fin 2 → Nat) a + S1x128.size a ≤ S50000x128.size a := by
  have hk : k < 128 := by
    have := inb 2
    rw [hoff] at this
    change k + 1 ≤ 128 at this
    omega
  rw [word0 m c t ⟨k, hk⟩ off hoff inb h1]
  exact chk _ (src_lt m hsrc c _ _)

/-- The same at lane `k` of the destination block. -/
theorem chk_dst (hdst : ∀ (c : Dev nD) (e : Fin 600000), (m ((c.tc : Thread nD τ).loc main_arg4) (ix1 e)).toNat < 50000)
    (c : Dev nD) (t : Fin cfg0.N) (k : Nat) (off : Fin 3 → Nat) (hoff : off = ![0, 0, k])
    (inb : ∀ a, off a + S1x1x1.size a ≤ S1x1x128.size a) (h1 : 0 < S1x1x1.numel) :
    ∀ a, (![((ms0_1 t).view.readAt (Elt F) (Rect.unit (s := S1x1x128) off S1x1x1.size inb).toLoadRect
        ((hs0_1 t).unread (iblk m c 1 t)) (Shape.Idx.first h1)).toNat, 0] : Fin 2 → Nat) a + S1x128.size a ≤ S50000x128.size a := by
  have hk : k < 128 := by
    have := inb 2
    rw [hoff] at this
    change k + 1 ≤ 128 at this
    omega
  rw [word1 m c t ⟨k, hk⟩ off hoff inb h1]
  exact chk _ (dst_lt m hdst c _ _)

/-- Every assumed side condition, at every grid point, from the two index ranges. -/
theorem hyps_of_idx
    (hsrc : ∀ (c : Dev nD) (e : Fin 600000), (m ((c.tc : Thread nD τ).loc main_arg3) (ix1 e)).toNat < 50000)
    (hdst : ∀ (c : Dev nD) (e : Fin 600000), (m ((c.tc : Thread nD τ).loc main_arg4) (ix1 e)).toNat < 50000) :
    Hyps m := by
  intro c t
  and_intros
  iterate 128 exact chk_src m hsrc c t _ _ rfl _ _
  all_goals exact chk_dst m hdst c t _ _ rfl _ _

end Cert.KernelIdeal.HypsOfIdx

end
-- ==== Proof.KernelIdealRows.lean ====
/-
  The contents of a [128, 128] scratch buffer after its rows were written one at a time.  Row `n` of the buffer, seen as a
  vector of 128 entries, is the rectangle of one row at offsets `(n, 0)` with its unit axis dropped; writing the vector
  `pay n` through it changes the buffer's entries `(n, 0) … (n, 127)` and no others.  `rows A base pay n` is what the buffer
  holds after rows `0 … n − 1` were written in turn, starting from `base`; once all 128 rows are written, entry `(r, k)` of
  the buffer is entry `k` of `pay r`, whatever `base` was: the write of row `r` puts it there and the later rows' writes
  leave it alone.
-/
import proofs.«120289_j75213467287860_1_alg».proof.Proof.Gen.KernelIdeal
import Idealize.ShloMosaic.Lib.ValueIdx
import Idealize.ShloMosaic.Lib.Pipeline.Value

noncomputable section

namespace Cert.KernelIdeal.Rows

open Cert.KernelIdeal
open Idealize.ShloMosaic Idealize.SL.Sem Idealize.ShloMosaic.ValueIdx
open Facts₀

variable {F : FTy → Type} [FloatOps F]

/-- The one-row rectangle at row `min n 127` is inside the [128, 128] shape (the clamp makes it so for every `n`; at
    `n ≤ 127` the row is `n`). -/
theorem rowInb (n : Nat) : ∀ a, (![min n 127, 0] : Fin 2 → Nat) a + S1x128.size a ≤ S128x128.size a :=
  Rect.inb₂ (show min n 127 + 1 ≤ 128 by omega) (show 0 + 128 ≤ 128 by omega)

/-- Row `n` of the buffer as a vector of 128 entries: the one-row rectangle at `(n, 0)`, its unit axis dropped. -/
abbrev rowRef (A : Memref sig .tc .vmem S128x128 .f32) (n : Nat) : Memref sig .tc .vmem S128 .f32 :=
  (A.slice (Rect.unit (s := S128x128) ![min n 127, 0] S1x128.size (rowInb n)) (fun _ => rfl)).squeeze S128 squeezes_S1x128_S128

/-- The buffer's contents after rows `0 … n − 1` were written, `pay i` into row `i`, starting from `base`. -/
def rows (A : Memref sig .tc .vmem S128x128 .f32) (base : A.view.ty.Contents (Elt F)) (pay : Nat → Vec F S128 .f32) :
    Nat → A.view.ty.Contents (Elt F)
  | 0 => base
  | n + 1 => View.write (Elt F) (rowRef A n).view (rows A base pay n) (pay n) Finset.univ

theorem rows_zero (A : Memref sig .tc .vmem S128x128 .f32) (base : A.view.ty.Contents (Elt F)) (pay : Nat → Vec F S128 .f32) :
    rows A base pay 0 = base := rfl

/-- One more row: the write of `pay n` through row `n` over what the first `n` rows left. -/
theorem rows_succ (A : Memref sig .tc .vmem S128x128 .f32) (base : A.view.ty.Contents (Elt F)) (pay : Nat → Vec F S128 .f32) (n : Nat) :
    rows A base pay (n + 1) = View.write (Elt F) (rowRef A n).view (rows A base pay n) (pay n) Finset.univ := rfl

/-- Entry `k` of row `n`'s vector sits in the buffer where entry `(n, k)` of the whole array sits. -/
theorem rowRef_emb (A : Memref sig .tc .vmem S128x128 .f32) (n : Nat) (hn : n < 128) (k : Fin 128) :
    (rowRef A n).view.emb (ix1 k) = A.view.emb (ix2 ⟨n, hn⟩ k) := by
  show A.view.emb ((Rect.unit (s := S128x128) ![min n 127, 0] S1x128.size (rowInb n)).emb
      (Shape.reshapeEquiv (Shape.Squeezes.numel_eq squeezes_S1x128_S128) (ix1 k))) = _
  refine congrArg A.view.emb ?_
  have hq : Shape.reshapeEquiv (Shape.Squeezes.numel_eq squeezes_S1x128_S128) (ix1 k) = (ix2 ⟨0, Nat.one_pos⟩ k : S1x128.Idx) :=
    Shape.reshapeEquiv_eq_of_rowMajor _ (by
      rw [Shape.rowMajor_val_two, Shape.rowMajor_val_one]
      show 0 * 128 + k.val = k.val
      omega)
  rw [hq]
  funext a
  apply Fin.ext
  match a with
  | ⟨0, _⟩ =>
    show min n 127 + 1 * 0 = n
    omega
  | ⟨1, _⟩ =>
    show 0 + 1 * k.val = k.val
    omega

/-- An entry of another row is not under row `n`'s vector. -/
theorem rowRef_not_mem (A : Memref sig .tc .vmem S128x128 .f32) (n : Nat) (hn : n < 128) (r k : Fin 128) (hr : r.val ≠ n) :
    A.view.emb (ix2 r k) ∉ (rowRef A n).view.setOn Finset.univ := by
  intro h
  obtain ⟨j, -, hj⟩ := Finset.mem_map.mp h
  have h2 : A.view.emb ((Rect.unit (s := S128x128) ![min n 127, 0] S1x128.size (rowInb n)).emb
      (Shape.reshapeEquiv (Shape.Squeezes.numel_eq squeezes_S1x128_S128) j)) = A.view.emb (ix2 r k) := hj
  have h3 := congrArg (fun i : S128x128.Idx => (i 0).val) (A.view.emb.injective h2)
  have h4 : min n 127 + 1 * ((Shape.reshapeEquiv (Shape.Squeezes.numel_eq squeezes_S1x128_S128) j : S1x128.Idx) 0).val = r.val := h3
  have h5 : ((Shape.reshapeEquiv (Shape.Squeezes.numel_eq squeezes_S1x128_S128) j : S1x128.Idx) 0).val < 1 :=
    ((Shape.reshapeEquiv (Shape.Squeezes.numel_eq squeezes_S1x128_S128) j : S1x128.Idx) 0).isLt
  omega

/-- Reading the whole array at `(n, k)` is reading row `n`'s vector at `k`. -/
theorem read_row (A : Memref sig .tc .vmem S128x128 .f32) (n : Nat) (hn : n < 128) (g : A.view.ty.Contents (Elt F)) (k : Fin 128) :
    A.view.read (Elt F) g (ix2 ⟨n, hn⟩ k) = (rowRef A n).view.read (Elt F) g (ix1 k) :=
  congrArg (fun i => _root_.cast (congrArg (Elt F) A.view.elt_eq) (g i)) (rowRef_emb A n hn k).symm

/-- After the first `n` rows were written, a row below `n` reads its payload. -/
theorem rows_read_of_lt (A : Memref sig .tc .vmem S128x128 .f32) (base : A.view.ty.Contents (Elt F)) (pay : Nat → Vec F S128 .f32)
    (r k : Fin 128) : ∀ n : Nat, n ≤ 128 → r.val < n → A.view.read (Elt F) (rows A base pay n) (ix2 r k) = pay r.val (ix1 k)
  | 0, _, h => absurd h (Nat.not_lt_zero _)
  | n + 1, hn, h => by
    by_cases hr : r.val = n
    · obtain ⟨rv, hrv⟩ := r
      have hr' : rv = n := hr
      subst hr'
      exact (read_row A rv hrv _ k).trans (View.read_write_of_mem _ _ (Finset.mem_univ _))
    · have hm := rowRef_not_mem A n (by omega) r k hr
      refine (congrArg (_root_.cast (congrArg (Elt F) A.view.elt_eq)) (View.write_of_not_mem (v := (rowRef A n).view) (rows A base pay n) (pay n) Finset.univ hm)).trans ?_
      exact rows_read_of_lt A base pay r k n (by omega) (by omega)

/-- Once all 128 rows are written, entry `(r, k)` of the buffer is entry `k` of row `r`'s payload. -/
theorem rows_read (A : Memref sig .tc .vmem S128x128 .f32) (hA : A.IsWhole) (base : A.view.ty.Contents (Elt F)) (pay : Nat → Vec F S128 .f32)
    (r k : Fin 128) : A.view.read (Elt F) (rows A base pay 128) (ix2 r k) = pay r.val (ix1 k) :=
  rows_read_of_lt A base pay r k 128 (Nat.le_refl _) r.isLt

section Test
variable [Facts]
open Facts

/-- At a numeral the recursion unfolds to the program's own nest of writes, innermost first. -/
example (A : Memref sig .tc .vmem S128x128 .f32) (base : A.view.ty.Contents (Elt F)) (pay : Nat → Vec F S128 .f32) :
    rows A base pay 3
      = View.write (Elt F) ((A.slice (Rect.unit (s := S128x128) ![2, 0] S1x128.size inb_S128x128_S1x128_2_0) (fun _ => rfl)).squeeze S128 squeezes_S1x128_S128).view
          (View.write (Elt F) ((A.slice (Rect.unit (s := S128x128) ![1, 0] S1x128.size inb_S128x128_S1x128_1_0) (fun _ => rfl)).squeeze S128 squeezes_S1x128_S128).view
            (View.write (Elt F) ((A.slice (Rect.unit (s := S128x128) ![0, 0] S1x128.size inb_S128x128_S1x128_0_0) (fun _ => rfl)).squeeze S128 squeezes_S1x128_S128).view
              base (pay 0) Finset.univ)
            (pay 1) Finset.univ)
          (pay 2) Finset.univ := rfl

end Test

end Cert.KernelIdeal.Rows

end
-- ==== Proof.KernelIdealGather.lean ====
/-
  The source side of the row copies.  For lane `n` of its tile the body reads the index word `w` at `(0, 0, n)` of the
  tile's block of 128 index words, and copies row `w` of the feature array `h` [50000, 128], seen as a vector of 128
  entries (the one-row rectangle at `(w, 0)` with its unit axis dropped), into a scratch row.  The word read at lane `r`
  is entry `(0, 0, r)` of the block; entry `k` of the vector copied is `h[w, k]`.
-/
import proofs.«120289_j75213467287860_1_alg».proof.Proof.Gen.KernelIdeal.Frame.Runs
import proofs.«120289_j75213467287860_1_alg».proof.Proof.Spec
import Idealize.ShloMosaic.Lib.ValueIdx
import Idealize.ShloMosaic.Lib.Pipeline.Value

noncomputable section

namespace Cert.KernelIdeal.Gather

open Cert.KernelIdeal Cert.KernelIdeal.Gen
open Idealize.ShloMosaic Idealize.ShloMosaic.TcCoe Idealize.SL.Sem Idealize.ShloMosaic.ValueIdx

variable {F : FTy → Type} [FloatOps F]

/-! ## The index word at a lane -/

/-- The one-word rectangle at lane `min n 127` is inside the [1, 1, 128] block (the clamp makes it so for every `n`; at
    `n ≤ 127` the lane is `n`). -/
theorem wordInb (n : Nat) : ∀ a, (![0, 0, min n 127] : Fin 3 → Nat) a + S1x1x1.size a ≤ S1x1x128.size a := by
  intro a
  fin_cases a
  · show 0 + 1 ≤ 1
    omega
  · show 0 + 1 ≤ 1
    omega
  · show min n 127 + 1 ≤ 128
    omega

/-- The word a load of one element at `(0, 0, n)` reads from the block held at the contents that read `x`. -/
def word (A1 : Memref sig .tc .smem S1x1x128 .i32) (h1 : A1.IsWhole) (x : Vec F S1x1x128 .i32) (n : Nat) : BitVec 32 :=
  A1.view.readAt (Elt F) (Rect.unit (s := S1x1x128) ![0, 0, min n 127] S1x1x1.size (wordInb n)).toLoadRect (h1.unread x)
    (Shape.Idx.first (numel1_S1x1x1.symm ▸ Nat.one_pos))

/-- Every coordinate of an index of the one-element block is zero. -/
theorem unit_idx_val (j : S1x1x1.Idx) (a : Fin 3) : (j a).val = 0 := by
  have := (j a).isLt
  have e : S1x1x1.size a = 1 := by fin_cases a <;> rfl
  omega

/-- At a lane `r` the word is entry `(0, 0, r)` of the block. -/
theorem word_eq (A1 : Memref sig .tc .smem S1x1x128 .i32) (h1 : A1.IsWhole) (x : Vec F S1x1x128 .i32) (r : Fin 128) :
    word A1 h1 x r.val = x (ix3 ⟨0, Nat.one_pos⟩ ⟨0, Nat.one_pos⟩ r) := by
  unfold word
  rw [View.readAt_apply, Memref.IsWhole.read_unread]
  refine congrArg x (funext fun a => Fin.ext ?_)
  match a with
  | ⟨0, _⟩ =>
    show 0 + 1 * (Shape.Idx.first (s := S1x1x1) _ 0).val = 0
    rw [unit_idx_val]
  | ⟨1, _⟩ =>
    show 0 + 1 * (Shape.Idx.first (s := S1x1x1) _ 1).val = 0
    rw [unit_idx_val]
  | ⟨2, _⟩ =>
    show min r.val 127 + 1 * (Shape.Idx.first (s := S1x1x1) _ 2).val = r.val
    rw [unit_idx_val]
    have := r.isLt
    omega

/-! ## The row copied -/

/-- What the copy of row `w` of `h` moves: the 128 entries the row's vector reads from the array's contents. -/
def srcPay (c : Dev nD) (fh : HbBuf0 (F := F) c hbM0_0) (w : BitVec 32)
    (hw : ∀ a, (![w.toNat, 0] : Fin 2 → Nat) a + S1x128.size a ≤ S50000x128.size a) : Vec F S128 .f32 :=
  ReadAs.same.apply (View.read (Elt F)
    (((Memref.whole main_arg0).slice (Rect.unit (s := S50000x128) ![w.toNat, 0] S1x128.size hw) (fun _ => rfl)).squeeze S128 squeezes_S1x128_S128).view fh)

/-- Entry `k` of the vector copied is `h[w, k]` (`w` a row of `h`, by the in-bounds fact). -/
theorem srcPay_apply (c : Dev nD) (fh : HbBuf0 (F := F) c hbM0_0) (w : BitVec 32)
    (hw : ∀ a, (![w.toNat, 0] : Fin 2 → Nat) a + S1x128.size a ≤ S50000x128.size a) (k : Fin 128) :
    srcPay c fh w hw (ix1 k) = (fh : S50000x128.Idx → Elt F .f32) (ix2 (Cert.Spec.row w) k) := by
  have hlt : w.toNat < 50000 := by
    have := hw 0
    change w.toNat + 1 ≤ 50000 at this
    omega
  have hq : Shape.reshapeEquiv (Shape.Squeezes.numel_eq squeezes_S1x128_S128) (ix1 k) = (ix2 ⟨0, Nat.one_pos⟩ k : S1x128.Idx) :=
    Shape.reshapeEquiv_eq_of_rowMajor _ (by
      rw [Shape.rowMajor_val_two, Shape.rowMajor_val_one]
      show 0 * 128 + k.val = k.val
      omega)
  show (fh : S50000x128.Idx → Elt F .f32) ((Rect.unit (s := S50000x128) ![w.toNat, 0] S1x128.size hw).emb
      (Shape.reshapeEquiv (Shape.Squeezes.numel_eq squeezes_S1x128_S128) (ix1 k))) = _
  rw [hq]
  refine congrArg (fh : S50000x128.Idx → Elt F .f32) (funext fun a => Fin.ext ?_)
  match a with
  | ⟨0, _⟩ =>
    show w.toNat + 1 * 0 = (Cert.Spec.row w).val
    rw [Cert.Spec.row_val_of_lt hlt]
    omega
  | ⟨1, _⟩ =>
    show 0 + 1 * k.val = k.val
    omega

section Test
variable [Facts]

/-- At a numeral the word is the program's own load. -/
example (arg1 : Memref sig .tc .smem S1x1x128 .i32) (harg1 : arg1.IsWhole) (x0 : Vec F S1x1x128 .i32) :
    word arg1 harg1 x0 5
      = arg1.view.readAt (Elt F) (Rect.unit (s := S1x1x128) ![0, 0, 5] S1x1x1.size Facts₀.inb_S1x1x128_S1x1x1_0_0_5).toLoadRect (harg1.unread x0)
          (Shape.Idx.first (Facts₀.numel1_S1x1x1.symm ▸ Nat.one_pos)) := rfl

/-- And the payload is the program's own read of the row the word names. -/
example (c : Dev nD) (fh : HbBuf0 (F := F) c hbM0_0) (arg1 : Memref sig .tc .smem S1x1x128 .i32) (harg1 : arg1.IsWhole) (x0 : Vec F S1x1x128 .i32)
    (hw6 : k0_chk6 (word arg1 harg1 x0 5)) :
    srcPay c fh (word arg1 harg1 x0 5) (k0_off6_inb _ hw6)
      = ReadAs.same.apply (View.read (Elt F)
          (((Memref.whole main_arg0).slice (Rect.unit (s := S50000x128) (k0_off6 (word arg1 harg1 x0 5)) S1x128.size (k0_off6_inb (word arg1 harg1 x0 5) hw6)) (fun _ => rfl)).squeeze S128 Facts₀.squeezes_S1x128_S128).view fh) := rfl

end Test

end Cert.KernelIdeal.Gather

end
-- ==== Proof.KernelIdealArray.lean ====
/-
  The kernel's result array, read off the frame run.  The output window's blocks are 128 rows by 2 columns, block `t` at
  rows `128 t … 128 t + 127`, written back at every one of the 4688 grid points; they tile the padded `[600064, 2]` array.
  So that array ends holding, at row `R` and column `j`, what point `R / 128` left in its output block at row `R % 128`,
  column `j`; the program's result is the first 600000 rows of it.
-/
import proofs.«120289_j75213467287860_1_alg».proof.Proof.KernelIdealFrame
import Idealize.ShloMosaic.Lib.ValueIdx
import Idealize.ShloMosaic.Lib.Pipeline.Value
import Idealize.ShloMosaic.Lib.StableHlo.Run

set_option maxRecDepth 16384

noncomputable section

namespace Cert.KernelIdeal.KArray

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The output window's block at point `t` is block `(t, 0)`. -/
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- The grid point whose block holds row `R`. -/
def tileOf (R : Nat) (h : R < 600064) : Fin cfg0.N := ⟨R / 128, by show R / 128 < grid0.N; rw [N_0]; omega⟩

theorem tileOf_val (R : Nat) (h : R < 600064) : (tileOf R h).val = R / 128 := rfl

/-- The padded output array: row `R`, column `j` is what point `R / 128` left at row `R % 128`, column `j` of its block. -/
def padded (hH : Hyps m) (c : Dev nD) : S600064x2.Idx → Elt F .f32 := fun i =>
  outsAt0 m hH c (tileOf (i 0).val (idx2_lt0 i)) (ix2 ⟨(i 0).val % 128, Nat.mod_lt _ (by decide)⟩ (i 1))

/-- What point `t` writes back is block `t` of the padded array. -/
theorem flushed_eq (hH : Hyps m) (c : Dev nD) (t : Fin cfg0.N) :
    (dats m hH 0 c).flushed 4 t = ((cfg0.win 4).blk t).view.read (Elt F) (padded m hH c) := by
  show (cfg0.win 4).cut (grid0.coords t) ((dats m hH 0 c).after 4 t) = _
  rw [after0_4]
  funext j
  show outsAt0 m hH c t j = padded m hH c (((cfg0.win 4).blk t).view.emb j)
  obtain ⟨e0, e1⟩ := idx4 t
  have hj0 : (j 0).val < 128 := (j 0).isLt
  have hj1 : (j 1).val < 2 := (j 1).isLt
  have h0 : ((((cfg0.win 4).blk t).view.emb j) 0).val = win0_4.index t (0 : Fin 2) * 128 + 1 * (j 0).val := rfl
  have h1 : ((((cfg0.win 4).blk t).view.emb j) 1).val = win0_4.index t (1 : Fin 2) * 2 + 1 * (j 1).val := rfl
  unfold padded
  have ht : tileOf ((((cfg0.win 4).blk t).view.emb j) 0).val (idx2_lt0 _) = t :=
    Fin.ext (by rw [tileOf_val, h0, e0]; omega)
  rw [ht]
  refine congrArg (outsAt0 m hH c t) ?_
  funext a
  apply Fin.ext
  match a with
  | ⟨0, _⟩ => show (j 0).val = ((((cfg0.win 4).blk t).view.emb j) 0).val % 128; rw [h0, e0]; omega
  | ⟨1, _⟩ => show (j 1).val = ((((cfg0.win 4).blk t).view.emb j) 1).val; rw [h1, e1]; omega

/-- An index of the padded array is in point `t`'s block iff each coordinate is in the block's range. -/
theorem mem_blk4 (t : Fin cfg0.N) (i : S600064x2.Idx) :
    i ∈ ((cfg0.win 4).blk t).view.set ↔ ∀ a : Fin 2, win0_4.index t a * S128x2.size a ≤ (i a).val ∧ (i a).val < win0_4.index t a * S128x2.size a + S128x2.size a := by
  show i ∈ ((View.whole main_v7).slice (win0_4.rect t)).set ↔ _
  rw [View.set_slice_whole, Rect.mem_set_unit]
  exact Iff.rfl

/-- Every index of the padded array is in the block of the point that holds its row. -/
theorem cover (i : S600064x2.Idx) : ∃ t : Fin cfg0.N, (cfg0.win 4).flush t = true ∧ i ∈ ((cfg0.win 4).blk t).view.set := by
  have hi0 : (i 0).val < 600064 := idx2_lt0 i
  have hi1 : (i 1).val < 2 := idx2_lt1 i
  refine ⟨tileOf (i 0).val hi0, flush0_4 _, ?_⟩
  rw [mem_blk4]
  obtain ⟨e0, e1⟩ := idx4 (tileOf (i 0).val hi0)
  intro a
  match a with
  | ⟨0, _⟩ =>
    show win0_4.index (tileOf (i 0).val hi0) (0 : Fin 2) * 128 ≤ (i 0).val ∧ (i 0).val < win0_4.index (tileOf (i 0).val hi0) (0 : Fin 2) * 128 + 128
    rw [e0, tileOf_val]; omega
  | ⟨1, _⟩ =>
    show win0_4.index (tileOf (i 0).val hi0) (1 : Fin 2) * 2 ≤ (i 1).val ∧ (i 1).val < win0_4.index (tileOf (i 0).val hi0) (1 : Fin 2) * 2 + 2
    rw [e1]; omega

/-- So the padded output array ends holding `padded`. -/
theorem final (hH : Hyps m) (c : Dev nD) : (dats m hH 0 c).arrAt 4 cfg0.N = padded m hH c :=
  (dats m hH 0 c).arrAt_eq_of_cover 4 (padded m hH c) (fun t _ => flushed_eq m hH c t) cover

/-- The program's result after the frame run: the first 600000 rows of the padded array. -/
theorem result_eq (hH : Hyps m) (r : PUnit × MemSt nD τ sig (Elt F))
    (h : Pipeline.FramePost cfgs (dats m hH) 0 (Pipeline.afterTail₀ cfgs (dats m hH) 0 (V0 m) [hostOps1]) r) (c : Dev nD) :
    r.2.mem ((c.tc : Thread nD τ).loc main_v8)
      = extractStridedSlice S600000x2 ![0, 0] (padded m hH c) slices_S600064x2_S600000x2_0_0 := by
  refine ((h c).2 main_v8 (Pipeline.mem_restRefs_of main_v8 (by decide) (by decide))).trans ?_
  unfold Pipeline.afterTail₀
  show StableHlo.after hostOps1 _ (Proc.devRef .tc main_v8) = _
  after_results
  exact congrArg (fun x => extractStridedSlice S600000x2 ![0, 0] x slices_S600064x2_S600000x2_0_0)
    ((Pipeline.withArrays_arr spec0 launch0.win.arr_inj c (V0 m c) (fun w => (dats m hH 0 c).arrAt w (cfgs 0).N) 4).trans (final m hH c))

end Cert.KernelIdeal.KArray

end
-- ==== Proof.KernelIdealPayload.lean ====
/-
  The body's arithmetic at an entry.  With `w` the weight block [2, 256], `A` and `B` the gathered source and destination
  feature rows [128, 128] and `b2` the bias row [1, 2], entry `(r, c)` of what the body stores is

      (∑ₖ A[r, k] · w[c, k]  +  ∑ₖ B[r, k] · w[c, 128 + k])  +  b2[0, c]

  over the extended reals: the two matrix products into zero accumulators are plain sums, the casts to bf16 are the identity,
  the transposes and slices only move indices.
-/
import proofs.«120289_j75213467287860_1_alg».proof.Proof.Gen.KernelIdeal.Skeleton
import proofs.«120289_j75213467287860_1_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx
open Cert.Spec (colL colR)

/-! ## The product's operand indices

  The product contracts axis 1 of its left operand [128, 128] with axis 0 of its right operand [128, 2]: at the output
  entry `(r, c)` and contraction position `k` it reads the left operand at `(r, k)` and the right at `(k, c)`. -/

theorem lhs_mm_0 (i : S128x2.Idx) (q : dot_S128x128_S128x2_S128x2_1_0_0_1_n_n.contr.Idx) :
    (dot_S128x128_S128x2_S128x2_1_0_0_1_n_n.lhsIdx i q 0).val = (i 0).val := by
  unfold DotDims.lhsIdx
  rw [dif_neg (show ¬(0 : Fin S128x128.rank) ∈ dot_S128x128_S128x2_S128x2_1_0_0_1_n_n.lhsBatch by decide), dif_pos (show (0 : Fin S128x128.rank) ∈ dot_S128x128_S128x2_S128x2_1_0_0_1_n_n.lhsNonContracting by decide)]
  rfl
theorem lhs_mm_1 (i : S128x2.Idx) (q : dot_S128x128_S128x2_S128x2_1_0_0_1_n_n.contr.Idx) :
    (dot_S128x128_S128x2_S128x2_1_0_0_1_n_n.lhsIdx i q 1).val = (q ⟨0, by decide⟩).val :=
  dot_S128x128_S128x2_S128x2_1_0_0_1_n_n.lhsIdx_val_of_single rfl i q
theorem rhs_mm_0 (i : S128x2.Idx) (q : dot_S128x128_S128x2_S128x2_1_0_0_1_n_n.contr.Idx) :
    (dot_S128x128_S128x2_S128x2_1_0_0_1_n_n.rhsIdx i q 0).val = (q ⟨0, by decide⟩).val :=
  dot_S128x128_S128x2_S128x2_1_0_0_1_n_n.rhsIdx_val_of_single rfl i q
theorem rhs_mm_1 (i : S128x2.Idx) (q : dot_S128x128_S128x2_S128x2_1_0_0_1_n_n.contr.Idx) :
    (dot_S128x128_S128x2_S128x2_1_0_0_1_n_n.rhsIdx i q 1).val = (i 1).val := by
  unfold DotDims.rhsIdx
  rw [dif_neg (show ¬(1 : Fin S128x2.rank) ∈ dot_S128x128_S128x2_S128x2_1_0_0_1_n_n.rhsBatch by decide), dif_pos (show (1 : Fin S128x2.rank) ∈ dot_S128x128_S128x2_S128x2_1_0_0_1_n_n.rhsNonContracting by decide)]
  rfl

/-- The product into the zero accumulator at `(r, c)`: the sum over the 128 contraction positions. -/
theorem mm_apply {φ₁ φ₂ : FTy} (X : FVec Ideal S128x128 φ₁) (Y : FVec Ideal S128x2 φ₂) (r : Fin 128) (c : Fin 2) :
    matmul dot_S128x128_S128x2_S128x2_1_0_0_1_n_n none X Y (constant (F := Ideal) S128x2 .f32 0x00000000#32) (ix2 r c)
      = ∑ k : Fin 128, X (ix2 r k) * Y (ix2 k c) := by
  simp only [matmul]
  rw [Ideal.matmul_constant_zero_apply, ← Equiv.sum_comp (ValueIdx.contrEquiv1 dot_S128x128_S128x2_S128x2_1_0_0_1_n_n 128 rfl rfl).symm]
  refine Finset.sum_congr rfl fun k _ => ?_
  have hk := ValueIdx.contrEquiv1_symm_val dot_S128x128_S128x2_S128x2_1_0_0_1_n_n 128 rfl rfl k
  have el : dot_S128x128_S128x2_S128x2_1_0_0_1_n_n.lhsIdx (ix2 r c) ((ValueIdx.contrEquiv1 dot_S128x128_S128x2_S128x2_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S128x128_S128x2_S128x2_1_0_0_1_n_n.rhsIdx (ix2 r c) ((ValueIdx.contrEquiv1 dot_S128x128_S128x2_S128x2_1_0_0_1_n_n 128 rfl rfl).symm k) = ix2 k c := funext fun a => Fin.ext (by
    match a with
    | ⟨0, _⟩ => exact (rhs_mm_0 _ _).trans hk
    | ⟨1, _⟩ => exact rhs_mm_1 _ _)
  rw [el, er]

/-! ## The layout operations at an entry -/

/-- The first half of the weight block: columns 0 … 127. -/
theorem sliceL_apply {α : Type} (w : S2x256.Idx → α) (c : Fin 2) (k : Fin 128) :
    extractStridedSlice S2x128 ![0, 0] w slices_S2x256_o0_0_S2x128 (ix2 c k) = w (ix2 c (colL k)) := by
  refine extractStridedSlice_apply _ w _ _ _ fun a => ?_
  match a with
  | ⟨0, _⟩ => exact (Nat.zero_add _).symm
  | ⟨1, _⟩ => exact (Nat.zero_add _).symm

/-- The second half: columns 128 … 255. -/
theorem sliceR_apply {α : Type} (w : S2x256.Idx → α) (c : Fin 2) (k : Fin 128) :
    extractStridedSlice S2x128 ![0, 128] w slices_S2x256_o0_128_S2x128 (ix2 c k) = w (ix2 c (colR k)) := by
  refine extractStridedSlice_apply _ w _ _ _ fun a => ?_
  match a with
  | ⟨0, _⟩ => exact (Nat.zero_add _).symm
  | ⟨1, _⟩ => rfl

/-- The transpose of a [2, 128] block at `(k, c)` is the block at `(c, k)`. -/
theorem transpose_apply' {α : Type} (x : S2x128.Idx → α) (k : Fin 128) (c : Fin 2) :
    transpose S128x2 [1, 0] x transposes_S2x128_p1_0_S128x2 (ix2 k c) = x (ix2 c k) := by
  refine transpose_apply _ x _ _ _ fun b => ?_
  match b with
  | ⟨0, _⟩ => rfl
  | ⟨1, _⟩ => rfl

/-- The bias row broadcast down the 128 rows. -/
theorem bcast_apply {α : Type} (x : S1x2.Idx → α) (r : Fin 128) (c : Fin 2) :
    broadcastTo S128x2 x broadcasts_S1x2_S128x2 (ix2 r c) = x (ix2 ⟨0, Nat.one_pos⟩ c) := by
  refine broadcastTo_apply x _ _ _ fun a => ?_
  match a with
  | ⟨0, _⟩ => rfl
  | ⟨1, _⟩ => rfl

/-- The stored block at `(r, c)`. -/
theorem pay_apply (w : Vec Ideal S2x256 .f32) (A B : Vec Ideal S128x128 .f32) (b2 : Vec Ideal S1x2 .f32) (r : Fin 128) (c : Fin 2) :
    k0_pay1 (F := Ideal) w A B b2 (ix2 r c)
      = (∑ k : Fin 128, A (ix2 r k) * w (ix2 c (colL k)) + ∑ k : Fin 128, B (ix2 r k) * w (ix2 c (colR k)))
        + b2 (ix2 ⟨0, Nat.one_pos⟩ c) := by
  unfold k0_pay1
  simp only [addf_apply, mm_apply, truncf_apply, bcast_apply, shapeCast_self]
  refine congrArg (· + b2 (ix2 ⟨0, Nat.one_pos⟩ c)) (congrArg₂ (· + ·) (Finset.sum_congr rfl fun k _ => congrArg (A (ix2 r k) * ·) ?_)
    (Finset.sum_congr rfl fun k _ => congrArg (B (ix2 r k) * ·) ?_))
  · exact (transpose_apply' _ k c).trans ((truncf_apply (ψ := .bf16) _ bitsLt_bf16_f32 _).trans (sliceL_apply w c k))
  · exact (transpose_apply' _ k c).trans ((truncf_apply (ψ := .bf16) _ bitsLt_bf16_f32 _).trans (sliceR_apply w c k))

end Cert.KernelIdeal.Payload

end
-- ==== Proof.SpecBlock.lean ====
/-
  What one grid point computes, as a function of the arrays it reads.  At tile `t` the kernel gathers, for each of its 128
  lanes `r`, row `s3[t, 0, r]` of `h` (the source node) and row `d3[t, 0, r]` (the destination node), and leaves at row
  `r`, column `j` of its output block

      (∑ₖ h[s3[t,0,r], k] · W[j, k]  +  ∑ₖ h[d3[t,0,r], k] · W[j, 128 + k])  +  b2[0, j].
-/
import proofs.«120289_j75213467287860_1_alg».proof.Proof.Spec

noncomputable section

namespace Cert.Spec

open Idealize.ShloMosaic Idealize.ShloMosaic.ValueIdx

/-- Row `r`, column `j` of tile `t`'s output block. -/
def blockAt (h : (⟨2, ![50000, 128]⟩ : Shape).Idx → EReal) (W : (⟨2, ![2, 256]⟩ : Shape).Idx → EReal)
    (b2 : (⟨2, ![1, 2]⟩ : Shape).Idx → EReal) (s3 d3 : (⟨3, ![4688, 1, 128]⟩ : Shape).Idx → BitVec 32)
    (t : Fin 4688) (r : Fin 128) (j : Fin 2) : EReal :=
  (∑ k : Fin 128, h (ix2 (row (s3 (ix3 t ⟨0, Nat.one_pos⟩ r))) k) * W (ix2 j (colL k))
    + ∑ k : Fin 128, h (ix2 (row (d3 (ix3 t ⟨0, Nat.one_pos⟩ r))) k) * W (ix2 j (colR k)))
  + b2 (ix2 ⟨0, Nat.one_pos⟩ j)

end Cert.Spec

end
-- ==== Proof.KernelIdealOuts.lean ====
/-
  What a grid point leaves in its output block, entry by entry.  The block is the body's arithmetic of the point's weight
  block, its bias row and the two gathered scratch buffers; at row `r`, column `j` that is the two sums over the feature
  columns plus the bias entry, with the point's blocks read as the arrays the region finds.
-/
import proofs.«120289_j75213467287860_1_alg».proof.Proof.KernelIdealFrame
import proofs.«120289_j75213467287860_1_alg».proof.Proof.KernelIdealPayload
import proofs.«120289_j75213467287860_1_alg».proof.Proof.KernelIdealHyps
import proofs.«120289_j75213467287860_1_alg».proof.Proof.SpecBlock
import Idealize.ShloMosaic.Lib.ValueIdx
import Idealize.ShloMosaic.Lib.Pipeline.Value

set_option maxRecDepth 16384

noncomputable section

namespace Cert.KernelIdeal.KOuts

open Cert.KernelIdeal Cert.KernelIdeal.Gen Cert.KernelIdeal.GenP
open Idealize.ShloMosaic Idealize.ShloMosaic.TcCoe Idealize.SL.Sem Idealize.ShloMosaic.ValueIdx

/-- The weight window's and the bias window's index maps: the one block, from its start. -/
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)

/-- The weight window's block at every point is the whole weight array. -/
theorem iblk2_apply {F : FTy → Type} [FloatOps F] (m : (ℓ : Loc nD τ sig) → Buf (Elt F) ℓ) (c : Dev nD) (t : Fin cfg0.N) (x : S2x256.Idx) :
    (iblk m c 2 t : S2x256.Idx → Elt F .f32) x = V m c main_arg1 x := by
  obtain ⟨h0, h1⟩ := index2 t
  unfold iblk
  rw [View.read_apply]
  show V m c main_arg1 _ = V m c main_arg1 _
  congr 1
  funext a
  apply Fin.ext
  match a with
  | ⟨0, _⟩ => show win0_2.index t 0 * 2 + 1 * (x 0).val = (x 0).val; rw [h0]; omega
  | ⟨1, _⟩ => show win0_2.index t 1 * 256 + 1 * (x 1).val = (x 1).val; rw [h1]; omega

/-- The bias window's block at every point is the whole bias row. -/
theorem iblk3_apply {F : FTy → Type} [FloatOps F] (m : (ℓ : Loc nD τ sig) → Buf (Elt F) ℓ) (c : Dev nD) (t : Fin cfg0.N) (x : S1x2.Idx) :
    (iblk m c 3 t : S1x2.Idx → Elt F .f32) x = V m c main_v6 x := by
  obtain ⟨h0, h1⟩ := index3 t
  unfold iblk
  rw [View.read_apply]
  show V m c main_v6 _ = V m c main_v6 _
  congr 1
  funext a
  apply Fin.ext
  match a with
  | ⟨0, _⟩ => show win0_3.index t 0 * 1 + 1 * (x 0).val = (x 0).val; rw [h0]; omega
  | ⟨1, _⟩ => show win0_3.index t 1 * 2 + 1 * (x 1).val = (x 1).val; rw [h1]; omega

/-- The body's arithmetic of the point's four blocks and the gathered rows, entry by entry, is the specification's. -/
theorem block_eq (m : (ℓ : Loc nD τ sig) → Buf (Elt Ideal) ℓ) (c : Dev nD) (t : Fin cfg0.N) (r : Fin 128) (j : Fin 2) :
    k0_pay1 (F := Ideal) (iblk m c 2 t) (gathered (V m c main_arg0) (iblk m c 0 t)) (gathered (V m c main_arg0) (iblk m c 1 t))
        (iblk m c 3 t) (ix2 r j)
      = Cert.Spec.blockAt (V m c main_arg0) (V m c main_arg1) (V m c main_v6) (V m c main_v2) (V m c main_v5)
          (Fin.cast N_0 t) r j := by
  rw [Cert.KernelIdeal.Payload.pay_apply]
  unfold Cert.Spec.blockAt
  simp only [gathered_apply]
  rw [HypsOfIdx.iblk0_apply m c t (ix3 ⟨0, Nat.one_pos⟩ ⟨0, Nat.one_pos⟩ r) r rfl,
    HypsOfIdx.iblk1_apply m c t (ix3 ⟨0, Nat.one_pos⟩ ⟨0, Nat.one_pos⟩ r) r rfl,
    iblk3_apply m c t (ix2 ⟨0, Nat.one_pos⟩ j)]
  refine congrArg (· + _) (congrArg₂ (· + ·) (Finset.sum_congr rfl fun k _ => ?_) (Finset.sum_congr rfl fun k _ => ?_))
  · rw [iblk2_apply m c t (ix2 j (Cert.Spec.colL k))]
  · rw [iblk2_apply m c t (ix2 j (Cert.Spec.colR k))]

/-- Row `r`, column `j` of what point `t` leaves is the tile's block entry of the specification. -/
theorem outs_apply (m : (ℓ : Loc nD τ sig) → Buf (Elt Ideal) ℓ) (hH : Hyps m) (c : Dev nD) (t : Fin cfg0.N) (r : Fin 128) (j : Fin 2) :
    outsAt0 (F := Ideal) m hH c t (ix2 r j)
      = Cert.Spec.blockAt (V m c main_arg0) (V m c main_arg1) (V m c main_v6) (V m c main_v2) (V m c main_v5)
          (Fin.cast N_0 t) r j := by
  unfold outsAt0
  exact block_eq m c t r j

end Cert.KernelIdeal.KOuts

end
-- ==== Proof.KernelIdealScore.lean ====
/-
  A tile's output row is the edge's score.  Edge `e` sits in tile `e / 128` at lane `e % 128`; the re-laid index arrays
  hold there the edge's own source and destination words, the weight and feature arrays reach the region unchanged, and
  the bias row is the bias.
-/
import proofs.«120289_j75213467287860_1_alg».proof.Proof.KernelIdealPrefix
import proofs.«120289_j75213467287860_1_alg».proof.Proof.SpecBlock

noncomputable section

namespace Cert.KernelIdeal.Score

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- Edge `e`'s source word sits at tile `e / 128`, lane `e % 128` of the re-laid source indices: `128 (e / 128) + e % 128 = e`. -/
theorem src_word (c : Dev nD) (e : Fin 600000) :
    V m c main_v2 (ix3 (⟨e.val / 128, by have := e.isLt; omega⟩ : Fin 4688) ⟨0, Nat.one_pos⟩ (⟨e.val % 128, Nat.mod_lt _ (by decide)⟩ : Fin 128))
      = m ((c.tc : Thread nD τ).loc main_arg3) (ix1 e) := by
  have h : e.val / 128 * 128 + e.val % 128 < 600000 := by have := e.isLt; omega
  refine (Prefix.src3_apply m c ⟨e.val / 128, by have := e.isLt; omega⟩ ⟨e.val % 128, Nat.mod_lt _ (by decide)⟩ h).trans ?_
  exact congrArg (fun x : Fin 600000 => m ((c.tc : Thread nD τ).loc main_arg3) (ix1 x)) (Fin.ext (by
    show e.val / 128 * 128 + e.val % 128 = e.val
    omega))

/-- The same for the destination word. -/
theorem dst_word (c : Dev nD) (e : Fin 600000) :
    V m c main_v5 (ix3 (⟨e.val / 128, by have := e.isLt; omega⟩ : Fin 4688) ⟨0, Nat.one_pos⟩ (⟨e.val % 128, Nat.mod_lt _ (by decide)⟩ : Fin 128))
      = m ((c.tc : Thread nD τ).loc main_arg4) (ix1 e) := by
  have h : e.val / 128 * 128 + e.val % 128 < 600000 := by have := e.isLt; omega
  refine (Prefix.dst3_apply m c ⟨e.val / 128, by have := e.isLt; omega⟩ ⟨e.val % 128, Nat.mod_lt _ (by decide)⟩ h).trans ?_
  exact congrArg (fun x : Fin 600000 => m ((c.tc : Thread nD τ).loc main_arg4) (ix1 x)) (Fin.ext (by
    show e.val / 128 * 128 + e.val % 128 = e.val
    omega))

/-- Tile `e / 128`, lane `e % 128` of the kernel's blocks is edge `e`'s score. -/
theorem blockAt_eq_score (c : Dev nD) (e : Fin 600000) (j : Fin 2) :
    Cert.Spec.blockAt (V m c main_arg0) (V m c main_arg1) (V m c main_v6) (V m c main_v2) (V m c main_v5)
        ⟨e.val / 128, by have := e.isLt; omega⟩ ⟨e.val % 128, Nat.mod_lt _ (by decide)⟩ j
      = Cert.Spec.scoreAt (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) e j := by
  have h0 := V_main_arg0 m c
  have h1 := V_main_arg1 m c
  unfold Cert.Spec.blockAt Cert.Spec.scoreAt
  rw [src_word m c e, dst_word m c e, Prefix.bias_apply m c j, h0, h1]

end Cert.KernelIdeal.Score

end
-- ==== Proof.KernelIdealValue.lean ====
/-
  The kernel's result is the specification.  Row `e` of the result is row `e % 128` of what grid point `e / 128` left in
  its output block; that block's entry is the body's arithmetic of the point's blocks — the weights, the bias row and the
  two scratch buffers, whose row `r` the body filled with the row of `h` that lane `r`'s index word names — and, read
  back through the host operations before the call, that is the edge's score.
-/
import proofs.«120289_j75213467287860_1_alg».proof.Proof.KernelIdealArray
import proofs.«120289_j75213467287860_1_alg».proof.Proof.KernelIdealOuts
import proofs.«120289_j75213467287860_1_alg».proof.Proof.KernelIdealScore

set_option maxRecDepth 16384

noncomputable section

namespace Cert.KernelIdeal.KValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Entry `(e, j)` of the program's result is edge `e`'s score for class `j`. -/
theorem result_apply (hH : Hyps m) (c : Dev nD) (e : Fin 600000) (j : Fin 2) :
    extractStridedSlice S600000x2 ![0, 0] (KArray.padded m hH c) slices_S600064x2_S600000x2_0_0 (ix2 e j)
      = Cert.Spec.scoreAt (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) e j := by
  have he : e.val < 600064 := by have := e.isLt; omega
  rw [extractStridedSlice_apply ![0, 0] (KArray.padded m hH c) slices_S600064x2_S600000x2_0_0 (ix2 e j) (ix2 ⟨e.val, he⟩ j)
    (fun a => by match a with | ⟨0, _⟩ => exact (Nat.zero_add _).symm | ⟨1, _⟩ => exact (Nat.zero_add _).symm)]
  show outsAt0 m hH c (KArray.tileOf e.val _) (ix2 ⟨e.val % 128, _⟩ j) = _
  rw [KOuts.outs_apply]
  exact Cert.KernelIdeal.Score.blockAt_eq_score m c e j

/-- The run, read: the result at the specification, the arguments unchanged. -/
theorem run (hH : Hyps m) : θ_run defs (onTc (τ := τ) (main (F := Ideal))) ⟨m, fun _ => 0, ρ⟩ fun r => ∀ c : Dev nD,
      r.2.mem ((c.tc : Thread nD τ).loc main_v8)
        = Cert.Spec.score (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨(KArray.result_eq m hH r h c).trans (funext fun i => by
        obtain ⟨e, j, rfl⟩ : ∃ (e : Fin 600000) (j : Fin 2), i = ix2 e j := ⟨i 0, i 1, eq_ix2 i⟩
        rw [Cert.Spec.score_apply]
        exact result_apply m hH c e j),
      (((h c).2 main_arg0 (Pipeline.mem_restRefs_of main_arg0 (by decide) (by decide))).trans (W_main_arg0 m (dats m hH) c)),
      ((h c).1 2).trans (((dats m hH 0 c).arrAt_in 2 rfl _).trans ((A_eq m hH c 2).trans (V_main_arg1 m c))),
      (((h c).2 main_arg2 (Pipeline.mem_restRefs_of main_arg2 (by decide) (by decide))).trans (W_main_arg2 m (dats m hH) c)),
      (((h c).2 main_arg3 (Pipeline.mem_restRefs_of main_arg3 (by decide) (by decide))).trans (W_main_arg3 m (dats m hH) c)),
      (((h c).2 main_arg4 (Pipeline.mem_restRefs_of main_arg4 (by decide) (by decide))).trans (W_main_arg4 m (dats m hH) c))⟩)
    (run_main m ρ hH)

end Cert.KernelIdeal.KValue

end
-- ==== Proof.RowGather.lean ====
/-
  A row gather read at an index.  `h[idx]` of a matrix `h : [N, D]` at an integer column `idx : [E, 1]` lowers to a
  gather with offset axis 1, collapsed axis 0, start index map [0], the index vector on axis 1 and slices of one
  whole row.  Result element `(e, k)` is `h` at row `idx[e, 0]` — read as a signed integer and clamped into
  `[0, N − 1]`, as every start index of a gather is — and column `k`.
-/
import Idealize.ShloMosaic.Lib.ValueIdx

noncomputable section

namespace Cert.RowGather

open Idealize.ShloMosaic Idealize.ShloMosaic.ValueIdx

variable {α : Type}

/-- The dimension numbers of a whole-row gather from `[N, D]` at `[E, 1]` start indices into `[E, D]`. -/
abbrev rowDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at `(e, k)`: row `idx[e, 0]` (signed, clamped into `[0, N − 1]`), column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowDims N E D wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ =>
    show (rowDims N E D wf).start (ix2 e k) idx 0 + (rowDims N E D wf).batchCoord (ix2 e k) 0
      + (rowDims N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E D wf).startIndexMap from List.mem_singleton.mpr rfl)]
    have hsi : (rowDims N E D wf).siIdx (ix2 e k) ⟨List.idxOf (0 : Fin 2) (rowDims N E D wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowDims N E D wf).start (ix2 e k) idx 1 + (rowDims N E D wf).batchCoord (ix2 e k) 1
      + (rowDims N E D wf).offCoord (ix2 e k) 1 = _
    rw [GatherDims.batchCoord_eq_zero _ _ _ List.not_mem_nil]
    unfold GatherDims.start
    rw [dif_neg (show ¬ (1 : Fin 2) ∈ ([0] : List (Fin 2)) from by decide)]
    simp only [Nat.add_zero, Nat.zero_add]
    rfl

end Cert.RowGather

end
-- ==== Proof.RefValue.lean ====
/-
  The reference's result is the shared specification.  Read at one entry `(e, c)`, the reference's last sum is

      (∑ₖ g_src[e, k] · W[c, k]  +  ∑ₖ g_dst[e, k] · W[c, 128 + k])  +  b[c],

  where `g_src = h[src]` and `g_dst = h[dst]` are the two row gathers.  A row gather reads row `idx[e, 0]`, signed and
  clamped into `[0, 49999]`; the index word it is given is `select (w <ₛ 0) (w + 50000) w`.  For a word `w` below 50000
  the comparison is false, the select keeps `w`, the signed reading is `w.toNat` and the clamp is the identity: the row
  read is `row w` of the specification.  The first slice of `W` reads column `k`, the second column `128 + k`.
-/
import proofs.«120289_j75213467287860_1_alg».proof.Proof.Gen.ReferenceIdeal.Run
import proofs.«120289_j75213467287860_1_alg».proof.Proof.Gen.ReferenceIdeal.Read
import proofs.«120289_j75213467287860_1_alg».proof.Proof.Spec
import proofs.«120289_j75213467287860_1_alg».proof.Proof.RowGather
import Idealize.ShloMosaic.Lib.StableHlo.Predicate

noncomputable section

namespace Cert.ReferenceIdeal.RefValue

open Cert.ReferenceIdeal Cert.ReferenceIdeal.Gen Idealize.ShloMosaic Idealize.ShloMosaic.ValueIdx

/-- The program's gather record is the whole-row gather's. -/
theorem gather_eq : gather_S50000x128_S600000x1_S600000x128_1_0_n_n_0_1_1128
    = Cert.RowGather.rowDims 50000 600000 128 gather_S50000x128_S600000x1_S600000x128_1_0_n_n_0_1_1128_wf := rfl

/-- A word below 50000 is not negative as a signed word, so the negative-index wrap keeps it. -/
theorem wrap_word (w : BitVec 32) (hw : w.toNat < 50000) :
    Scalar.select (IntOp.cmpi .slt w 0#32) (IntOp.addi w 50000#32) w = w := by
  have hs : w.slt 0#32 = false := by
    simp only [BitVec.slt, StableHlo.Predicate.toInt_eq_toNat_of_lt (show w.toNat < 2 ^ 31 by omega)]
    simp
  have h0 : IntOp.cmpi .slt w 0#32 = 0#1 := by
    show BitVec.ofBool (w.slt 0#32) = 0#1
    rw [hs]; rfl
  rw [h0, select_zero]

/-- The signed reading of a word below 50000, clamped to the last row, is the specification's row. -/
theorem clamp_word (w : BitVec 32) (hw : w.toNat < 50000) :
    min w.toInt.toNat (50000 - 1) = (Cert.Spec.row w).val := by
  rw [Cert.Spec.row_val_of_lt hw, StableHlo.Predicate.toInt_eq_toNat_of_lt (show w.toNat < 2 ^ 31 by omega), Int.toNat_natCast]
  omega

/-- The index word the first gather is given at `(e, 0)` is `src[e]`. -/
theorem word_src (src : IVec S600000 32) (hsrc : ∀ e : Fin 600000, (src (ix1 e)).toNat < 50000) (e : Fin 600000) :
    Read.val_main_v7 (F := Ideal) src (ix2 e ⟨0, Nat.one_pos⟩) = src (ix1 e) := by
  have hi : Read.idx_main_v7 (ix2 e (⟨0, Nat.one_pos⟩ : Fin 1)) = ix1 e :=
    funext fun a => Fin.ext (by match a with | ⟨0, _⟩ => rfl)
  rw [Read.val_main_v7_apply, Read.val_main_v6_apply, Read.val_main_v3_apply, Read.val_main_v5_apply,
    Read.val_main_v2_apply, Read.val_main_v4_apply, Read.val_main_c_apply, Read.val_main_c_0_apply, hi]
  exact wrap_word _ (hsrc e)

/-- The index word the second gather is given at `(e, 0)` is `dst[e]`. -/
theorem word_dst (dst : IVec S600000 32) (hdst : ∀ e : Fin 600000, (dst (ix1 e)).toNat < 50000) (e : Fin 600000) :
    Read.val_main_v14 (F := Ideal) dst (ix2 e ⟨0, Nat.one_pos⟩) = dst (ix1 e) := by
  have hi : Read.idx_main_v14 (ix2 e (⟨0, Nat.one_pos⟩ : Fin 1)) = ix1 e :=
    funext fun a => Fin.ext (by match a with | ⟨0, _⟩ => rfl)
  rw [Read.val_main_v14_apply, Read.val_main_v13_apply, Read.val_main_v10_apply, Read.val_main_v12_apply,
    Read.val_main_v9_apply, Read.val_main_v11_apply, Read.val_main_c_1_apply, Read.val_main_c_2_apply, hi]
  exact wrap_word _ (hdst e)

/-- A row gather of `h` at index words below 50000 reads the specification's row. -/
theorem gather_row (h : FVec Ideal S50000x128 .f32) (idx : IVec S600000x1 32) (w : BitVec 32)
    (e : Fin 600000) (k : Fin 128) (hidx : idx (ix2 e ⟨0, Nat.one_pos⟩) = w) (hw : w.toNat < 50000) :
    Host.gather gather_S50000x128_S600000x1_S600000x128_1_0_n_n_0_1_1128 h idx (ix2 e k) = h (ix2 (Cert.Spec.row w) k) := by
  rw [gather_eq]
  refine (Cert.RowGather.gather_rows_apply (by decide) gather_S50000x128_S600000x1_S600000x128_1_0_n_n_0_1_1128_wf h idx e k).trans ?_
  refine congrArg (fun r => h (ix2 r k)) (Fin.ext ?_)
  show min (idx (ix2 e ⟨0, Nat.one_pos⟩)).toInt.toNat (50000 - 1) = (Cert.Spec.row w).val
  rw [hidx]
  exact clamp_word w hw

/-- The reference's result is the specification, when every node index is a row of `h`. -/
theorem result_eq (h : FVec Ideal S50000x128 .f32) (W : FVec Ideal S2x256 .f32) (b : FVec Ideal S2 .f32) (src dst : IVec S600000 32)
    (hsrc : ∀ e : Fin 600000, (src (ix1 e)).toNat < 50000) (hdst : ∀ e : Fin 600000, (dst (ix1 e)).toNat < 50000) :
    addf (addf (Host.dotGeneral dot_S600000x128_S2x128_S600000x2_1_1_0_0_n_n none (Host.gather gather_S50000x128_S600000x1_S600000x128_1_0_n_n_0_1_1128 h (broadcastInDim S600000x1 ![0] bcast_S600000_S600000x1_0 (select (cmpi .slt src (broadcastInDim S600000 ![] bcast_S_S600000 (constantI S_ 32 0#32))) (addi src (broadcastInDim S600000 ![] bcast_S_S600000 (constantI S_ 32 50000#32))) src))) (extractStridedSlice S2x128 ![0, 0] W slices_S2x256_S2x128_0_0)) (Host.dotGeneral dot_S600000x128_S2x128_S600000x2_1_1_0_0_n_n none (Host.gather gather_S50000x128_S600000x1_S600000x128_1_0_n_n_0_1_1128 h (broadcastInDim S600000x1 ![0] bcast_S600000_S600000x1_0 (select (cmpi .slt dst (broadcastInDim S600000 ![] bcast_S_S600000 (constantI S_ 32 0#32))) (addi dst (broadcastInDim S600000 ![] bcast_S_S600000 (constantI S_ 32 50000#32))) dst))) (extractStridedSlice S2x128 ![0, 128] W slices_S2x256_S2x128_0_128))) (broadcastInDim S600000x2 ![0, 1] bcast_S1x2_S600000x2_0_1 (broadcastInDim S1x2 ![1] bcast_S2_S1x2_1 b)) = Cert.Spec.score h W b src dst := by
  refine (Read.val_main_v21_eq (F := Ideal) h W b src dst).trans ?_
  funext i
  obtain ⟨e, c, rfl⟩ : ∃ (e : Fin 600000) (c : Fin 2), i = ix2 e c := ⟨i 0, i 1, eq_ix2 i⟩
  rw [Cert.Spec.score_apply]
  unfold Cert.Spec.scoreAt
  rw [Read.val_main_v21_apply, Read.val_main_v18_apply, Read.val_main_v16_apply, Read.val_main_v17_apply,
    Read.val_main_v20_apply, Read.val_main_v19_apply, Ideal.addf_def, Ideal.addf_def]
  have hb : Read.idx_main_v19 (Read.idx_main_v20 (ix2 e c)) = ix1 c :=
    funext fun a => Fin.ext (by match a with | ⟨0, _⟩ => rfl)
  have s1 : ∑ k : Fin 128, Read.val_main_v8 (F := Ideal) h src (Read.lidx_main_v16 (ix2 e c) k)
        * Read.val_main_v0 (F := Ideal) W (Read.ridx_main_v16 (ix2 e c) k)
      = ∑ k : Fin 128, h (ix2 (Cert.Spec.row (src (ix1 e))) k) * W (ix2 c (Cert.Spec.colL k)) :=
    Finset.sum_congr rfl fun k _ => by
      have hl : Read.lidx_main_v16 (ix2 e c) k = ix2 e k :=
        funext fun a => Fin.ext (by match a with | ⟨0, _⟩ => rfl | ⟨1, _⟩ => rfl)
      have hr : Read.idx_main_v0 (Read.ridx_main_v16 (ix2 e c) k) = ix2 c (Cert.Spec.colL k) :=
        funext fun a => Fin.ext (by match a with | ⟨0, _⟩ => rfl | ⟨1, _⟩ => rfl)
      rw [hl, Read.val_main_v0_apply, hr]
      exact congrArg (· * W (ix2 c (Cert.Spec.colL k)))
        (gather_row h _ _ e k (word_src src hsrc e) (hsrc e))
  have s2 : ∑ k : Fin 128, Read.val_main_v15 (F := Ideal) h dst (Read.lidx_main_v17 (ix2 e c) k)
        * Read.val_main_v1 (F := Ideal) W (Read.ridx_main_v17 (ix2 e c) k)
      = ∑ k : Fin 128, h (ix2 (Cert.Spec.row (dst (ix1 e))) k) * W (ix2 c (Cert.Spec.colR k)) :=
    Finset.sum_congr rfl fun k _ => by
      have hl : Read.lidx_main_v17 (ix2 e c) k = ix2 e k :=
        funext fun a => Fin.ext (by match a with | ⟨0, _⟩ => rfl | ⟨1, _⟩ => rfl)
      have hr : Read.idx_main_v1 (Read.ridx_main_v17 (ix2 e c) k) = ix2 c (Cert.Spec.colR k) :=
        funext fun a => Fin.ext (by match a with | ⟨0, _⟩ => rfl | ⟨1, _⟩ => rfl)
      rw [hl, Read.val_main_v1_apply, hr]
      exact congrArg (· * W (ix2 c (Cert.Spec.colR k)))
        (gather_row h _ _ e k (word_dst dst hdst e) (hdst e))
  rw [s1, s2, hb]

end Cert.ReferenceIdeal.RefValue

end
-- ==== Proof.PreDecode.lean ====
/-
  The precondition, read back at an index.  Beside the finiteness of the float inputs it says, of each of the two index
  arrays, that every word is at least 0 and below 50000 as a signed integer — a conjunction of two comparisons reduced
  by `and` over all 600000 entries.  A word in [0, 50000) signed is below 50000 unsigned, which is the form the rest of the
  proof uses: every node index is a row of `h`.
-/
import proofs.«120289_j75213467287860_1_alg».proof.Pre_finite_inputs
import Idealize.ShloMosaic.Lib.ReduceAll
import Idealize.ShloMosaic.Lib.ValueIdx

noncomputable section

namespace Cert.PreDecode

open Idealize.ShloMosaic Idealize.ShloMosaic.ValueIdx Cert.Pre_finite_inputs

variable {F : FTy → Type} [FloatOps F] [Cert.Pre_finite_inputs.Facts]

theorem ofBool_eq_one (b : Bool) : BitVec.ofBool b = 1#1 ↔ b = true := by cases b <;> decide

/-- A word that is ≥ 0 and < 50000 signed is below 50000 unsigned. -/
theorem toNat_lt (w : BitVec 32) (h0 : IntOp.cmpi .sge w (0#32) = 1#1) (h1 : IntOp.cmpi .slt w (50000#32) = 1#1) :
    w.toNat < 50000 := by
  unfold IntOp.cmpi at h0 h1
  rw [ofBool_eq_one] at h0 h1
  simp only [BitVec.slt, BitVec.sle, decide_eq_true_eq] at h0 h1
  have h32 := w.isLt
  unfold BitVec.toInt at h0 h1
  split at h1 <;> simp at h0 h1 <;> omega

instance : Subsingleton S_.Idx := ⟨fun a b => funext fun d => d.elim0⟩

/-- Under the precondition every source index and every destination index is a row of `h`. -/
theorem idx_in_range (a0 : FVec F S50000x128 .f32) (a1 : FVec F S2x256 .f32) (a2 : FVec F S2 .f32) (src dst : IVec S600000 32)
    (h : fn (F := F) a0 a1 a2 src dst = fun _ => 1#1) :
    (∀ e : Fin 600000, (src (ix1 e)).toNat < 50000) ∧ (∀ e : Fin 600000, (dst (ix1 e)).toNat < 50000) := by
  have e := congrFun h ix0
  unfold fn fn_part1 at e
  dsimp only at e
  simp only [andi] at e
  rw [IntOp.andi_eq_one, IntOp.andi_eq_one] at e
  obtain ⟨⟨-, hs⟩, hd⟩ := e
  constructor
  · intro k
    have hk := Host.reduce_andi_all _ _ _ _ _ hs (ix1 k)
    simp only [andi, cmpi, broadcastInDim, constantI] at hk
    rw [IntOp.andi_eq_one] at hk
    exact toNat_lt _ hk.1 hk.2
  · intro k
    have hk := Host.reduce_andi_all _ _ _ _ _ hd (ix1 k)
    simp only [andi, cmpi, broadcastInDim, constantI] at hk
    rw [IntOp.andi_eq_one] at hk
    exact toNat_lt _ hk.1 hk.2

end Cert.PreDecode

end
-- ==== Proof.lean ====
/-
  The edge scorer: per tile of 128 edges the kernel copies row `src[e]` and row `dst[e]` of the node features `h` from HBM
  into two VMEM scratch buffers, one row per DMA, and computes `h[src] · W_uᵀ + h[dst] · W_vᵀ + b` with two matrix products;
  the reference gathers the same rows on the host and contracts them against the two halves of `W`.

  Over the extended reals the two are one function of the arguments (Proof/Spec.lean):
      score[e, c] = (∑ₖ h[src[e], k] · W[c, k] + ∑ₖ h[dst[e], k] · W[c, 128 + k]) + b[c],
  the same sums in the same grouping on both sides — the casts to bf16 are the identity, a matrix product into a zero
  accumulator is the plain sum, padding the index arrays to whole tiles only adds rows that are sliced away.  No law
  needs finiteness.  What the precondition is used for is the index range: every node index is a row of `h`
  (Proof/PreDecode.lean), which the kernel's row copies assume (Proof/KernelHyps.lean, Proof/KernelIdealHyps.lean) and
  under which the reference's wrap-and-clamp of an index is the identity (Proof/RefValue.lean).

  The kernel's side: the frame run (Proof/KernelIdealFrame.lean over Proof/KernelIdealRunA.lean) leaves the padded output
  array block by block (Proof/KernelIdealArray.lean); a block is the body's arithmetic (Proof/KernelIdealPayload.lean) of
  the weight block, the bias row and the two scratch buffers as the row copies left them (Proof/KernelIdealRows.lean,
  Proof/KernelIdealOuts.lean); read back through the host operations before the call (Proof/KernelIdealPrefix.lean) that is
  the edge's score (Proof/KernelIdealScore.lean, Proof/KernelIdealValue.lean).
-/
import proofs.«120289_j75213467287860_1_alg».proof.Defs
import proofs.«120289_j75213467287860_1_alg».proof.Proof.Gen.Kernel
import proofs.«120289_j75213467287860_1_alg».proof.Proof.Gen.KernelIdeal
import proofs.«120289_j75213467287860_1_alg».proof.Proof.Gen.ReferenceIdeal
import proofs.«120289_j75213467287860_1_alg».proof.Proof.Gen.Pre_finite_inputs
import proofs.«120289_j75213467287860_1_alg».proof.Proof.KernelFrame
import proofs.«120289_j75213467287860_1_alg».proof.Proof.KernelHyps
import proofs.«120289_j75213467287860_1_alg».proof.Proof.KernelIdealHyps
import proofs.«120289_j75213467287860_1_alg».proof.Proof.KernelIdealValue
import proofs.«120289_j75213467287860_1_alg».proof.Proof.RefValue
import proofs.«120289_j75213467287860_1_alg».proof.Proof.PreDecode
import Idealize.ShloMosaic.Adequacy
import Idealize.ShloMosaic.Init

noncomputable section

namespace Cert.Proof

open Idealize.ShloMosaic Idealize.SL.Sem Idealize.ShloMosaic.ValueIdx

/-- Under the precondition every node index of the word-level program's memory is a row of `h`, -/
theorem idx_Kernel (m : (ℓ : Loc Cert.Kernel.nD Cert.Kernel.τ Cert.Kernel.sig) → Buf (Elt Bits) ℓ) (h : Cert.Pre_Kernel m) :
    (∀ (c : Dev Cert.Kernel.nD) (e : Fin 600000), (m ((c.tc : Thread Cert.Kernel.nD Cert.Kernel.τ).loc Cert.Kernel.main_arg3) (ix1 e)).toNat < 50000)
    ∧ (∀ (c : Dev Cert.Kernel.nD) (e : Fin 600000), (m ((c.tc : Thread Cert.Kernel.nD Cert.Kernel.τ).loc Cert.Kernel.main_arg4) (ix1 e)).toNat < 50000) :=
  ⟨fun c e => (Cert.PreDecode.idx_in_range (F := Bits) _ _ _ _ _ (h c)).1 e,
    fun c e => (Cert.PreDecode.idx_in_range (F := Bits) _ _ _ _ _ (h c)).2 e⟩

/-- and of the idealized program's. -/
theorem idx_KernelIdeal (m : (ℓ : Loc Cert.KernelIdeal.nD Cert.KernelIdeal.τ Cert.KernelIdeal.sig) → Buf (Elt Ideal) ℓ) (h : Cert.Pre_KernelIdeal m) :
    (∀ (c : Dev Cert.KernelIdeal.nD) (e : Fin 600000), (m ((c.tc : Thread Cert.KernelIdeal.nD Cert.KernelIdeal.τ).loc Cert.KernelIdeal.main_arg3) (ix1 e)).toNat < 50000)
    ∧ (∀ (c : Dev Cert.KernelIdeal.nD) (e : Fin 600000), (m ((c.tc : Thread Cert.KernelIdeal.nD Cert.KernelIdeal.τ).loc Cert.KernelIdeal.main_arg4) (ix1 e)).toNat < 50000) :=
  ⟨fun c e => (Cert.PreDecode.idx_in_range (F := Ideal) _ _ _ _ _ (h c)).1 e,
    fun c e => (Cert.PreDecode.idx_in_range (F := Ideal) _ _ _ _ _ (h c)).2 e⟩

/-- The side conditions the idealized body assumes, from the precondition. -/
theorem hyps_KernelIdeal (m : (ℓ : Loc Cert.KernelIdeal.nD Cert.KernelIdeal.τ Cert.KernelIdeal.sig) → Buf (Elt Ideal) ℓ) (h : Cert.Pre_KernelIdeal m) :
    Cert.KernelIdeal.Gen.Hyps m :=
  Cert.KernelIdeal.HypsOfIdx.hyps_of_idx m (idx_KernelIdeal m h).1 (idx_KernelIdeal m h).2

theorem frame_Kernel : Cert.frame_Kernel := fun m ρ h =>
  Cert.Kernel.GenP.frame m ρ (Cert.Kernel.HypsOfIdx.hyps_of_idx m (idx_Kernel m h).1 (idx_Kernel m h).2)

theorem frame_KernelIdeal : Cert.frame_KernelIdeal := fun m ρ h =>
  Cert.KernelIdeal.GenP.frame m ρ (hyps_KernelIdeal m h)

/-- The reference is a host program: its frame is its run with the result dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the specification of the arguments, which agree. -/
theorem algebraic : Cert.algebraic_KernelIdeal_ReferenceIdeal := by
  intro m ρ m' ρ' hpre hagree
  have hi := idx_KernelIdeal m hpre
  refine ⟨fun c => Cert.Spec.score (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KValue.run m ρ (hyps_KernelIdeal m hpre), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.RefValue.result_eq _ _ _ _ _ (hi.1 c) (hi.2 c)

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
